-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg12
  let main_cst_18 : FVec F S_ .f32 := constant S_ .f32 0x7F800000#32
  let main_v50 : FVec F S32x1 .f32 := broadcastInDim S32x1 ![] bcast_S_S32x1 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1200000 32) (main_arg2 : FVec F S1200000 .f32) (main_arg3 : IVec S100000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1200000 : Shape := ⟨2, ![1, 1200000]⟩
abbrev S_ : Shape := ⟨0, ![]⟩
abbrev S1200000x1 : Shape := ⟨2, ![1200000, 1]⟩
abbrev S5000x64 : Shape := ⟨2, ![5000, 64]⟩
abbrev S1200000x64 : Shape := ⟨2, ![1200000, 64]⟩
abbrev S100000x1 : Shape := ⟨2, ![100000, 1]⟩
abbrev S1x64 : Shape := ⟨2, ![1, 64]⟩
abbrev S5000x1 : Shape := ⟨2, ![5000, 1]⟩
abbrev S1x32 : Shape := ⟨2, ![1, 32]⟩
abbrev S1x1 : Shape := ⟨2, ![1, 1]⟩
abbrev S5000x32 : Shape := ⟨2, ![5000, 32]⟩
abbrev S512x1 : Shape := ⟨2, ![512, 1]⟩
abbrev S5000x512 : Shape := ⟨2, ![5000, 512]⟩

abbrev nBuf : Space → Nat
  | .hbm => 115
  | .vmem => 57
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S1x1200000, .i32⟩
  | .hbm, ⟨15, _⟩ => ⟨S1200000, .i32⟩
  | .hbm, ⟨16, _⟩ => ⟨S1x1200000, .i32⟩
  | .hbm, ⟨17, _⟩ => ⟨S1200000, .i32⟩
  | .hbm, ⟨18, _⟩ => ⟨S_, .f32⟩
  | .hbm, ⟨19, _⟩ => ⟨S100000, .f32⟩
  | .hbm, ⟨20, _⟩ => ⟨S1200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000, .f32⟩
  | .hbm, ⟨38, _⟩ => ⟨S1200000, .f32⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000, .f32⟩
  | .hbm, ⟨48, _⟩ => ⟨S1200000, .f32⟩
  | .hbm, ⟨49, _⟩ => ⟨S100000, .f32⟩
  | .hbm, ⟨50, _⟩ => ⟨S100000x64, .f32⟩
  | .hbm, ⟨51, _⟩ => ⟨S1200000x1, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x64, .f32⟩
  | .hbm, ⟨61, _⟩ => ⟨S1200000x64, .f32⟩
  | .hbm, ⟨62, _⟩ => ⟨S1200000x64, .f32⟩
  | .hbm, ⟨63, _⟩ => ⟨S_, .f32⟩
  | .hbm, ⟨64, _⟩ => ⟨S100000x64, .f32⟩
  | .hbm, ⟨65, _⟩ => ⟨S1200000x1, .i32⟩
  | .hbm, ⟨66, _⟩ => ⟨S100000x64, .f32⟩
  | .hbm, ⟨67, _⟩ => ⟨S100000x1, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1200000x1, .f32⟩
  | .hbm, ⟨72, _⟩ => ⟨S_, .i32⟩
  | .hbm, ⟨73, _⟩ => ⟨S1200000, .i32⟩
  | .hbm, ⟨74, _⟩ => ⟨S1200000, .i1⟩
  | .hbm, ⟨75, _⟩ => ⟨S_, .i32⟩
  | .hbm, ⟨76, _⟩ => ⟨S1200000, .i32⟩
  | .hbm, ⟨77, _⟩ => ⟨S1200000, .i32⟩
  | .hbm, ⟨78, _⟩ => ⟨S1200000, .i32⟩
  | .hbm, ⟨79, _⟩ => ⟨S1200000x1, .i32⟩
  | .hbm, ⟨80, _⟩ => ⟨S1200000x64, .f32⟩
  | .hbm, ⟨81, _⟩ => ⟨S1200000x64, .f32⟩
  | .hbm, ⟨82, _⟩ => ⟨S1200000x64, .f32⟩
  | .hbm, ⟨83, _⟩ => ⟨S_, .f32⟩
  | .hbm, ⟨84, _⟩ => ⟨S100000x64, .f32⟩
  | .hbm, ⟨85, _⟩ => ⟨S1200000x1, .i32⟩
  | .hbm, ⟨86, _⟩ => ⟨S100000x64, .f32⟩
  | .hbm, ⟨87, _⟩ => ⟨S100000x1, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1200000x1, .f32⟩
  | .hbm, ⟨92, _⟩ => ⟨S_, .i32⟩
  | .hbm, ⟨93, _⟩ => ⟨S1200000, .i32⟩
  | .hbm, ⟨94, _⟩ => ⟨S1200000, .i1⟩
  | .hbm, ⟨95, _⟩ => ⟨S_, .i32⟩
  | .hbm, ⟨96, _⟩ => ⟨S1200000, .i32⟩
  | .hbm, ⟨97, _⟩ => ⟨S1200000, .i32⟩
  | .hbm, ⟨98, _⟩ => ⟨S1200000, .i32⟩
  | .hbm, ⟨99, _⟩ => ⟨S1200000x1, .i32⟩
  | .hbm, ⟨100, _⟩ => ⟨S1200000x64, .f32⟩
  | .hbm, ⟨101, _⟩ => ⟨S1200000x64, .f32⟩
  | .hbm, ⟨102, _⟩ => ⟨S1200000x64, .f32⟩
  | .hbm, ⟨103, _⟩ => ⟨S_, .f32⟩
  | .hbm, ⟨104, _⟩ => ⟨S100000x64, .f32⟩
  | .hbm, ⟨105, _⟩ => ⟨S1200000x1, .i32⟩
  | .hbm, ⟨106, _⟩ => ⟨S100000x64, .f32⟩
  | .hbm, ⟨107, _⟩ => ⟨S100000x1, .f32⟩
  | .hbm, ⟨108, _⟩ => ⟨S1x64, .f32⟩
  | .hbm, ⟨109, _⟩ => ⟨S100000x64, .f32⟩
  | .hbm, ⟨110, _⟩ => ⟨S1x32, .f32⟩
  | .hbm, ⟨111, _⟩ => ⟨S1x1, .f32⟩
  | .hbm, ⟨112, _⟩ => ⟨S100000x1, .f32⟩
  | .hbm, ⟨113, _⟩ => ⟨S100000x1, .i32⟩
  | .hbm, ⟨114, _⟩ => ⟨S512x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x32, .f32⟩
  | .local _ .vmem, ⟨45, _⟩ => ⟨S1x32, .f32⟩
  | .local _ .vmem, ⟨46, _⟩ => ⟨S32x1, .f32⟩
  | .local _ .vmem, ⟨47, _⟩ => ⟨S1x1, .f32⟩
  | .local _ .vmem, ⟨48, _⟩ => ⟨S5000x1, .f32⟩
  | .local _ .vmem, ⟨49, _⟩ => ⟨S5000x1, .f32⟩
  | .local _ .vmem, ⟨50, _⟩ => ⟨S5000x1, .f32⟩
  | .local _ .vmem, ⟨51, _⟩ => ⟨S5000x1, .f32⟩
  | .local _ .vmem, ⟨52, _⟩ => ⟨S5000x1, .i32⟩
  | .local _ .vmem, ⟨53, _⟩ => ⟨S5000x1, .i32⟩
  | .local _ .vmem, ⟨54, _⟩ => ⟨S512x1, .f32⟩
  | .local _ .vmem, ⟨55, _⟩ => ⟨S512x1, .f32⟩
  | .local _ .vmem, ⟨56, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_scratch0 : Ref sig .tc := ⟨.vmem, 55, rfl⟩
abbrev cc7_scratch1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_14 : BitVec 32 := 0#32
  let v30 : BitVec 1 := Scalar.cmpi .ne v29 c0_i32_14
  v30

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S5000x512_d1_w32 : S5000x512.Iotas .tc 32 [1]
  broadcasts_S5000x1_S5000x512 : S5000x1.Broadcasts S5000x512
  natLt_1_32 : 1 < 32
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  dot_S5000x512_S5000x1_S512x1_0_0_1_1_n_n_wf : DotDims.WF S5000x512 S5000x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S100000x1.size a
  hwx6_5 : ∀ i : grid6.Coords, EltTy.bits .f32 = 32 ∨ (Rect.block (s := S100000x1) S5000x1.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S100000x1.size a
  hwx7_0 : ∀ i : grid7.Coords, EltTy.bits .f32 = 32 ∨ (Rect.block (s := S100000x1) S5000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .i32 = 32 ∨ (Rect.block (s := S100000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x1.size a ≤ S512x1.size a
  hwx7_2 : ∀ i : grid7.Coords, EltTy.bits .f32 = 32 ∨ (Rect.block (s := S512x1) S512x1.size (cc7_transform_2 i) (hinb7_2 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def dot_S5000x512_S5000x1_S512x1_0_0_1_1_n_n : DotDims S5000x512 S5000x1 S512x1 where
  lhsContracting := [0]
  rhsContracting := [0]
  lhsNonContracting := [1]
  rhsNonContracting := [1]
  lhsBatch := []
  rhsBatch := []
  wf := dot_S5000x512_S5000x1_S512x1_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v82) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v84) S512x1.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩
abbrev S512x1 : Shape := ⟨2, ![512, 1]⟩
abbrev S512 : Shape := ⟨1, ![512]⟩

abbrev nBuf : Space → Nat
  | .hbm => 154
  | .vmem => 0
  | .smem => 0
  | _ => 0

abbrev hbmTy0_0 (i : Nat) : BufTy := match i % 128 with
  | 0 => ⟨S100000x64, .f32⟩
  | 1 => ⟨S2x1200000, .i32⟩
  | 2 => ⟨S1200000, .f32⟩
  | 3 => ⟨S100000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S1x1200000, .i32⟩
  | 15 => ⟨S1200000, .i32⟩
  | 16 => ⟨S1x1200000, .i32⟩
  | 17 => ⟨S1200000, .i32⟩
  | 18 => ⟨S_, .f32⟩
  | 19 => ⟨S100000, .f32⟩
  | 20 => ⟨S1200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000, .f32⟩
  | 38 => ⟨S1200000, .f32⟩
  | 39 => ⟨S_, .i32⟩
  | 40 => ⟨S1200000, .i32⟩
  | 41 => ⟨S1200000, .i1⟩
  | 42 => ⟨S_, .i32⟩
  | 43 => ⟨S1200000, .i32⟩
  | 44 => ⟨S1200000, .i32⟩
  | 45 => ⟨S1200000, .i32⟩
  | 46 => ⟨S1200000x1, .i32⟩
  | 47 => ⟨S1200000, .f32⟩
  | 48 => ⟨S1200000, .f32⟩
  | 49 => ⟨S100000, .f32⟩
  | 50 => ⟨S100000x64, .f32⟩
  | 51 => ⟨S1200000x1, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S1200000x64, .f32⟩
  | 62 => ⟨S1200000x64, .f32⟩
  | 63 => ⟨S_, .f32⟩
  | 64 => ⟨S100000x64, .f32⟩
  | 65 => ⟨S1200000x1, .i32⟩
  | 66 => ⟨S100000x64, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S1200000x1, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x64, .f32⟩
  | 88 => ⟨S1200000x64, .f32⟩
  | 89 => ⟨S1200000x64, .f32⟩
  | 90 => ⟨S_, .f32⟩
  | 91 => ⟨S100000x64, .f32⟩
  | 92 => ⟨S1200000x1, .i32⟩
  | 93 => ⟨S100000x64, .f32⟩
  | 94 => ⟨S100000x1, .f32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S1200000x1, .f32⟩
  | 106 => ⟨S_, .i32⟩
  | 107 => ⟨S1200000, .i32⟩
  | 108 => ⟨S1200000, .i1⟩
  | 109 => ⟨S_, .i32⟩
  | 110 => ⟨S1200000, .i32⟩
  | 111 => ⟨S1200000, .i32⟩
  | 112 => ⟨S1200000, .i32⟩
  | 113 => ⟨S1200000x1, .i32⟩
  | 114 => ⟨S1200000x64, .f32⟩
  | 115 => ⟨S1200000x64, .f32⟩
  | 116 => ⟨S1200000x64, .f32⟩
  | 117 => ⟨S_, .f32⟩
  | 118 => ⟨S100000x64, .f32⟩
  | 119 => ⟨S1200000x1, .i32⟩
  | 120 => ⟨S100000x64, .f32⟩
  | 121 => ⟨S100000x1, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x32, .f32⟩
  | 1 => ⟨S1x32, .f32⟩
  | 2 => ⟨S100000x32, .f32⟩
  | 3 => ⟨S100000x32, .f32⟩
  | 4 => ⟨S_, .f32⟩
  | 5 => ⟨S100000x32, .f32⟩
  | 6 => ⟨S100000x32, .f32⟩
  | 7 => ⟨S100000x1, .f32⟩
  | 8 => ⟨S1x1, .f32⟩
  | 9 => ⟨S100000x1, .f32⟩
  | 10 => ⟨S100000x1, .f32⟩
  | 11 => ⟨S_, .f32⟩
  | 12 => ⟨S512x1, .f32⟩
  | 13 => ⟨S100000x1, .i32⟩
  | 14 => ⟨S512x1, .f32⟩
  | 15 => ⟨S_, .f32⟩
  | 16 => ⟨S100000, .f32⟩
  | 17 => ⟨S_, .f32⟩
  | 18 => ⟨S512, .f32⟩
  | 19 => ⟨S100000x1, .i32⟩
  | 20 => ⟨S512, .f32⟩
  | 21 => ⟨S_, .f32⟩
  | 22 => ⟨S512, .f32⟩
  | 23 => ⟨S512, .f32⟩
  | 24 => ⟨S512x1, .f32⟩
  | 25 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call1_cst : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_11 : Ref sig .tc := ⟨.hbm, 106, rfl⟩
abbrev main_v75 : Ref sig .tc := ⟨.hbm, 107, rfl⟩
abbrev main_v76 : Ref sig .tc := ⟨.hbm, 108, rfl⟩
abbrev main_c_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_13 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call2_cst : Ref sig .tc := ⟨.hbm, 132, rfl⟩
abbrev main_call2_v0 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_14 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_15 : Ref sig .tc := ⟨.hbm, 143, rfl⟩
abbrev main_v106 : Ref sig .tc := ⟨.hbm, 144, rfl⟩
abbrev main_cst_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_17 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S512x1 : S_.BroadcastsInDim S512x1 (![] : Fin 0 → Fin S512x1.rank)
  bcast_S_S512 : S_.BroadcastsInDim S512 (![] : Fin 0 → Fin S512.rank)
  bcast_S512_S512x1_0 : S512.BroadcastsInDim S512x1 (![0] : Fin 1 → Fin S512x1.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []
  scatter_S512x1_S100000x1_S100000x1_1_0_0_1_wf : ScatterDims.WF S512x1 S100000x1 S100000x1 [1] [0] [0] 1
  scatter_S512_S100000x1_S100000_n_0_0_1_wf : ScatterDims.WF S512 S100000x1 S100000 [] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KI.Reg0.lean ====
/-
  Region 0 of the idealized kernel program: the node-tiled product lin = h · W of one graph-convolution layer.
  The grid has 20 points; point t stages rows 5000·t … 5000·t + 4999 of h (window 0), the whole 64 × 64 weight
  (window 1) and writes the same rows of the result (window 2).  Stated at any float instance: what each window's
  staging buffer holds after the body at a point, the body's Hoare triple, and the pipeline's body obligation,
  all relative to the buffer contents `V` the region is entered with.
-/
import proofs.«423338_j21947282882770_1_alg».proof.Proof.Gen.KernelIdeal.Launch
import proofs.«423338_j21947282882770_1_alg».proof.Proof.Gen.KernelIdeal.Skeleton
import proofs.«423338_j21947282882770_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S5000x64 := Rect.unit (s := S5000x64) ![0, 0] S5000x64.size inb_S5000x64_S5000x64_0_0
abbrev r0_b : Rect S64x64 := Rect.unit (s := S64x64) ![0, 0] S64x64.size inb_S64x64_S64x64_0_0

/-- The output window's staging buffer after the body: one store of the whole block, the product of the two loads. -/
def out0_2 (x0 : Vec F S5000x64 .f32) (x1 : Vec F S64x64 .f32) : Vec F S5000x64 .f32 :=
  View.canon [⟨r0_a, k0_pay1 (View.ld x0 r0_a) (View.ld x1 r0_b)⟩]

theorem cover0_2 (p0 : Vec F S5000x64 .f32) (y : S5000x64.Idx) :
    ∃ pc ∈ ([⟨r0_a, p0⟩] : List (View.Piece (Elt F) S5000x64 .f32)), y ∈ pc.1.set :=
  View.cover_of_tiled [⟨r0_a, p0⟩] S5000x64.size (by rfl) y

set_option maxHeartbeats 1000000 in
/-- The body on whole staging memrefs: the inputs keep their contents, the output ends at `out0_2` of them. -/
theorem sound_kernel0 (c : Dev nD) (E : Set ℕ) (i : grid0.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: arrays as entered; inputs stay at their blocks, the output's buffer
    at the body's product; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the idealized kernel program: the node-tiled combine step of one graph-convolution layer,
  out = max(agg + selfnorm · lin + bias, 0).  The grid has 20 points; point t stages rows 5000·t … 5000·t + 4999
  of the aggregate (window 0), of the linear image (window 1) and of the self-normalisation column (window 2),
  the whole bias row (window 3, whose block index never moves), and writes the same rows of the result (window 4).
  Stated at any float instance: what each window's staging buffer holds after the body at a point, the body's
  Hoare triple, and the pipeline's body obligation, all relative to the buffer contents `V` the region is entered
  with.  The arithmetic of the stored value stays closed here: only the memory traffic is followed.
-/
import proofs.«423338_j21947282882770_1_alg».proof.Proof.Gen.KernelIdeal.Launch
import proofs.«423338_j21947282882770_1_alg».proof.Proof.Gen.KernelIdeal.Skeleton
import proofs.«423338_j21947282882770_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    block index did not move since the point before, the buffer still holds that point's block, which is this one's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S5000x64 := Rect.unit (s := S5000x64) ![0, 0] S5000x64.size inb_S5000x64_S5000x64_0_0
abbrev r1_b : Rect S5000x1 := Rect.unit (s := S5000x1) ![0, 0] S5000x1.size inb_S5000x1_S5000x1_0_0
abbrev r1_c : Rect S1x64 := Rect.unit (s := S1x64) ![0, 0] S1x64.size inb_S1x64_S1x64_0_0

/-- The output window's staging buffer after the body: one store of the whole block, the combine of the four loads
    (the column is loaded first, then the aggregate, the linear image and the bias row). -/
def out1_4 (x0 : Vec F S5000x64 .f32) (x1 : Vec F S5000x64 .f32) (x2 : Vec F S5000x1 .f32) (x3 : Vec F S1x64 .f32) : Vec F S5000x64 .f32 :=
  View.canon [⟨r1_a, k1_pay1 (View.ld x2 r1_b) (View.ld x0 r1_a) (View.ld x1 r1_a) (View.ld x3 r1_c)⟩]

theorem cover1_4 (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

set_option maxHeartbeats 1000000 in
/-- The body on whole staging memrefs: the four inputs keep their contents, the output, whatever it held, ends at
    `out1_4` of them. -/
theorem sound_kernel1 (c : Dev nD) (E : Set ℕ) (i : grid1.Coords) (arg1 : Memref sig .tc .vmem S5000x64 .f32) (harg1 : arg1.IsWhole)
    (arg2 : Memref sig .tc .vmem S5000x64 .f32) (harg2 : arg2.IsWhole) (arg3 : Memref sig .tc .vmem S5000x1 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: arrays as entered; inputs stay at their blocks, the output's buffer
    at the body's combine; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg6.lean ====
/-
  Region 6 of the idealized kernel program: the read-out r = max(h · RW1 + Rb1, 0) · RW2 + Rb2 on node tiles.
  The grid has 20 points; point t stages rows 5000·t … 5000·t + 4999 of h (window 0), the whole 64 × 32 weight
  (window 1), the 1 × 32 bias row (window 2), the whole 32 × 1 weight (window 3), the 1 × 1 bias (window 4) and
  writes the same rows of the 100000 × 1 result (window 5).  Stated at any float instance: what each window's
  staging buffer holds after the body at a point, the body's Hoare triple, and the pipeline's body obligation,
  all relative to the buffer contents `V` the region is entered with.
-/
import proofs.«423338_j21947282882770_1_alg».proof.Proof.Gen.KernelIdeal.Launch
import proofs.«423338_j21947282882770_1_alg».proof.Proof.Gen.KernelIdeal.Skeleton
import proofs.«423338_j21947282882770_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S5000x64 := Rect.unit (s := S5000x64) ![0, 0] S5000x64.size inb_S5000x64_S5000x64_0_0
abbrev r6_b : Rect S64x32 := Rect.unit (s := S64x32) ![0, 0] S64x32.size inb_S64x32_S64x32_0_0
abbrev r6_c : Rect S1x32 := Rect.unit (s := S1x32) ![0, 0] S1x32.size inb_S1x32_S1x32_0_0
abbrev r6_d : Rect S32x1 := Rect.unit (s := S32x1) ![0, 0] S32x1.size inb_S32x1_S32x1_0_0
abbrev r6_e : Rect S1x1 := Rect.unit (s := S1x1) ![0, 0] S1x1.size inb_S1x1_S1x1_0_0
abbrev r6_f : Rect S5000x1 := Rect.unit (s := S5000x1) ![0, 0] S5000x1.size inb_S5000x1_S5000x1_0_0

/-- The output window's staging buffer after the body: one store of the whole block, the read-out of the five loads. -/
def out6_5 (x0 : Vec F S5000x64 .f32) (x1 : Vec F S64x32 .f32) (x2 : Vec F S1x32 .f32) (x3 : Vec F S32x1 .f32) (x4 : Vec F S1x1 .f32) :
    Vec F S5000x1 .f32 :=
  View.canon [⟨r6_f, k6_pay1 (View.ld x0 r6_a) (View.ld x1 r6_b) (View.ld x2 r6_c) (View.ld x3 r6_d) (View.ld x4 r6_e)⟩]

theorem cover6_5 (p0 : Vec F S5000x1 .f32) (y : S5000x1.Idx) :
    ∃ pc ∈ ([⟨r6_f, p0⟩] : List (View.Piece (Elt F) S5000x1 .f32)), y ∈ pc.1.set :=
  View.cover_of_tiled [⟨r6_f, p0⟩] S5000x1.size (by rfl) y

set_option maxHeartbeats 2000000 in
/-- The body on whole staging memrefs: the inputs keep their contents, the output ends at `out6_5` of them. -/
theorem sound_kernel6 (c : Dev nD) (E : Set ℕ) (i : grid6.Coords) (arg1 : Memref sig .tc .vmem S5000x64 .f32) (harg1 : arg1.IsWhole)
    (arg2 : Memref sig .tc .vmem S64x32 .f32) (harg2 : arg2.IsWhole) (arg3 : Memref sig .tc .vmem S1x32 .f32) (harg3 : arg3.IsWhole)
    (arg4 : Memref sig .tc .vmem S32x1 .f32) (harg4 : arg4.IsWhole) (arg5 : Memref sig .tc .vmem S1x1 .f32) (harg5 : arg5.IsWhole)
    (arg6 : Memref sig .tc .vmem S5000x1 .f32) (harg6 : arg6.IsWhole)
    (x0 : Vec F S5000x64 .f32) (x1 : Vec F S64x32 .f32) (x2 : Vec F S1x32 .f32) (x3 : Vec F S32x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__mlp_kernel i arg1 harg1 arg2 harg2 arg3 harg3 arg4 harg4 arg5 harg5 arg6 harg6) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core `c`: arrays as entered; inputs stay at their blocks, the output's buffer
    at the body's read-out; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7 of the kernel program: the graph-mean pooling.  The grid has 20 points; point t stages rows
  5000·t … 5000·t + 4999 of the read-out column (window 0) and of the graph ids (window 1); window 2 is the 512 × 1
  output, whose block index never moves, so it is written back after the last point only.  Two 512 × 1 scratch buffers
  carry the running sums and the running counts from point to point: the first point resets both to zero, every
  point adds onehot(ids)ᵀ · r to the sums and onehot(ids)ᵀ · 1 to the counts, and the last point stores
  sums / max(counts, 1) into the output's staging buffer.  Stated at any float instance: what the accumulators and the
  output's buffer hold after each point (by recursion on the point), the body's Hoare triple in each of the three
  control cases (first point, middle points, last point), the region invariant carrying the accumulators, and the
  pipeline's body obligation, all relative to the buffer contents `V` the region is entered with.
-/
import proofs.«423338_j21947282882770_1_alg».proof.Proof.Gen.KernelIdeal.Launch
import proofs.«423338_j21947282882770_1_alg».proof.Proof.Gen.KernelIdeal.Skeleton
import proofs.«423338_j21947282882770_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S5000x1 := Rect.unit (s := S5000x1) ![0, 0] S5000x1.size inb_S5000x1_S5000x1_0_0
abbrev r7_b : Rect S512x1 := Rect.unit (s := S512x1) ![0, 0] S512x1.size inb_S512x1_S512x1_0_0

/-- The running sums after the reset at the first point. -/
def zs7 : Vec F S512x1 .f32 := View.canon [⟨r7_b, k7_pay1⟩]
/-- The running counts after the reset at the first point. -/
def zc7 : Vec F S512x1 .f32 := View.canon [⟨r7_b, k7_pay2⟩]
/-- The running sums after one point's accumulation: `x0` the point's block of the read-out column, `x1` its block of
    graph ids, `s` the sums as the point finds them. -/
def sum7 (x0 : Vec F S5000x1 .f32) (x1 : Vec F S5000x1 .i32) (s : Vec F S512x1 .f32) : Vec F S512x1 .f32 :=
  View.canon [⟨r7_b, k7_pay4 (View.ld x1 r7_a) (View.ld x0 r7_a) (View.ld s r7_b)⟩]
/-- The running counts after one point's accumulation. -/
def cnt7 (x1 : Vec F S5000x1 .i32) (n : Vec F S512x1 .f32) : Vec F S512x1 .f32 :=
  View.canon [⟨r7_b, k7_pay5 (View.ld x1 r7_a) (View.ld n r7_b)⟩]
/-- The quotient the last point stores into the output's staging buffer, of the sums `s` and the counts `n`. -/
def out7 (s n : Vec F S512x1 .f32) : Vec F S512x1 .f32 :=
  View.canon [⟨r7_b, k7_pay6 (View.ld s r7_b) (View.ld n r7_b)⟩]

/-- After the body at point `n`: (the quotient of the two accumulators as they then stand — what the output's staging buffer holds
    after the LAST point, the only one that stores it —, the running sums, the running counts). -/
def outsAt7 (c : Dev nD) : (n : ℕ) → n < cfg7.N → Vec F S512x1 .f32 × Vec F S512x1 .f32 × Vec F S512x1 .f32
  | 0, hn =>
    (out7 (sum7 (iblk7 V c 0 ⟨0, hn⟩) (iblk7 V c 1 ⟨0, hn⟩) zs7) (cnt7 (iblk7 V c 1 ⟨0, hn⟩) zc7),
      sum7 (iblk7 V c 0 ⟨0, hn⟩) (iblk7 V c 1 ⟨0, hn⟩) zs7, cnt7 (iblk7 V c 1 ⟨0, hn⟩) zc7)
  | n + 1, hn =>
    (out7 (sum7 (iblk7 V c 0 ⟨n + 1, hn⟩) (iblk7 V c 1 ⟨n + 1, hn⟩) (outsAt7 c n (Nat.lt_of_succ_lt hn)).2.1)
        (cnt7 (iblk7 V c 1 ⟨n + 1, hn⟩) (outsAt7 c n (Nat.lt_of_succ_lt hn)).2.2),
      sum7 (iblk7 V c 0 ⟨n + 1, hn⟩) (iblk7 V c 1 ⟨n + 1, hn⟩) (outsAt7 c n (Nat.lt_of_succ_lt hn)).2.1,
      cnt7 (iblk7 V c 1 ⟨n + 1, hn⟩) (outsAt7 c n (Nat.lt_of_succ_lt hn)).2.2)

theorem outsAt7_zero (c : Dev nD) (hn : 0 < cfg7.N) :
    outsAt7 V c 0 hn = (out7 (sum7 (iblk7 V c 0 ⟨0, hn⟩) (iblk7 V c 1 ⟨0, hn⟩) zs7) (cnt7 (iblk7 V c 1 ⟨0, hn⟩) zc7),
      sum7 (iblk7 V c 0 ⟨0, hn⟩) (iblk7 V c 1 ⟨0, hn⟩) zs7, cnt7 (iblk7 V c 1 ⟨0, hn⟩) zc7) := rfl

theorem outsAt7_succ (c : Dev nD) (n : ℕ) (hn : n + 1 < cfg7.N) :
    outsAt7 V c (n + 1) hn =
      (out7 (sum7 (iblk7 V c 0 ⟨n + 1, hn⟩) (iblk7 V c 1 ⟨n + 1, hn⟩) (outsAt7 V c n (Nat.lt_of_succ_lt hn)).2.1)
        (cnt7 (iblk7 V c 1 ⟨n + 1, hn⟩) (outsAt7 V c n (Nat.lt_of_succ_lt hn)).2.2),
      sum7 (iblk7 V c 0 ⟨n + 1, hn⟩) (iblk7 V c 1 ⟨n + 1, hn⟩) (outsAt7 V c n (Nat.lt_of_succ_lt hn)).2.1,
      cnt7 (iblk7 V c 1 ⟨n + 1, hn⟩) (outsAt7 V c n (Nat.lt_of_succ_lt hn)).2.2) := rfl

/-- One whole-block store covers the 512 × 1 buffer. -/
theorem cover7_b (p0 : Vec F S512x1 .f32) (y : S512x1.Idx) :
    ∃ pc ∈ ([⟨r7_b, p0⟩] : List (View.Piece (Elt F) S512x1 .f32)), y ∈ pc.1.set :=
  View.cover_of_tiled [⟨r7_b, p0⟩] S512x1.size (by rfl) y

/-- The condition of the reset (the first conditional), from the grid coordinate. -/
abbrev cond7_1 (i : grid7.Coords) : Prop := (Scalar.cmpi .ne (Scalar.extui (Scalar.cmpi .eq (BitVec.ofNat 32 (i 0).val) 0#32)) 0#32) = 1#1
/-- The condition of the output's store (the second conditional). -/
abbrev cond7_2 (i : grid7.Coords) : Prop := k7_cond2 i = 1#1

/-- Every index lies in the whole-block rectangle. -/
theorem mem7_b (p0 : Vec F S512x1 .f32) (y : S512x1.Idx) : y ∈ (⟨r7_b, p0⟩ : View.Piece (Elt F) S512x1 .f32).1.set := by
  obtain ⟨pc, hm, hy⟩ := cover7_b p0 y
  rw [List.mem_singleton] at hm; subst hm; exact hy

/-! ## The body's triple in each control case

On whole staging memrefs: the inputs keep their contents; the two accumulators end at `sum7` / `cnt7` of what they held
(of the reset values at the first point, where they may hold anything on entry); the output's buffer is handed back as found
except at the last point, where it ends at `out7` of the two accumulators. A load that follows a covering store of the same
buffer reads that store's payload. -/

set_option maxHeartbeats 1000000 in
/-- The first point: reset, then accumulate. -/
theorem run7_A (c : Dev nD) (E : Set ℕ) (i : grid7.Coords) (hc1 : cond7_1 i) (hc2 : ¬cond7_2 i)
    (arg1 : Memref sig .tc .vmem S5000x1 .f32) (harg1 : arg1.IsWhole)
    (arg2 : Memref sig .tc .vmem S5000x1 .i32) (harg2 : arg2.IsWhole) (arg3 : Memref sig .tc .vmem S512x1 .f32) (harg3 : arg3.IsWhole)
    (arg4 : Memref sig .tc .vmem S512x1 .f32) (harg4 : arg4.IsWhole) (arg5 : Memref sig .tc .vmem S512x1 .f32) (harg5 : arg5.IsWhole)
    (x0 : Vec F S5000x1 .f32) (x1 : Vec F S5000x1 .i32) (xi : Vec F S512x1 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (sum7 x0 x1 zs7) ∗ owns (c : Thread nD τ) arg5 fullShare (cnt7 x1 zc7)) -∗ K ⟨⟩))
      ⊢ wp frame (wpE (defs₀ (F := F)) Variants.none c none) E (cc7__pool_kernel i arg1 harg1 arg2 harg2 arg3 harg3 arg4 harg4 arg5 harg5) K := by
  simp only [cc7__pool_kernel_eq_skeleton]; unfold cc7__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc1 | exact hc2)
  sl_step
  iapply Hk
  have hv18 : run7_A.sl.v18 (F := F) c arg4 = View.ld (zs7 (F := F)) r7_b := by
    unfold run7_A.sl.v18 run7_A.sl.HS0_1 zs7
    exact View.readCov_eq_canon_ld _ _ _ (cover7_b _)
  have hv23 : run7_A.sl.v23 (F := F) c arg5 = View.ld (zc7 (F := F)) r7_b := by
    unfold run7_A.sl.v23 run7_A.sl.HS1_1 zc7
    exact View.readCov_eq_canon_ld _ _ _ (cover7_b _)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    rw [hv18]
    exact (View.read_writes_of_cover_last _ _ arg4.view fs0 _ _ [] (mem7_b _)).trans (View.read_writes_eq_canon _ _ _ (cover7_b _))
  iexists _; isplitr
  swap; · iexact HS1
  ipureintro
  rw [hv23]
  exact (View.read_writes_of_cover_last _ _ arg5.view fs1 _ _ [] (mem7_b _)).trans (View.read_writes_eq_canon _ _ _ (cover7_b _))

set_option maxHeartbeats 1000000 in
/-- A middle point: accumulate. -/
theorem run7_B (c : Dev nD) (E : Set ℕ) (i : grid7.Coords) (hc1 : ¬cond7_1 i) (hc2 : ¬cond7_2 i)
    (arg1 : Memref sig .tc .vmem S5000x1 .f32) (harg1 : arg1.IsWhole)
    (arg2 : Memref sig .tc .vmem S5000x1 .i32) (harg2 : arg2.IsWhole) (arg3 : Memref sig .tc .vmem S512x1 .f32) (harg3 : arg3.IsWhole)
    (arg4 : Memref sig .tc .vmem S512x1 .f32) (harg4 : arg4.IsWhole) (arg5 : Memref sig .tc .vmem S512x1 .f32) (harg5 : arg5.IsWhole)
    (x0 : Vec F S5000x1 .f32) (x1 : Vec F S5000x1 .i32) (xi : Vec F S512x1 .f32) (s n : Vec F S512x1 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare s ∗ owns (c : Thread nD τ) arg5 fullShare n
        ∗ (iprop(owns (c : Thread nD τ) arg1 fullShare x0 ∗ owns (c : Thread nD τ) arg2 fullShare x1 ∗ owns (c : Thread nD τ) arg3 fullShare xi
            ∗ owns (c : Thread nD τ) arg4 fullShare (sum7 x0 x1 s) ∗ owns (c : Thread nD τ) arg5 fullShare (cnt7 x1 n)) -∗ K ⟨⟩))
      ⊢ wp frame (wpE (defs₀ (F := F)) Variants.none c none) E (cc7__pool_kernel i arg1 harg1 arg2 harg2 arg3 harg3 arg4 harg4 arg5 harg5) K := by
  simp only [cc7__pool_kernel_eq_skeleton]; unfold cc7__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    exact View.read_writes_eq_canon _ _ _ (cover7_b _)
  iexists _; isplitr
  swap; · iexact HS1
  ipureintro
  exact View.read_writes_eq_canon _ _ _ (cover7_b _)

set_option maxHeartbeats 1000000 in
/-- The last point: accumulate, then store the quotient into the output's buffer. -/
theorem run7_C (c : Dev nD) (E : Set ℕ) (i : grid7.Coords) (hc1 : ¬cond7_1 i) (hc2 : cond7_2 i)
    (arg1 : Memref sig .tc .vmem S5000x1 .f32) (harg1 : arg1.IsWhole)
    (arg2 : Memref sig .tc .vmem S5000x1 .i32) (harg2 : arg2.IsWhole) (arg3 : Memref sig .tc .vmem S512x1 .f32) (harg3 : arg3.IsWhole)
    (arg4 : Memref sig .tc .vmem S512x1 .f32) (harg4 : arg4.IsWhole) (arg5 : Memref sig .tc .vmem S512x1 .f32) (harg5 : arg5.IsWhole)
    (x0 : Vec F S5000x1 .f32) (x1 : Vec F S5000x1 .i32) (s n : Vec F S512x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (out7 (sum7 x0 x1 s) (cnt7 x1 n))
            ∗ owns (c : Thread nD τ) arg4 fullShare (sum7 x0 x1 s) ∗ owns (c : Thread nD τ) arg5 fullShare (cnt7 x1 n)) -∗ K ⟨⟩))
      ⊢ wp frame (wpE (defs₀ (F := F)) Variants.none c none) E (cc7__pool_kernel i arg1 harg1 arg2 harg2 arg3 harg3 arg4 harg4 arg5 harg5) K := by
  simp only [cc7__pool_kernel_eq_skeleton]; unfold cc7__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  subst hf0; subst hf1; subst hfs0; subst hfs1
  sl_exec (disch := first | exact hc1 | exact hc2)
  sl_step
  iapply Hk
  have hv31 : run7_C.sl.v31 c arg1 arg2 arg4 f0 f1 fs0
      = View.ld (sum7 (arg1.view.read (Elt F) f0) (arg2.view.read (Elt F) f1) (arg4.view.read (Elt F) fs0)) r7_b := by
    unfold run7_C.sl.v31 run7_C.sl.HS0_1 sum7
    exact View.readCov_eq_canon_ld _ _ _ (cover7_b _)
  have hv32 : run7_C.sl.v32 c arg2 arg5 f1 fs1
      = View.ld (cnt7 (arg2.view.read (Elt F) f1) (arg5.view.read (Elt F) fs1)) r7_b := by
    unfold run7_C.sl.v32 run7_C.sl.HS1_1 cnt7
    exact View.readCov_eq_canon_ld _ _ _ (cover7_b _)
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [hv31, hv32]
    exact View.read_writes_eq_canon _ _ _ (cover7_b _)
  isplitl [HS0]
  · iexists _; isplitr
    swap; · iexact HS0
    ipureintro
    unfold run7_C.sl.HS0_1
    exact View.read_writes_eq_canon _ _ _ (cover7_b _)
  iexists _; isplitr
  swap; · iexact HS1
  ipureintro
  unfold run7_C.sl.HS1_1
  exact View.read_writes_eq_canon _ _ _ (cover7_b _)

/-! ## The two conditions in closed form, and where the output window is idle -/

/-- The reset's condition holds at the first point only. -/
theorem hcond7_1 : ∀ t : Fin cfg7.N, cond7_1 (grid7.coords t) ↔ t.val = 0 :=
  (by decide +kernel : ∀ t : Fin grid7.N, cond7_1 (grid7.coords t) ↔ t.val = 0)
/-- The output store's condition holds at the last point only. -/
theorem hcond7_2 : ∀ t : Fin cfg7.N, cond7_2 (grid7.coords t) ↔ t.val = 19 :=
  (by decide +kernel : ∀ t : Fin grid7.N, cond7_2 (grid7.coords t) ↔ t.val = 19)

theorem liveAt7_0 : ∀ t : Fin cfg7.N, cfg7.idle 0 (grid7.coords t) = false := by decide +kernel
theorem liveAt7_1 : ∀ t : Fin cfg7.N, cfg7.idle 1 (grid7.coords t) = false := by decide +kernel
/-- Off the last point the output window is idle and is not written back. -/
theorem idleAt7_2 : ∀ t : Fin cfg7.N, ¬cond7_2 (grid7.coords t) → cfg7.idle 2 (grid7.coords t) = true := by decide +kernel
theorem noFlush7_2 : ∀ t : Fin cfg7.N, ¬cond7_2 (grid7.coords t) → (cfg7.win 2).flush t = false := by decide +kernel
/-- At the last point it is live. -/
theorem liveAt7_2 : ∀ t : Fin cfg7.N, cond7_2 (grid7.coords t) → cfg7.idle 2 (grid7.coords t) = false := by decide +kernel

/-! ## The accumulation at a point of the grid -/

/-- At the first point the accumulators start from the reset. -/
theorem outsAt7_first (c : Dev nD) (t : Fin cfg7.N) (hz : t.val = 0) :
    outsAt7 V c t.val t.isLt = (out7 (sum7 (iblk7 V c 0 t) (iblk7 V c 1 t) zs7) (cnt7 (iblk7 V c 1 t) zc7),
      sum7 (iblk7 V c 0 t) (iblk7 V c 1 t) zs7, cnt7 (iblk7 V c 1 t) zc7) := by
  obtain ⟨n, hn⟩ := t
  cases n with
  | zero => rfl
  | succ n => exact absurd hz (Nat.succ_ne_zero n)

/-- At any later point they start from what the point before left. -/
theorem outsAt7_pos (c : Dev nD) (t : Fin cfg7.N) (hz : t.val ≠ 0) :
    outsAt7 V c t.val t.isLt =
      (out7 (sum7 (iblk7 V c 0 t) (iblk7 V c 1 t) (outsAt7 V c (t.val - 1) (Nat.lt_of_le_of_lt (Nat.sub_le _ _) t.isLt)).2.1)
        (cnt7 (iblk7 V c 1 t) (outsAt7 V c (t.val - 1) (Nat.lt_of_le_of_lt (Nat.sub_le _ _) t.isLt)).2.2),
      sum7 (iblk7 V c 0 t) (iblk7 V c 1 t) (outsAt7 V c (t.val - 1) (Nat.lt_of_le_of_lt (Nat.sub_le _ _) t.isLt)).2.1,
      cnt7 (iblk7 V c 1 t) (outsAt7 V c (t.val - 1) (Nat.lt_of_le_of_lt (Nat.sub_le _ _) t.isLt)).2.2) := by
  obtain ⟨n, hn⟩ := t
  cases n with
  | zero => exact absurd rfl hz
  | succ n => rfl

/-! ## The invariant -/

/-- The two scratch operands: whole buffers of the kernel's own, passed beside the windows. -/
abbrev scM7_0 : Memref sig .tc .vmem S512x1 .f32 := Memref.whole cc7_scratch0
abbrev scM7_1 : Memref sig .tc .vmem S512x1 .f32 := Memref.whole cc7_scratch1

/-- Every other scoped buffer of the core, unopened. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The class invariant with the two scratch operands as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c)
          ∗ (∃ r, prngReg c r)) := by
  unfold Pipeline.ΦA; rw [scopedRest7_split]; simp only [scM7_0, scM7_1, owns_whole]; try rfl

/-- The region invariant before position `n`: before the first point the class invariant (both scratch buffers at anything);
    afterwards the running sums and counts at what the point before left, the other scoped buffers unopened, the generator
    register at some state. -/
def Phi7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.1
        ∗ owns (c : Thread nD τ) scM7_1 fullShare (outsAt7 V c n hn).2.2) ∗ rest7 c) ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) scM7_0 fullShare (outsAt7 V c n hn).2.1
        ∗ owns (c : Thread nD τ) scM7_1 fullShare (outsAt7 V c n hn).2.2) ∗ rest7 c) ∗ (∃ r, prngReg c r)) := rfl

theorem Phi7_pos (c : Dev nD) (n : ℕ) (h : n ≤ cfg7.N) (hz : n ≠ 0) :
    Phi7 V c n h = iprop(iprop(iprop(owns (c : Thread nD τ) scM7_0 fullShare (outsAt7 V c (n - 1) (by omega)).2.1
        ∗ owns (c : Thread nD τ) scM7_1 fullShare (outsAt7 V c (n - 1) (by omega)).2.2) ∗ rest7 c) ∗ (∃ r, prngReg c r)) := by
  cases n with
  | zero => exact absurd rfl hz
  | succ n => rfl

/-! ## The proof data -/

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The proof data of pipeline 7 on core `c`: arrays as entered; the inputs stay at their blocks; the output's buffer at the
    quotient of the accumulators as they stand after the point; the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point. The closed forms say which control case the point is in; the invariant hands the body the two
    accumulators (at anything at the first point, else at what the point before left) and takes them back at this point's
    contents; off the last point the output's buffer goes back as found. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 20 := lt_of_lt_of_eq t.isLt (show cfg7.N = 20 from N_7)
  by_cases h2 : t.val = 19
  · have hz : t.val ≠ 0 := by omega
    rw [show (dat7 V c).leavesExact 2 t = owns (c : Thread nD τ) (st7_2 t) fullShare ((dat7 V c).after 2 t) from by
      unfold Dat.leavesExact; rw [liveAt7_2 t ((hcond7_2 t).mpr h2)], after7_2]
    rw [outsAt7_pos V c t hz]; dsimp only
    rw [Phi7_castSucc V c t, Phi7_pos V c _ _ hz]
    iintro ⟨⟨⟨⟨HS0, HS1⟩, Hr⟩, Hg⟩, Ho, ⟨%d0, H0⟩, ⟨%d1, H1⟩, ⟨%d2, H2⟩⟩
    iapply (run7_C c Set.univ (grid7.coords t) (fun h => hz ((hcond7_1 t).mp h)) ((hcond7_2 t).mpr h2) _ _ _ _ _ _ _ _ _ _
      (iblk7 V c 0 t) (iblk7 V c 1 t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    iexact H2
  · have hc2 : ¬cond7_2 (grid7.coords t) := fun h => h2 ((hcond7_2 t).mp h)
    rw [Dat.leavesExact_idle (dat7 V c) 2 t (idleAt7_2 t hc2) (noFlush7_2 t hc2)]
    by_cases hz : t.val = 0
    · rw [outsAt7_first V c t hz]; dsimp only
      rw [Phi7_castSucc V c t, Phi7_zero V c _ _ hz, PhiA7_eq]
      iintro ⟨⟨⟨⟨HS0, HS1⟩, Hr⟩, Hg⟩, Ho, ⟨%d0, H0⟩, ⟨%d1, H1⟩, ⟨%d2, H2⟩⟩
      iapply (run7_A c Set.univ (grid7.coords t) ((hcond7_1 t).mpr hz) hc2 _ _ _ _ _ _ _ _ _ _
        (iblk7 V c 0 t) (iblk7 V c 1 t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexists _; iexact H2
    · rw [outsAt7_pos V c t hz]; dsimp only
      rw [Phi7_castSucc V c t, Phi7_pos V c _ _ hz]
      iintro ⟨⟨⟨⟨HS0, HS1⟩, Hr⟩, Hg⟩, Ho, ⟨%d0, H0⟩, ⟨%d1, H1⟩, ⟨%d2, H2⟩⟩
      iapply (run7_B c Set.univ (grid7.coords t) (fun h => hz ((hcond7_1 t).mp h)) hc2 _ _ _ _ _ _ _ _ _ _
        (iblk7 V c 0 t) (iblk7 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexists _; iexact H2

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

/-- The class invariant (scoped rest, generator register) gives the region's invariant before the first point. -/
theorem hin7 (c : Dev nD) : Pipeline.ΦA spec7 c ⊢ (dat7 V c).Φ 0 := by
  rw [show (dat7 V c).Φ 0 = Phi7 V c 0 (Nat.zero_le _) from rfl, Phi7_zero V c 0 _ rfl]

/-- After any point but the first the invariant gives the class invariant back: the accumulators' contents are forgotten. -/
theorem Phi7_out (c : Dev nD) (t : Fin (cfg7.N + 1)) (ht : t.val ≠ 0) : (dat7 V c).Φ t ⊢ Pipeline.ΦA spec7 c := by
  rw [show (dat7 V c).Φ t = Phi7 V c t.val (Nat.le_of_lt_succ t.isLt) from rfl, Phi7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The invariant after the last point gives the class invariant back (the scratch contents forgotten). -/
theorem hout7 (c : Dev nD) : (dat7 V c).Φ (Fin.last cfg7.N) ⊢ Pipeline.ΦA spec7 c :=
  Phi7_out V c _ (by rw [Fin.val_last]; have : cfg7.N = 20 := N_7; omega)

end Cert.KernelIdeal.Hand

end
-- ==== Proof.KI.Chain.lean ====
/-
  The contents of core c's unscoped buffers at every boundary between two items of @main, written out: the launch
  memory, then each stretch of host operations applied, then after each kernel region the region's output array at
  what its write-backs leave (the fold of the flushed blocks over the entry contents) and every other buffer as
  before.  These are the values the conditional several-region frame is instantiated at, and the values the
  equivalence with the reference is read from.
-/
import proofs.«423338_j21947282882770_1_alg».proof.Proof.KI.Reg0
import proofs.«423338_j21947282882770_1_alg».proof.Proof.KI.Reg1
import proofs.«423338_j21947282882770_1_alg».proof.Proof.KI.Reg2
import proofs.«423338_j21947282882770_1_alg».proof.Proof.KI.Reg3
import proofs.«423338_j21947282882770_1_alg».proof.Proof.KI.Reg4
import proofs.«423338_j21947282882770_1_alg».proof.Proof.KI.Reg5
import proofs.«423338_j21947282882770_1_alg».proof.Proof.KI.Reg6
import proofs.«423338_j21947282882770_1_alg».proof.Proof.KI.Reg7
import proofs.«423338_j21947282882770_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A boundary's contents read at the TensorCore's references (what a region's proof data take). -/
abbrev T (X : Dev nD → Valuation τ sig (Elt F)) : (c : Dev nD) → (b : Ref sig .tc) → Buf (Elt F) ((c : Thread nD τ).loc b) :=
  fun c b => X c b

/-- Boundary 0: the launch memory. -/
abbrev X0 (c : Dev nD) : Valuation τ sig (Elt F) := fun b => m (c, b)
/-- Boundary 1: after the host stretch `hostOps0`. -/
def X1 (c : Dev nD) : Valuation τ sig (Elt F) := StableHlo.after hostOps0 (X0 m c)
/-- Boundary 2: after region 0, whose output array `main_v29` holds what the write-backs of its 20 points leave. -/
def X2 (c : Dev nD) : Valuation τ sig (Elt F) :=
  Function.update (X1 m c) main_v29 ((dat0 (T (X1 m)) c).arrAt 2 cfg0.N)
/-- Boundary 3: after the host stretch `hostOps1`. -/
def X3 (c : Dev nD) : Valuation τ sig (Elt F) := StableHlo.after hostOps1 (X2 m c)
/-- Boundary 4: after region 1, whose output array `main_v45` holds what the write-backs of its 20 points leave. -/
def X4 (c : Dev nD) : Valuation τ sig (Elt F) :=
  Function.update (X3 m c) main_v45 ((dat1 (T (X3 m)) c).arrAt 4 cfg1.N)
/-- Boundary 5: after region 2, whose output array `main_v46` holds what the write-backs of its 20 points leave. -/
def X5 (c : Dev nD) : Valuation τ sig (Elt F) :=
  Function.update (X4 m c) main_v46 ((dat2 (T (X4 m)) c).arrAt 2 cfg2.N)
/-- Boundary 6: after the host stretch `hostOps3`. -/
def X6 (c : Dev nD) : Valuation τ sig (Elt F) := StableHlo.after hostOps3 (X5 m c)
/-- Boundary 7: after region 3, whose output array `main_v62` holds what the write-backs of its 20 points leave. -/
def X7 (c : Dev nD) : Valuation τ sig (Elt F) :=
  Function.update (X6 m c) main_v62 ((dat3 (T (X6 m)) c).arrAt 4 cfg3.N)
/-- Boundary 8: after region 4, whose output array `main_v63` holds what the write-backs of its 20 points leave. -/
def X8 (c : Dev nD) : Valuation τ sig (Elt F) :=
  Function.update (X7 m c) main_v63 ((dat4 (T (X7 m)) c).arrAt 2 cfg4.N)
/-- Boundary 9: after the host stretch `hostOps5`. -/
def X9 (c : Dev nD) : Valuation τ sig (Elt F) := StableHlo.after hostOps5 (X8 m c)
/-- Boundary 10: after region 5, whose output array `main_v79` holds what the write-backs of its 20 points leave. -/
def X10 (c : Dev nD) : Valuation τ sig (Elt F) :=
  Function.update (X9 m c) main_v79 ((dat5 (T (X9 m)) c).arrAt 4 cfg5.N)
/-- Boundary 11: after the host stretch `hostOps6`. -/
def X11 (c : Dev nD) : Valuation τ sig (Elt F) := StableHlo.after hostOps6 (X10 m c)
/-- Boundary 12: after region 6, whose output array `main_v82` holds what the write-backs of its 20 points leave. -/
def X12 (c : Dev nD) : Valuation τ sig (Elt F) :=
  Function.update (X11 m c) main_v82 ((dat6 (T (X11 m)) c).arrAt 5 cfg6.N)
/-- Boundary 13: after the host stretch `hostOps7`. -/
def X13 (c : Dev nD) : Valuation τ sig (Elt F) := StableHlo.after hostOps7 (X12 m c)
/-- Boundary 14: after region 7, whose output array `main_v84` holds what the write-backs of its 20 points leave. -/
def X14 (c : Dev nD) : Valuation τ sig (Elt F) :=
  Function.update (X13 m c) main_v84 ((dat7 (T (X13 m)) c).arrAt 2 cfg7.N)

/-- What the regions leave in their output arrays, as the conditional frame's unknowns: boundary J's contents. -/
def outs : Outs (F := F) := fun J r c =>
  match J with
  | 2 => X2 m c r | 4 => X4 m c r | 5 => X5 m c r | 7 => X7 m c r | 8 => X8 m c r
  | 10 => X10 m c r | 12 => X12 m c r | 14 => X14 m c r | _ => X0 m c r

/-! The conditional frame's valuations at these unknowns are the boundaries above. -/

theorem V1_eq (c : Dev nD) : V1 m c = X1 m c := rfl
theorem V2_eq (c : Dev nD) : V2 m (outs m) c = X2 m c := by
  unfold V2; rw [V1_eq]
  show Function.update (X1 m c) main_v29 (X2 m c main_v29) = X2 m c
  unfold X2; rw [Function.update_self]
theorem V3_eq (c : Dev nD) : V3 m (outs m) c = X3 m c := by
  unfold V3 X3; rw [V2_eq]
theorem V4_eq (c : Dev nD) : V4 m (outs m) c = X4 m c := by
  unfold V4; rw [V3_eq]
  show Function.update (X3 m c) main_v45 (X4 m c main_v45) = X4 m c
  unfold X4; rw [Function.update_self]
theorem V5_eq (c : Dev nD) : V5 m (outs m) c = X5 m c := by
  unfold V5; rw [V4_eq]
  show Function.update (X4 m c) main_v46 (X5 m c main_v46) = X5 m c
  unfold X5; rw [Function.update_self]
theorem V6_eq (c : Dev nD) : V6 m (outs m) c = X6 m c := by
  unfold V6 X6; rw [V5_eq]
theorem V7_eq (c : Dev nD) : V7 m (outs m) c = X7 m c := by
  unfold V7; rw [V6_eq]
  show Function.update (X6 m c) main_v62 (X7 m c main_v62) = X7 m c
  unfold X7; rw [Function.update_self]
theorem V8_eq (c : Dev nD) : V8 m (outs m) c = X8 m c := by
  unfold V8; rw [V7_eq]
  show Function.update (X7 m c) main_v63 (X8 m c main_v63) = X8 m c
  unfold X8; rw [Function.update_self]
theorem V9_eq (c : Dev nD) : V9 m (outs m) c = X9 m c := by
  unfold V9 X9; rw [V8_eq]
theorem V10_eq (c : Dev nD) : V10 m (outs m) c = X10 m c := by
  unfold V10; rw [V9_eq]
  show Function.update (X9 m c) main_v79 (X10 m c main_v79) = X10 m c
  unfold X10; rw [Function.update_self]
theorem V11_eq (c : Dev nD) : V11 m (outs m) c = X11 m c := by
  unfold V11 X11; rw [V10_eq]
theorem V12_eq (c : Dev nD) : V12 m (outs m) c = X12 m c := by
  unfold V12; rw [V11_eq]
  show Function.update (X11 m c) main_v82 (X12 m c main_v82) = X12 m c
  unfold X12; rw [Function.update_self]
theorem V13_eq (c : Dev nD) : V13 m (outs m) c = X13 m c := by
  unfold V13 X13; rw [V12_eq]
theorem V14_eq (c : Dev nD) : V14 m (outs m) c = X14 m c := by
  unfold V14; rw [V13_eq]
  show Function.update (X13 m c) main_v84 (X14 m c main_v84) = X14 m c
  unfold X14; rw [Function.update_self]

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (T (X1 m)) c
  | ⟨1, _⟩ => fun c => dat1 (T (X3 m)) c
  | ⟨2, _⟩ => fun c => dat2 (T (X4 m)) c
  | ⟨3, _⟩ => fun c => dat3 (T (X6 m)) c
  | ⟨4, _⟩ => fun c => dat4 (T (X7 m)) c
  | ⟨5, _⟩ => fun c => dat5 (T (X9 m)) c
  | ⟨6, _⟩ => fun c => dat6 (T (X11 m)) c
  | ⟨7, _⟩ => fun c => dat7 (T (X13 m)) c

/-- The kernel program's result on core c: region 7's output array after its last write-back. -/
abbrev result (c : Dev nD) : Buf (Elt F) ((c.tc : Thread nD τ).loc main_v84) := X14 m c main_v84

end Cert.KernelIdeal.Hand

end
-- ==== Proof.KI.Segs.lean ====
/-
  The eight kernel regions of the kernel program as segments of @main.  Between two items of @main core c
  holds every unscoped buffer whole at the boundary's contents (the chain of contents X0 … X14), its generator
  register at some state, and owes nothing.  A region is entered by splitting its windows' arrays out of the unscoped
  buffers and left by putting them back: the output array at the fold of the write-backs, every other buffer as it
  was.  Stated at any float instance.
-/
import proofs.«423338_j21947282882770_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What rides beside the buffers between two items: the core's generator register at some state and its dues, at nothing. -/
abbrev Rr (c : Dev nD) : sProp 𝕄 := iprop((∃ r, prngReg c r) ∗ ∃ W, owes (c : Thread nD τ) (0 : CellTallies nD τ sig Unit) W)

/-- No core owes another anything: no level is assigned. -/
abbrev L₀ : GSem nD τ sig → Finset Unit := fun _ => ∅
abbrev lv₀ : GSem nD τ sig → Unit → ℕ := fun _ _ => 0

/-- The thread state at a boundary: every unscoped buffer at the boundary's contents, beside `Rr`. -/
abbrev St (X : Dev nD → Valuation τ sig (Elt F)) (c : Dev nD) : sProp 𝕄 :=
  iprop(StableHlo.held (c : Thread nD τ) (Pipeline.ucRefs τ sig) (X c) ∗ Rr c)

/-- Contents changed at one array read at that array, -/
theorem upd_at (X : Valuation τ sig (Elt F)) (o : Ref sig .tc) (v : (Proc.devRef .tc o : DevRef τ sig).ty.Contents (Elt F)) :
    v = Function.update X (Proc.devRef .tc o) v (Proc.devRef .tc o) := by rw [Function.update_self]
/-- and at any other. -/
theorem upd_off (X : Valuation τ sig (Elt F)) (o : Ref sig .tc) (v : (Proc.devRef .tc o : DevRef τ sig).ty.Contents (Elt F))
    (b : Ref sig .tc) (h : b ≠ o) : Function.update X (Proc.devRef .tc o) v (Proc.devRef .tc b) = X (Proc.devRef .tc b) := by
  rw [Function.update_of_ne (StableHlo.devRef_ne_of_ne h)]

/-! ## Into a region and out of it, for any of the eight pipelines

The same four steps serve every region whose kernel has no semaphore of its own and owes nothing: at the entry the
windows' arrays are split out of the unscoped buffers (the proof data's entry contents being read off the boundary's),
at the exit they are put back at contents that have the arrays at what the write-backs leave and agree with the entry
contents elsewhere; the generator register passes through the region's invariant. -/

section Road

variable (pd : (p : Fin 8) → (c : Dev nD) → Dat τ (Elt F) Unit ℕ (UR sig nD τ) ℕ (Pipeline.pin (pcfgs (F := F)) adm p) c)
  (p : Fin 8) (c : Dev nD)

set_option backward.isDefEq.respectTransparency.types false in
theorem enter (hw : Pipeline.WinFacts (Pipeline.pin (pcfgs (F := F)) adm p).spec)
    (harr : ∀ w, ((Pipeline.pin (pcfgs (F := F)) adm p).spec w).arr.IsWhole) (hq : ∀ w, (pd p c).q w = fullShare)
    (X : Valuation τ sig (Elt F)) (hA : ∀ w, (pd p c).A w = X (Pipeline.arrRef (Pipeline.pin (pcfgs (F := F)) adm p).spec w))
    (ho : (pd p c).owed 0 = 0) (hrec : (pd p c).recorded 0 = Set.univ) :
    iprop(iprop(StableHlo.held (c : Thread nD τ) (Pipeline.ucRefs τ sig) X ∗ Rr c) ∗ Pipeline.ownSems0 (fun k : PEmpty => k.elim) c ∗ levAts L₀ lv₀)
      ⊢ |={Set.univ}=> iprop((pd p c).arrays ((pd p c).arrAt · 0) ∗ Pipeline.prefHeld (pcfgs (F := F) p).pre c (fun _ => fullShare) (adm p).1
          ∗ (pd p c).owesAt () 0 ∗ (∃ r, prngReg c r)
          ∗ Pipeline.unscopedRest (Ix := Unit) (Name := ℕ) (U := UR sig nD τ) (Lvl := ℕ) (Pipeline.pin (pcfgs (F := F)) adm p).spec c (fun b => X b)) := by
  have hsplit := Pipeline.arrays_of_unscopedBufs (p := p) (pcfgs (F := F)) adm pd hw harr c ((pd p c).share_full hq) (fun b => X b) hA
  rw [Pipeline.unscopedBufs_held] at hsplit
  iintro ⟨⟨Hub, Hp, %W, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin Pipeline.Dat.bound
    rw [ho, hrec]
    iexists W; isplitr; · ipureintro; exact fun _ _ => Or.inl trivial
    iexact HO
  isplitl [Hp]; · iexact Hp
  iexact Hrest

set_option backward.isDefEq.respectTransparency.types false in
theorem leave (hw : Pipeline.WinFacts (Pipeline.pin (pcfgs (F := F)) adm p).spec)
    (harr : ∀ w, ((Pipeline.pin (pcfgs (F := F)) adm p).spec w).arr.IsWhole) (hq : ∀ w, (pd p c).q w = fullShare)
    (X X' : Valuation τ sig (Elt F))
    (hF : ∀ w, (pd p c).arrAt w (Pipeline.pin (pcfgs (F := F)) adm p).N = X' (Pipeline.arrRef (Pipeline.pin (pcfgs (F := F)) adm p).spec w))
    (hrest : ∀ b : Ref sig .tc, b ∉ Finset.univ.image (Pipeline.arrRef (Pipeline.pin (pcfgs (F := F)) adm p).spec) → X' b = X b)
    (ho : (pd p c).owed (Fin.last _) = 0) :
    iprop((pd p c).arrays ((pd p c).arrAt · (Pipeline.pin (pcfgs (F := F)) adm p).N) ∗ (pd p c).owesAt () (Fin.last _) ∗ (∃ r, prngReg c r)
        ∗ Pipeline.unscopedRest (Ix := Unit) (Name := ℕ) (U := UR sig nD τ) (Lvl := ℕ) (Pipeline.pin (pcfgs (F := F)) adm p).spec c (fun b => X b))
      ⊢ |={Set.univ}=> iprop(StableHlo.held (c : Thread nD τ) (Pipeline.ucRefs τ sig) X' ∗ Rr c) := by
  have hjoin := Pipeline.unscopedBufs_of_arrays (p := p) (pcfgs (F := F)) adm (Ix := Unit) (Name := ℕ) (U := UR sig nD τ) (Lvl := ℕ)
    hw harr c pd ((pd p c).share_full hq) (fun b => X b) (fun b => X' b) ((pd p c).arrAt · (Pipeline.pin (pcfgs (F := F)) adm p).N) hF hrest
  rw [Pipeline.unscopedBufs_held] at hjoin
  unfold Pipeline.Dat.owesAt Pipeline.owesWithin
  rw [ho]
  iintro ⟨Ha, ⟨%W, -, HO⟩, HY, Hrest⟩
  imodintro
  isplitl [Ha Hrest]
  · iapply hjoin; isplitl [Ha] <;> iassumption
  isplitl [HY]; · iexact HY
  iexists W; iexact HO

/-- The class's region invariant from the generator register and the scoped buffers no window stages, -/
theorem intoΦA :
    iprop((∃ r, prngReg c r) ∗ Pipeline.prefHeld (pcfgs (F := F) p).pre c (fun _ => fullShare) (adm p).1
        ∗ Pipeline.scopedRest (Ix := Unit) (Name := ℕ) (U := UR sig nD τ) (Lvl := ℕ) (Val := Elt F) (Pipeline.pin (pcfgs (F := F)) adm p).spec c)
      ⊢ (Pipeline.ΦA (Pipeline.pin (pcfgs (F := F)) adm p).spec c : sProp 𝕄) := by
  unfold Pipeline.ΦA
  iintro ⟨Hp, -, Hr⟩
  isplitl [Hr]; · iexact Hr
  iexact Hp

/-- and back. -/
theorem outofΦA :
    (Pipeline.ΦA (Pipeline.pin (pcfgs (F := F)) adm p).spec c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) (Pipeline.pin (pcfgs (F := F)) adm p).spec c) := by
  rw [Pipeline.ownSems0_none]; unfold Pipeline.ΦA
  iintro ⟨Hr, Hp⟩
  isplitl [Hp]; · iexact Hp
  isplitr; · iempintro
  iexact Hr

end Road

/-! ## Region 0: from boundary 1 to boundary 2 -/

/-- Window 2 is region 0's only output, and no other window of it is laid over the same array. -/
theorem ins0 : ∀ w : Fin 3, w ≠ 2 → (cfg0.win w).isOut = false ∧ Pipeline.arrRef spec0 w ≠ main_v29 := by decide

/-- At the exit each array of region 0 holds what its pipeline leaves there: an input's array its entry contents,
    the output's the fold of the write-backs. -/
theorem hF0 (c : Dev nD) (w : Fin 3) : (dat0 (T (X1 m)) c).arrAt w cfg0.N = T (X2 m) c (Pipeline.arrRef spec0 w) := by
  by_cases hw : w = 2
  · subst hw; exact upd_at _ _ _
  · exact ((dat0 (T (X1 m)) c).arrAt_in w (ins0 w hw).1 _).trans ((A_eq0 (T (X1 m)) c w).trans (upd_off _ _ _ _ (ins0 w hw).2).symm)

/-- Every buffer that is no array of region 0 holds at the exit what it held at the entry. -/
theorem hrest0 (c : Dev nD) (b : Ref sig .tc) (hb : b ∉ Finset.univ.image (Pipeline.arrRef spec0)) : T (X2 m) c b = T (X1 m) c b :=
  upd_off _ _ _ _ fun e => hb (Finset.mem_image.mpr ⟨2, Finset.mem_univ _, e.symm⟩)

set_option backward.isDefEq.respectTransparency.types false in
/-- Region 0 as a segment of @main, entered at boundary 1's contents and left at boundary 2's. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (T (X1 m)) c).loose
  hwaits := Pipeline.hwaits_of_owed_zero _ _ _ _ L₀ lv₀ 0 fun _ _ => rfl
  pre := St (X1 m)
  post := St (X2 m)
  X c := iprop(∃ r, prngReg c r)
  Y c := iprop(∃ r, prngReg c r)
  Z c := Pipeline.unscopedRest (Ix := Unit) (Name := ℕ) (U := UR sig nD τ) (Lvl := ℕ) spec0 c (T (X1 m) c)
  hentry c := enter (pdats m) 0 c launch0.win launch0.arr_whole (fun _ => rfl) (X1 m c) (fun _ => rfl) rfl rfl
  hin c := intoΦA 0 c
  hout c := outofΦA 0 c
  hexit c := leave (pdats m) 0 c launch0.win launch0.arr_whole (fun _ => rfl) (X1 m c) (X2 m c) (hF0 m c) (hrest0 m c) rfl

/-! ## Region 1: from boundary 3 to boundary 4 -/

/-- Window 4 is region 1's only output, and no other window of it is laid over the same array. -/
theorem ins1 : ∀ w : Fin 5, w ≠ 4 → (cfg1.win w).isOut = false ∧ Pipeline.arrRef spec1 w ≠ main_v45 := by decide

/-- At the exit each array of region 1 holds what its pipeline leaves there: an input's array its entry contents,
    the output's the fold of the write-backs. -/
theorem hF1 (c : Dev nD) (w : Fin 5) : (dat1 (T (X3 m)) c).arrAt w cfg1.N = T (X4 m) c (Pipeline.arrRef spec1 w) := by
  by_cases hw : w = 4
  · subst hw; exact upd_at _ _ _
  · exact ((dat1 (T (X3 m)) c).arrAt_in w (ins1 w hw).1 _).trans ((A_eq1 (T (X3 m)) c w).trans (upd_off _ _ _ _ (ins1 w hw).2).symm)

/-- Every buffer that is no array of region 1 holds at the exit what it held at the entry. -/
theorem hrest1 (c : Dev nD) (b : Ref sig .tc) (hb : b ∉ Finset.univ.image (Pipeline.arrRef spec1)) : T (X4 m) c b = T (X3 m) c b :=
  upd_off _ _ _ _ fun e => hb (Finset.mem_image.mpr ⟨4, Finset.mem_univ _, e.symm⟩)

set_option backward.isDefEq.respectTransparency.types false in
/-- Region 1 as a segment of @main, entered at boundary 3's contents and left at boundary 4's. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (T (X3 m)) c).loose
  hwaits := Pipeline.hwaits_of_owed_zero _ _ _ _ L₀ lv₀ 1 fun _ _ => rfl
  pre := St (X3 m)
  post := St (X4 m)
  X c := iprop(∃ r, prngReg c r)
  Y c := iprop(∃ r, prngReg c r)
  Z c := Pipeline.unscopedRest (Ix := Unit) (Name := ℕ) (U := UR sig nD τ) (Lvl := ℕ) spec1 c (T (X3 m) c)
  hentry c := enter (pdats m) 1 c launch1.win launch1.arr_whole (fun _ => rfl) (X3 m c) (fun _ => rfl) rfl rfl
  hin c := intoΦA 1 c
  hout c := outofΦA 1 c
  hexit c := leave (pdats m) 1 c launch1.win launch1.arr_whole (fun _ => rfl) (X3 m c) (X4 m c) (hF1 m c) (hrest1 m c) rfl

/-! ## Region 2: from boundary 4 to boundary 5 -/

/-- Window 2 is region 2's only output, and no other window of it is laid over the same array. -/
theorem ins2 : ∀ w : Fin 3, w ≠ 2 → (cfg2.win w).isOut = false ∧ Pipeline.arrRef spec2 w ≠ main_v46 := by decide

/-- At the exit each array of region 2 holds what its pipeline leaves there: an input's array its entry contents,
    the output's the fold of the write-backs. -/
theorem hF2 (c : Dev nD) (w : Fin 3) : (dat2 (T (X4 m)) c).arrAt w cfg2.N = T (X5 m) c (Pipeline.arrRef spec2 w) := by
  by_cases hw : w = 2
  · subst hw; exact upd_at _ _ _
  · exact ((dat2 (T (X4 m)) c).arrAt_in w (ins2 w hw).1 _).trans ((A_eq2 (T (X4 m)) c w).trans (upd_off _ _ _ _ (ins2 w hw).2).symm)

/-- Every buffer that is no array of region 2 holds at the exit what it held at the entry. -/
theorem hrest2 (c : Dev nD) (b : Ref sig .tc) (hb : b ∉ Finset.univ.image (Pipeline.arrRef spec2)) : T (X5 m) c b = T (X4 m) c b :=
  upd_off _ _ _ _ fun e => hb (Finset.mem_image.mpr ⟨2, Finset.mem_univ _, e.symm⟩)

set_option backward.isDefEq.respectTransparency.types false in
/-- Region 2 as a segment of @main, entered at boundary 4's contents and left at boundary 5's. -/
def reg2 : Pipeline.RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (T (X4 m)) c).loose
  hwaits := Pipeline.hwaits_of_owed_zero _ _ _ _ L₀ lv₀ 2 fun _ _ => rfl
  pre := St (X4 m)
  post := St (X5 m)
  X c := iprop(∃ r, prngReg c r)
  Y c := iprop(∃ r, prngReg c r)
  Z c := Pipeline.unscopedRest (Ix := Unit) (Name := ℕ) (U := UR sig nD τ) (Lvl := ℕ) spec2 c (T (X4 m) c)
  hentry c := enter (pdats m) 2 c launch2.win launch2.arr_whole (fun _ => rfl) (X4 m c) (fun _ => rfl) rfl rfl
  hin c := intoΦA 2 c
  hout c := outofΦA 2 c
  hexit c := leave (pdats m) 2 c launch2.win launch2.arr_whole (fun _ => rfl) (X4 m c) (X5 m c) (hF2 m c) (hrest2 m c) rfl

/-! ## Region 3: from boundary 6 to boundary 7 -/

/-- Window 4 is region 3's only output, and no other window of it is laid over the same array. -/
theorem ins3 : ∀ w : Fin 5, w ≠ 4 → (cfg3.win w).isOut = false ∧ Pipeline.arrRef spec3 w ≠ main_v62 := by decide

/-- At the exit each array of region 3 holds what its pipeline leaves there: an input's array its entry contents,
    the output's the fold of the write-backs. -/
theorem hF3 (c : Dev nD) (w : Fin 5) : (dat3 (T (X6 m)) c).arrAt w cfg3.N = T (X7 m) c (Pipeline.arrRef spec3 w) := by
  by_cases hw : w = 4
  · subst hw; exact upd_at _ _ _
  · exact ((dat3 (T (X6 m)) c).arrAt_in w (ins3 w hw).1 _).trans ((A_eq3 (T (X6 m)) c w).trans (upd_off _ _ _ _ (ins3 w hw).2).symm)

/-- Every buffer that is no array of region 3 holds at the exit what it held at the entry. -/
theorem hrest3 (c : Dev nD) (b : Ref sig .tc) (hb : b ∉ Finset.univ.image (Pipeline.arrRef spec3)) : T (X7 m) c b = T (X6 m) c b :=
  upd_off _ _ _ _ fun e => hb (Finset.mem_image.mpr ⟨4, Finset.mem_univ _, e.symm⟩)

set_option backward.isDefEq.respectTransparency.types false in
/-- Region 3 as a segment of @main, entered at boundary 6's contents and left at boundary 7's. -/
def reg3 : Pipeline.RegionSeg (pcfgs (F := F)) adm (pdats m) () defs₀ Variants.none L₀ lv₀ 3 where
  win := launch3.win.to₀
  block_pos := launch3.block_pos
  stage_whole := launch3.stage_whole
  K := PEmpty
  osem k := k.elim
  ho := Pipeline.OwnSemFacts.none _
  hbody c := (body_obligation3 (T (X6 m)) c).loose
  hwaits := Pipeline.hwaits_of_owed_zero _ _ _ _ L₀ lv₀ 3 fun _ _ => rfl
  pre := St (X6 m)
  post := St (X7 m)
  X c := iprop(∃ r, prngReg c r)
  Y c := iprop(∃ r, prngReg c r)
  Z c := Pipeline.unscopedRest (Ix := Unit) (Name := ℕ) (U := UR sig nD τ) (Lvl := ℕ) spec3 c (T (X6 m) c)
  hentry c := enter (pdats m) 3 c launch3.win launch3.arr_whole (fun _ => rfl) (X6 m c) (fun _ => rfl) rfl rfl
  hin c := intoΦA 3 c
  hout c := outofΦA 3 c
  hexit c := leave (pdats m) 3 c launch3.win launch3.arr_whole (fun _ => rfl) (X6 m c) (X7 m c) (hF3 m c) (hrest3 m c) rfl

/-! ## Region 4: from boundary 7 to boundary 8 -/

/-- Window 2 is region 4's only output, and no other window of it is laid over the same array. -/
theorem ins4 : ∀ w : Fin 3, w ≠ 2 → (cfg4.win w).isOut = false ∧ Pipeline.arrRef spec4 w ≠ main_v63 := by decide

/-- At the exit each array of region 4 holds what its pipeline leaves there: an input's array its entry contents,
    the output's the fold of the write-backs. -/
theorem hF4 (c : Dev nD) (w : Fin 3) : (dat4 (T (X7 m)) c).arrAt w cfg4.N = T (X8 m) c (Pipeline.arrRef spec4 w) := by
  by_cases hw : w = 2
  · subst hw; exact upd_at _ _ _
  · exact ((dat4 (T (X7 m)) c).arrAt_in w (ins4 w hw).1 _).trans ((A_eq4 (T (X7 m)) c w).trans (upd_off _ _ _ _ (ins4 w hw).2).symm)

/-- Every buffer that is no array of region 4 holds at the exit what it held at the entry. -/
theorem hrest4 (c : Dev nD) (b : Ref sig .tc) (hb : b ∉ Finset.univ.image (Pipeline.arrRef spec4)) : T (X8 m) c b = T (X7 m) c b :=
  upd_off _ _ _ _ fun e => hb (Finset.mem_image.mpr ⟨2, Finset.mem_univ _, e.symm⟩)

set_option backward.isDefEq.respectTransparency.types false in
/-- Region 4 as a segment of @main, entered at boundary 7's contents and left at boundary 8's. -/
def reg4 : Pipeline.RegionSeg (pcfgs (F := F)) adm (pdats m) () defs₀ Variants.none L₀ lv₀ 4 where
  win := launch4.win.to₀
  block_pos := launch4.block_pos
  stage_whole := launch4.stage_whole
  K := PEmpty
  osem k := k.elim
  ho := Pipeline.OwnSemFacts.none _
  hbody c := (body_obligation4 (T (X7 m)) c).loose
  hwaits := Pipeline.hwaits_of_owed_zero _ _ _ _ L₀ lv₀ 4 fun _ _ => rfl
  pre := St (X7 m)
  post := St (X8 m)
  X c := iprop(∃ r, prngReg c r)
  Y c := iprop(∃ r, prngReg c r)
  Z c := Pipeline.unscopedRest (Ix := Unit) (Name := ℕ) (U := UR sig nD τ) (Lvl := ℕ) spec4 c (T (X7 m) c)
  hentry c := enter (pdats m) 4 c launch4.win launch4.arr_whole (fun _ => rfl) (X7 m c) (fun _ => rfl) rfl rfl
  hin c := intoΦA 4 c
  hout c := outofΦA 4 c
  hexit c := leave (pdats m) 4 c launch4.win launch4.arr_whole (fun _ => rfl) (X7 m c) (X8 m c) (hF4 m c) (hrest4 m c) rfl

/-! ## Region 5: from boundary 9 to boundary 10 -/

/-- Window 4 is region 5's only output, and no other window of it is laid over the same array. -/
theorem ins5 : ∀ w : Fin 5, w ≠ 4 → (cfg5.win w).isOut = false ∧ Pipeline.arrRef spec5 w ≠ main_v79 := by decide

/-- At the exit each array of region 5 holds what its pipeline leaves there: an input's array its entry contents,
    the output's the fold of the write-backs. -/
theorem hF5 (c : Dev nD) (w : Fin 5) : (dat5 (T (X9 m)) c).arrAt w cfg5.N = T (X10 m) c (Pipeline.arrRef spec5 w) := by
  by_cases hw : w = 4
  · subst hw; exact upd_at _ _ _
  · exact ((dat5 (T (X9 m)) c).arrAt_in w (ins5 w hw).1 _).trans ((A_eq5 (T (X9 m)) c w).trans (upd_off _ _ _ _ (ins5 w hw).2).symm)

/-- Every buffer that is no array of region 5 holds at the exit what it held at the entry. -/
theorem hrest5 (c : Dev nD) (b : Ref sig .tc) (hb : b ∉ Finset.univ.image (Pipeline.arrRef spec5)) : T (X10 m) c b = T (X9 m) c b :=
  upd_off _ _ _ _ fun e => hb (Finset.mem_image.mpr ⟨4, Finset.mem_univ _, e.symm⟩)

set_option backward.isDefEq.respectTransparency.types false in
/-- Region 5 as a segment of @main, entered at boundary 9's contents and left at boundary 10's. -/
def reg5 : Pipeline.RegionSeg (pcfgs (F := F)) adm (pdats m) () defs₀ Variants.none L₀ lv₀ 5 where
  win := launch5.win.to₀
  block_pos := launch5.block_pos
  stage_whole := launch5.stage_whole
  K := PEmpty
  osem k := k.elim
  ho := Pipeline.OwnSemFacts.none _
  hbody c := (body_obligation5 (T (X9 m)) c).loose
  hwaits := Pipeline.hwaits_of_owed_zero _ _ _ _ L₀ lv₀ 5 fun _ _ => rfl
  pre := St (X9 m)
  post := St (X10 m)
  X c := iprop(∃ r, prngReg c r)
  Y c := iprop(∃ r, prngReg c r)
  Z c := Pipeline.unscopedRest (Ix := Unit) (Name := ℕ) (U := UR sig nD τ) (Lvl := ℕ) spec5 c (T (X9 m) c)
  hentry c := enter (pdats m) 5 c launch5.win launch5.arr_whole (fun _ => rfl) (X9 m c) (fun _ => rfl) rfl rfl
  hin c := intoΦA 5 c
  hout c := outofΦA 5 c
  hexit c := leave (pdats m) 5 c launch5.win launch5.arr_whole (fun _ => rfl) (X9 m c) (X10 m c) (hF5 m c) (hrest5 m c) rfl

/-! ## Region 6: from boundary 11 to boundary 12 -/

/-- Window 5 is region 6's only output, and no other window of it is laid over the same array. -/
theorem ins6 : ∀ w : Fin 6, w ≠ 5 → (cfg6.win w).isOut = false ∧ Pipeline.arrRef spec6 w ≠ main_v82 := by decide

/-- At the exit each array of region 6 holds what its pipeline leaves there: an input's array its entry contents,
    the output's the fold of the write-backs. -/
theorem hF6 (c : Dev nD) (w : Fin 6) : (dat6 (T (X11 m)) c).arrAt w cfg6.N = T (X12 m) c (Pipeline.arrRef spec6 w) := by
  by_cases hw : w = 5
  · subst hw; exact upd_at _ _ _
  · exact ((dat6 (T (X11 m)) c).arrAt_in w (ins6 w hw).1 _).trans ((A_eq6 (T (X11 m)) c w).trans (upd_off _ _ _ _ (ins6 w hw).2).symm)

/-- Every buffer that is no array of region 6 holds at the exit what it held at the entry. -/
theorem hrest6 (c : Dev nD) (b : Ref sig .tc) (hb : b ∉ Finset.univ.image (Pipeline.arrRef spec6)) : T (X12 m) c b = T (X11 m) c b :=
  upd_off _ _ _ _ fun e => hb (Finset.mem_image.mpr ⟨5, Finset.mem_univ _, e.symm⟩)

set_option backward.isDefEq.respectTransparency.types false in
/-- Region 6 as a segment of @main, entered at boundary 11's contents and left at boundary 12's. -/
def reg6 : Pipeline.RegionSeg (pcfgs (F := F)) adm (pdats m) () defs₀ Variants.none L₀ lv₀ 6 where
  win := launch6.win.to₀
  block_pos := launch6.block_pos
  stage_whole := launch6.stage_whole
  K := PEmpty
  osem k := k.elim
  ho := Pipeline.OwnSemFacts.none _
  hbody c := (body_obligation6 (T (X11 m)) c).loose
  hwaits := Pipeline.hwaits_of_owed_zero _ _ _ _ L₀ lv₀ 6 fun _ _ => rfl
  pre := St (X11 m)
  post := St (X12 m)
  X c := iprop(∃ r, prngReg c r)
  Y c := iprop(∃ r, prngReg c r)
  Z c := Pipeline.unscopedRest (Ix := Unit) (Name := ℕ) (U := UR sig nD τ) (Lvl := ℕ) spec6 c (T (X11 m) c)
  hentry c := enter (pdats m) 6 c launch6.win launch6.arr_whole (fun _ => rfl) (X11 m c) (fun _ => rfl) rfl rfl
  hin c := intoΦA 6 c
  hout c := outofΦA 6 c
  hexit c := leave (pdats m) 6 c launch6.win launch6.arr_whole (fun _ => rfl) (X11 m c) (X12 m c) (hF6 m c) (hrest6 m c) rfl

/-! ## Region 7: from boundary 13 to boundary 14 -/

/-- Window 2 is region 7's only output, and no other window of it is laid over the same array. -/
theorem ins7 : ∀ w : Fin 3, w ≠ 2 → (cfg7.win w).isOut = false ∧ Pipeline.arrRef spec7 w ≠ main_v84 := by decide

/-- At the exit each array of region 7 holds what its pipeline leaves there: an input's array its entry contents,
    the output's the fold of the write-backs. -/
theorem hF7 (c : Dev nD) (w : Fin 3) : (dat7 (T (X13 m)) c).arrAt w cfg7.N = T (X14 m) c (Pipeline.arrRef spec7 w) := by
  by_cases hw : w = 2
  · subst hw; exact upd_at _ _ _
  · exact ((dat7 (T (X13 m)) c).arrAt_in w (ins7 w hw).1 _).trans ((A_eq7 (T (X13 m)) c w).trans (upd_off _ _ _ _ (ins7 w hw).2).symm)

/-- Every buffer that is no array of region 7 holds at the exit what it held at the entry. -/
theorem hrest7 (c : Dev nD) (b : Ref sig .tc) (hb : b ∉ Finset.univ.image (Pipeline.arrRef spec7)) : T (X14 m) c b = T (X13 m) c b :=
  upd_off _ _ _ _ fun e => hb (Finset.mem_image.mpr ⟨2, Finset.mem_univ _, e.symm⟩)

set_option backward.isDefEq.respectTransparency.types false in
/-- Region 7 as a segment of @main, entered at boundary 13's contents and left at boundary 14's. -/
def reg7 : Pipeline.RegionSeg (pcfgs (F := F)) adm (pdats m) () defs₀ Variants.none L₀ lv₀ 7 where
  win := launch7.win.to₀
  block_pos := launch7.block_pos
  stage_whole := launch7.stage_whole
  K := PEmpty
  osem k := k.elim
  ho := Pipeline.OwnSemFacts.none _
  hbody c := (body_obligation7 (T (X13 m)) c).loose
  hwaits := Pipeline.hwaits_of_owed_zero _ _ _ _ L₀ lv₀ 7 fun _ _ => rfl
  pre := St (X13 m)
  post := St (X14 m)
  X c := iprop(∃ r, prngReg c r)
  Y c := iprop(∃ r, prngReg c r)
  Z c := Pipeline.unscopedRest (Ix := Unit) (Name := ℕ) (U := UR sig nD τ) (Lvl := ℕ) spec7 c (T (X13 m) c)
  hentry c := enter (pdats m) 7 c launch7.win launch7.arr_whole (fun _ => rfl) (X13 m c) (fun _ => rfl) rfl rfl
  hin c := (intoΦA 7 c).trans (hin7 (T (X13 m)) c)
  hout c := (hout7 (T (X13 m)) c).trans (outofΦA 7 c)
  hexit c := leave (pdats m) 7 c launch7.win launch7.arr_whole (fun _ => rfl) (X13 m c) (X14 m c) (hF7 m c) (hrest7 m c) rfl

end Cert.KernelIdeal.Hand

end
-- ==== Proof.KI.Run.lean ====
/-
  The run of the kernel program.  @main is the list of its items as segments: each stretch of host
  operations over the unscoped buffers at its boundary's contents, each kernel region by its record.  The segments
  chain through the boundary contents X0 … X14; the launch makes the first thread state on every core; and the last
  thread state, read against a final memory, says that the result array holds region 7's output after its last
  write-back and that every argument array holds what it was launched with.  Stated at any float instance.
-/
import proofs.«423338_j21947282882770_1_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The items of @main on core c: the host stretches between the boundary contents, the regions by their records. -/
abbrev segsAt (c : Dev nD) : List (Pipeline.Seg (pcfgs (F := F)) adm (pdats m) () defs₀ Variants.none L₀ lv₀) :=
  Gen.segs m (outs m) Variants.none L₀ lv₀ (fun _ => Rr) () (pdats m)
    (reg0 m) (reg1 m) (reg2 m) (reg3 m) (reg4 m) (reg5 m) (reg6 m) (reg7 m) c

/-- A thread state at contents equal to a boundary's is the boundary's. -/
theorem St_eq {V X : Valuation τ sig (Elt F)} (h : V = X) (c : Dev nD) :
    (iprop(StableHlo.held (c : Thread nD τ) (Pipeline.ucRefs τ sig) V ∗ Rr c) : sProp 𝕄)
      ⊢ iprop(StableHlo.held (c : Thread nD τ) (Pipeline.ucRefs τ sig) X ∗ Rr c) := by rw [h]

/-- An argument array holds at the last boundary what the launch memory holds: no item writes it. -/
theorem X14_arg (c : Dev nD) (a : Ref sig .tc) (h : V14 m (outs m) c a = m ((c : Thread nD τ).loc a)) :
    X14 m c a = m ((c : Thread nD τ).loc a) := (congrFun (V14_eq m c) _).symm.trans h

set_option backward.isDefEq.respectTransparency.types false in
/-- THE RUN: from any memory with every counter at zero, every weakly fair execution of @main on the TensorCores
    terminates, and every final memory has the result array at region 7's output after its last write-back and every
    argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v84) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm (pdats m) () cellOf_inj emb₁ defs₀ Variants.none L₀ lv₀ m ρ main
    (segsAt m)
    (fun c Q => by
      rewrite [main_chain c, Pipeline.Seg.run_eq_chain,
        show (segsAt m c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segsAt, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (X0 m c) ∗ Rr c))
    (Tₙ := fun c => StableHlo.held (c : Thread nD τ) (Pipeline.ucRefs τ sig) (X14 m c))
    (hch := fun c => ⟨.rfl, St_eq (V1_eq m c) c, St_eq (V2_eq m c).symm c, St_eq (V3_eq m c) c, .rfl, St_eq (V5_eq m c).symm c,
      St_eq (V6_eq m c) c, .rfl, St_eq (V8_eq m c).symm c, St_eq (V9_eq m c) c, St_eq (V10_eq m c).symm c, St_eq (V11_eq m c) c,
      St_eq (V12_eq m c).symm c, St_eq (V13_eq m c) c, sep_mono .rfl (by iintro ⟨-, H⟩; iexact H)⟩)
    (hinit := ?_)
    (QY := fun c s => s.mem ((c.tc : Thread nD τ).loc main_v84) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => ?_) (hQ := fun _ h => h)
  · -- the launch element is the pipelines' own; no ghost resource besides
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: on each core the unscoped buffers at the launch memory, the generator register, nothing owed
    refine Pipeline.initEach L₀ lv₀ fun c => ?_
    rw [show unscopedBufs c (fun b => m ((c : Thread nD τ).loc b)) = StableHlo.held (c : Thread nD τ) (Pipeline.ucRefs τ sig) (X0 m c)
      from Pipeline.unscopedBufs_held c (X0 m c)]
    iintro ⟨⟨Hh, -, HO, -, Hp, -⟩, -⟩
    imodintro
    isplitl [Hh]; · iexact Hh
    isplitl [Hp]; · iexists _; iexact Hp
    iexists ∅; iexact HO
  · -- the end: the result array and each argument array read off the last boundary's contents
    unfold StableHlo.held
    iintro ⟨Hh, HSI⟩
    ihave Hr := (pointsTo_read_all (Pipeline.ucRefs τ sig) (fun b => ((c : Thread nD τ).1, b)) (X14 m c) s') $$ [Hh HSI]
    · isplitl [Hh] <;> iassumption
    icases Hr with ⟨%h, HSI⟩
    imodintro
    isplitr
    · ipureintro
      exact ⟨h (Proc.devRef .tc main_v84) (Finset.mem_filter.mpr ⟨StableHlo.devRef_mem_tcRefs main_v84, by decide⟩),
        (h (Proc.devRef .tc main_arg0) (Finset.mem_filter.mpr ⟨StableHlo.devRef_mem_tcRefs main_arg0, by decide⟩)).trans (X14_arg m c main_arg0 (V14_main_arg0 m (outs m) c)),
        (h (Proc.devRef .tc main_arg1) (Finset.mem_filter.mpr ⟨StableHlo.devRef_mem_tcRefs main_arg1, by decide⟩)).trans (X14_arg m c main_arg1 (V14_main_arg1 m (outs m) c)),
        (h (Proc.devRef .tc main_arg2) (Finset.mem_filter.mpr ⟨StableHlo.devRef_mem_tcRefs main_arg2, by decide⟩)).trans (X14_arg m c main_arg2 (V14_main_arg2 m (outs m) c)),
        (h (Proc.devRef .tc main_arg3) (Finset.mem_filter.mpr ⟨StableHlo.devRef_mem_tcRefs main_arg3, by decide⟩)).trans (X14_arg m c main_arg3 (V14_main_arg3 m (outs m) c)),
        (h (Proc.devRef .tc main_arg4) (Finset.mem_filter.mpr ⟨StableHlo.devRef_mem_tcRefs main_arg4, by decide⟩)).trans (X14_arg m c main_arg4 (V14_main_arg4 m (outs m) c)),
        (h (Proc.devRef .tc main_arg5) (Finset.mem_filter.mpr ⟨StableHlo.devRef_mem_tcRefs main_arg5, by decide⟩)).trans (X14_arg m c main_arg5 (V14_main_arg5 m (outs m) c)),
        (h (Proc.devRef .tc main_arg6) (Finset.mem_filter.mpr ⟨StableHlo.devRef_mem_tcRefs main_arg6, by decide⟩)).trans (X14_arg m c main_arg6 (V14_main_arg6 m (outs m) c)),
        (h (Proc.devRef .tc main_arg7) (Finset.mem_filter.mpr ⟨StableHlo.devRef_mem_tcRefs main_arg7, by decide⟩)).trans (X14_arg m c main_arg7 (V14_main_arg7 m (outs m) c)),
        (h (Proc.devRef .tc main_arg8) (Finset.mem_filter.mpr ⟨StableHlo.devRef_mem_tcRefs main_arg8, by decide⟩)).trans (X14_arg m c main_arg8 (V14_main_arg8 m (outs m) c)),
        (h (Proc.devRef .tc main_arg9) (Finset.mem_filter.mpr ⟨StableHlo.devRef_mem_tcRefs main_arg9, by decide⟩)).trans (X14_arg m c main_arg9 (V14_main_arg9 m (outs m) c)),
        (h (Proc.devRef .tc main_arg10) (Finset.mem_filter.mpr ⟨StableHlo.devRef_mem_tcRefs main_arg10, by decide⟩)).trans (X14_arg m c main_arg10 (V14_main_arg10 m (outs m) c)),
        (h (Proc.devRef .tc main_arg11) (Finset.mem_filter.mpr ⟨StableHlo.devRef_mem_tcRefs main_arg11, by decide⟩)).trans (X14_arg m c main_arg11 (V14_main_arg11 m (outs m) c)),
        (h (Proc.devRef .tc main_arg12) (Finset.mem_filter.mpr ⟨StableHlo.devRef_mem_tcRefs main_arg12, by decide⟩)).trans (X14_arg m c main_arg12 (V14_main_arg12 m (outs m) c)),
        (h (Proc.devRef .tc main_arg13) (Finset.mem_filter.mpr ⟨StableHlo.devRef_mem_tcRefs main_arg13, by decide⟩)).trans (X14_arg m c main_arg13 (V14_main_arg13 m (outs m) c))⟩
    · iexact HSI

end Cert.KernelIdeal.Hand

end
-- ==== Proof.KI.Val0.lean ====
/-
  A node-tiled matrix product region of the idealized kernel program, read as a value: after the run the output
  window's array is the matrix product of the two input windows' arrays, the same sum over the contracted axis
  the reference's dot_general is.  In order: the payload at an index, the reference's dot_general at an index,
  each input block as rows of its array, what a point writes back, the cover of the array by the points'
  blocks, and the array after the run.
-/
import proofs.«423338_j21947282882770_1_alg».proof.Proof.KI.Reg0
import proofs.«423338_j21947282882770_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat)
open scoped BigOperators

/-! ## The two contractions at an index -/

theorem hz0 : (![0, 0] : Fin 2 → Nat) = fun _ => 0 := funext fun a => by fin_cases a <;> rfl

/-- The kernel's contraction: the left operand is read at (row of the output, contraction index). -/
theorem k0_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem k0_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand is read at (contraction index, column of the output). -/
theorem k0_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem k0_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The payload at row `p`, column `q` of the block: a change of float format is the identity on the extended
    reals and the product into the zero accumulator is the plain sum over the contracted axis. -/
theorem k0_pay1_apply (x : Vec Ideal S5000x64 .f32) (w : Vec Ideal S64x64 .f32) (p : Fin 5000) (q : Fin 64) :
    k0_pay1 x w (ix2 p q) = ∑ k : Fin 64, x (ix2 p k) * w (ix2 k q) := by
  unfold k0_pay1
  simp only [matmul, shapeCast_self]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact k0_lhs_0 _ _
    | ⟨1, _⟩ => exact (k0_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (k0_rhs_0 _ _).trans hk
    | ⟨1, _⟩ => exact k0_rhs_1 _ _)
  rw [el, er]
  rfl

/-- The reference's contraction reads its operands at the same coordinates. -/
theorem arr0_lhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem arr0_lhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem arr0_rhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem arr0_rhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The reference's dot_general of two arrays at row `p`, column `q`: the sum over the contracted axis. -/
theorem arr0_dot_apply (x : Cert.ReferenceIdeal.S100000x64.Idx → EReal) (w : Cert.ReferenceIdeal.S64x64.Idx → EReal) (p : Fin 100000) (q : Fin 64) :
    Host.dotGeneral (F := Ideal) (φ₁ := .f32) (φ₂ := .f32) Cert.ReferenceIdeal.dot_S100000x64_S64x64_S100000x64_1_0_0_1_n_n none x w (ix2 p q) = ∑ k : Fin 64, x (ix2 p k) * w (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k := funext fun a => Fin.ext (by
    match a with
    | ⟨0, _⟩ => exact arr0_lhs_0 _ _
    | ⟨1, _⟩ => exact (arr0_lhs_1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q := funext fun a => Fin.ext (by
    match a with
    | ⟨0, _⟩ => exact (arr0_rhs_0 _ _).trans hk
    | ⟨1, _⟩ => exact arr0_rhs_1 _ _)
  rw [el, er]

/-! ## The blocks of the input windows, read off their arrays -/

-- the TensorCore's buffer contents when the region is entered, at the extended reals
variable (V : (c : Dev nD) → (b : Ref sig .tc) → Buf (Elt Ideal) ((c : Thread nD τ).loc b))

/-- The printed index maps, decided once over the grid: at point `t` the row-tiled windows sit at block row `t`,
    block column 0; the weight's window at block (0, 0); and the output window is written back at every point. -/
theorem idxf0 : ∀ t : Fin cfg0.N, (cfg0.win 0).index t (0 : Fin 2) = t.val ∧ (cfg0.win 0).index t (1 : Fin 2) = 0
    ∧ (cfg0.win 1).index t (0 : Fin 2) = 0 ∧ (cfg0.win 1).index t (1 : Fin 2) = 0
    ∧ (cfg0.win 2).index t (0 : Fin 2) = t.val ∧ (cfg0.win 2).index t (1 : Fin 2) = 0
    ∧ (cfg0.win 2).flush t = true :=
  (by decide +kernel : ∀ t : Fin grid0.N, _)

/-- Window 0's block at point `t` is rows 5000·t … 5000·t + 4999 of its array. -/
theorem blockrd0_0 (c : Dev nD) (t : Fin cfg0.N) (y : S5000x64.Idx) (i : S100000x64.Idx)
    (ha : (i 0).val = 5000 * t.val + (y 0).val) (hb : (i 1).val = (y 1).val) :
    (iblk0 V c 0 t : Vec Ideal S5000x64 .f32) y = (V c (Pipeline.arrRef spec0 0) : S100000x64.Idx → Elt Ideal .f32) i := by
  obtain ⟨ea, eb, -⟩ := idxf0 t
  show (V c (Pipeline.arrRef spec0 0) : S100000x64.Idx → Elt Ideal .f32) (((cfg0.win 0).blk t).view.emb y) = _
  refine congrArg _ (funext fun a => Fin.ext ?_)
  match a with
  | ⟨0, _⟩ => show (cfg0.win 0).index t (0 : Fin 2) * 5000 + 1 * (y 0).val = (i 0).val; omega
  | ⟨1, _⟩ => show (cfg0.win 0).index t (1 : Fin 2) * 64 + 1 * (y 1).val = (i 1).val; omega

/-- Window 1's block at every point is the whole of its array. -/
theorem blockrd0_1 (c : Dev nD) (t : Fin cfg0.N) :
    (iblk0 V c 1 t : Vec Ideal S64x64 .f32) = (V c (Pipeline.arrRef spec0 1) : S64x64.Idx → Elt Ideal .f32) := by
  obtain ⟨-, -, ea, eb, -⟩ := idxf0 t
  funext y
  show (V c (Pipeline.arrRef spec0 1) : S64x64.Idx → Elt Ideal .f32) (((cfg0.win 1).blk t).view.emb y) = _
  refine congrArg _ (funext fun a => Fin.ext ?_)
  match a with
  | ⟨0, _⟩ => show (cfg0.win 1).index t (0 : Fin 2) * 64 + 1 * (y 0).val = (y 0).val; omega
  | ⟨1, _⟩ => show (cfg0.win 1).index t (1 : Fin 2) * 64 + 1 * (y 1).val = (y 1).val; omega

/-! ## What a point writes back -/

/-- A block whose left operand is rows 5000·n … of `X` and whose right operand is `W`: its payload at an index is the
    reference's dot_general of `X` and `W` at the same row of the array. Both are the sum over the contracted axis. -/
theorem k0_pay1_rows (x : Vec Ideal S5000x64 .f32) (w : Vec Ideal S64x64 .f32)
    (X : S100000x64.Idx → EReal) (W : S64x64.Idx → EReal) (n : Nat)
    (hx : ∀ (y : S5000x64.Idx) (i : S100000x64.Idx), (i 0).val = 5000 * n + (y 0).val → (i 1).val = (y 1).val → x y = X i)
    (hw : w = W) (j : S5000x64.Idx) (i : S100000x64.Idx) (ha : (i 0).val = 5000 * n + (j 0).val) (hb : (i 1).val = (j 1).val) :
    k0_pay1 x w j = Host.dotGeneral (F := Ideal) (φ₁ := .f32) (φ₂ := .f32) Cert.ReferenceIdeal.dot_S100000x64_S64x64_S100000x64_1_0_0_1_n_n none X W i := by
  obtain ⟨p, q, rfl⟩ : ∃ (p : Fin 5000) (q : Fin 64), j = ix2 p q := ⟨j 0, j 1, eq_ix2 j⟩
  obtain ⟨p', q', rfl⟩ : ∃ (p' : Fin 100000) (q' : Fin 64), i = ix2 p' q' := ⟨i 0, i 1, eq_ix2 i⟩
  obtain rfl : q' = q := Fin.ext hb
  rw [k0_pay1_apply, arr0_dot_apply, hw]
  refine Finset.sum_congr rfl fun k _ => ?_
  rw [hx (ix2 p k) (ix2 p' k) ha rfl]

/-- The array the region leaves: the reference's dot_general of the two input windows' arrays. -/
abbrev out0_dot (c : Dev nD) : S100000x64.Idx → EReal :=
  Host.dotGeneral (F := Ideal) (φ₁ := .f32) (φ₂ := .f32) Cert.ReferenceIdeal.dot_S100000x64_S64x64_S100000x64_1_0_0_1_n_n none (V c (Pipeline.arrRef spec0 0)) (V c (Pipeline.arrRef spec0 1))

/-- What point `t` writes back is block `t` of that array. -/
theorem flushed0_eq (c : Dev nD) (t : Fin cfg0.N) :
    (dat0 (F := Ideal) V c).flushed 2 t = ((cfg0.win 2).blk t).view.read (Elt Ideal) (out0_dot V c) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  obtain ⟨-, -, -, -, ea, eb, -⟩ := idxf0 t
  funext j
  refine k0_pay1_rows _ _ _ _ t.val (fun y i ha hb => blockrd0_0 V c t y i ha hb) (blockrd0_1 V c t) j (((cfg0.win 2).blk t).view.emb j) ?_ ?_
  · show (cfg0.win 2).index t (0 : Fin 2) * 5000 + 1 * (j 0).val = 5000 * t.val + (j 0).val; omega
  · show (cfg0.win 2).index t (1 : Fin 2) * 64 + 1 * (j 1).val = (j 1).val; omega

/-! ## From the blocks to the array -/

/-- An index of the array is in point `t`'s block iff each coordinate is in the block's range on its axis. -/
theorem mem_blk0 (t : Fin cfg0.N) (i : S100000x64.Idx) :
    i ∈ ((cfg0.win 2).blk t).view.set ↔ ∀ a : Fin 2, (cfg0.win 2).index t a * S5000x64.size a ≤ (i a).val ∧ (i a).val < (cfg0.win 2).index t a * S5000x64.size a + S5000x64.size a := by
  show i ∈ ((View.whole (Pipeline.arrRef spec0 2)).slice ((cfg0.win 2).rect t)).set ↔ _
  rw [View.set_slice_whole, Rect.mem_set_unit]
  exact Iff.rfl

/-- The points' blocks cover the array: row `r` lies in the block of point `r / 5000`. -/
theorem covered0 (i : S100000x64.Idx) : ∃ t : Fin cfg0.N, (cfg0.win 2).flush t = true ∧ i ∈ ((cfg0.win 2).blk t).view.set := by
  have hi : (i 0).val < 100000 := (i 0).isLt
  have hj : (i 1).val < 64 := (i 1).isLt
  have hN : cfg0.N = 20 := (by decide : grid0.N = 20)
  let t : Fin cfg0.N := ⟨(i 0).val / 5000, by rw [hN]; omega⟩
  obtain ⟨-, -, -, -, ea, eb, ef⟩ := idxf0 t
  have et : t.val = (i 0).val / 5000 := rfl
  refine ⟨t, ef, ?_⟩
  rw [mem_blk0]
  intro a
  match a with
  | ⟨0, _⟩ => show (cfg0.win 2).index t (0 : Fin 2) * 5000 ≤ (i 0).val ∧ (i 0).val < (cfg0.win 2).index t (0 : Fin 2) * 5000 + 5000; omega
  | ⟨1, _⟩ => show (cfg0.win 2).index t (1 : Fin 2) * 64 ≤ (i 1).val ∧ (i 1).val < (cfg0.win 2).index t (1 : Fin 2) * 64 + 64; omega

/-- THE ARRAY after the run: the reference's dot_general of the two input windows' arrays. -/
theorem arr0 (c : Dev nD) : (dat0 (F := Ideal) V c).arrAt 2 cfg0.N
    = Host.dotGeneral (F := Ideal) (φ₁ := .f32) (φ₂ := .f32) Cert.ReferenceIdeal.dot_S100000x64_S64x64_S100000x64_1_0_0_1_n_n none (V c (Pipeline.arrRef spec0 0)) (V c (Pipeline.arrRef spec0 1)) :=
  (dat0 (F := Ideal) V c).arrAt_eq_of_cover 2 (out0_dot V c) (fun t _ => flushed0_eq V c t) covered0

end Cert.KernelIdeal.Hand

end
-- ==== Proof.KI.Val1.lean ====
/-
  Region 1 of the idealized kernel program, read as a value over the extended reals: after the twenty points have run,
  the result array is ONE whole-array function of the arrays the region was entered with,
  max(agg + selfnorm · lin + bias, 0), written with the reference's own operations (the column and the row spread by
  broadcast, the zero a broadcast scalar).  The steps: the combine of four blocks at an entry (p, q); the update of
  four arrays at an entry (r, q); the printed index maps over the grid; each input block as rows 5000·t … 5000·t + 4999
  of its array (the bias block is the whole row); hence what point t writes back is block t of the update; the twenty
  blocks tile the 100000 rows (row r is in the block of point r / 5000); so the array ends at the update.
-/
import proofs.«423338_j21947282882770_1_alg».proof.Proof.KI.Reg1
import proofs.«423338_j21947282882770_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

theorem hz1 : (![0, 0] : Fin 2 → Nat) = fun _ => 0 := funext fun a => by fin_cases a <;> rfl

/-- The column spread over the 64 lanes reads, at (p, q), the column at p. -/
theorem pay1_col (x : FVec Ideal S5000x1 .f32) (p : Fin 5000) (q : Fin 64) :
    broadcastTo S5000x64 x broadcasts_S5000x1_S5000x64 (ix2 p q) = x (ix2 p (0 : Fin 1)) := by
  refine broadcastTo_apply x _ (ix2 p q) (ix2 p (0 : Fin 1)) fun ax => ?_
  match ax with
  | ⟨0, _⟩ => show p.val = if (5000 : ℕ) = 1 then 0 else p.val; rw [if_neg (by decide)]
  | ⟨1, _⟩ => rfl

/-- The row spread over the 5000 rows reads, at (p, q), the row at q. -/
theorem pay1_row (x : FVec Ideal S1x64 .f32) (p : Fin 5000) (q : Fin 64) :
    broadcastTo S5000x64 x broadcasts_S1x64_S5000x64 (ix2 p q) = x (ix2 (0 : Fin 1) q) :=
  broadcastTo_1b_ab_apply x _ p q

/-- The combine at (p, q): max(agg + selfnorm · lin + bias, 0) of the four loads' entries. -/
theorem pay1_apply (x2 : Vec Ideal S5000x1 .f32) (x0 x1 : Vec Ideal S5000x64 .f32) (x3 : Vec Ideal S1x64 .f32) (p : Fin 5000) (q : Fin 64) :
    k1_pay1 x2 x0 x1 x3 (ix2 p q)
      = max (x0 (ix2 p q) + x2 (ix2 p (0 : Fin 1)) * x1 (ix2 p q) + x3 (ix2 (0 : Fin 1) q)) (Ideal.ofBits .f32 0x00000000#32) := by
  unfold k1_pay1
  simp only [shapeCast_self]
  rw [maximumf_apply, addf_apply, addf_apply, mulf_apply, pay1_col, pay1_row, broadcast_apply]
  rfl

/-- The layer's update as ONE function of whole arrays: the reference's own operations. -/
abbrev up1 (A0 A1 : FVec Ideal S100000x64 .f32) (A2 : FVec Ideal S100000x1 .f32) (A3 : FVec Ideal S1x64 .f32) : FVec Ideal S100000x64 .f32 :=
  maximumf (F := Ideal) (addf (addf A0 (mulf (broadcastInDim Cert.ReferenceIdeal.S100000x64 ![0, 1] Cert.ReferenceIdeal.Facts₀.bcast_S100000x1_S100000x64_0_1 A2) A1))
      (broadcastInDim Cert.ReferenceIdeal.S100000x64 ![0, 1] Cert.ReferenceIdeal.Facts₀.bcast_S1x64_S100000x64_0_1 A3))
    (broadcastInDim Cert.ReferenceIdeal.S100000x64 ![] Cert.ReferenceIdeal.Facts₀.bcast_S_S100000x64 (constant (F := Ideal) Cert.ReferenceIdeal.S_ .f32 0x00000000#32))

/-- The update at (r, q). -/
theorem up1_apply (A0 A1 : FVec Ideal S100000x64 .f32) (A2 : FVec Ideal S100000x1 .f32) (A3 : FVec Ideal S1x64 .f32) (r : Fin 100000) (q : Fin 64) :
    up1 A0 A1 A2 A3 (ix2 r q)
      = max (A0 (ix2 r q) + A2 (ix2 r (0 : Fin 1)) * A1 (ix2 r q) + A3 (ix2 (0 : Fin 1) q)) (Ideal.ofBits .f32 0x00000000#32) := by
  have hc : broadcastInDim Cert.ReferenceIdeal.S100000x64 ![0, 1] Cert.ReferenceIdeal.Facts₀.bcast_S100000x1_S100000x64_0_1 A2 (ix2 r q) = A2 (ix2 r (0 : Fin 1)) :=
    broadcastInDim_apply _ _ A2 (ix2 r q) (ix2 r (0 : Fin 1)) fun a => by
      match a with
      | ⟨0, _⟩ => show r.val = if (100000 : ℕ) = 1 then 0 else r.val; rw [if_neg (by decide)]
      | ⟨1, _⟩ => rfl
  have hr : broadcastInDim Cert.ReferenceIdeal.S100000x64 ![0, 1] Cert.ReferenceIdeal.Facts₀.bcast_S1x64_S100000x64_0_1 A3 (ix2 r q) = A3 (ix2 (0 : Fin 1) q) :=
    broadcastInDim_apply _ _ A3 (ix2 r q) (ix2 (0 : Fin 1) q) fun a => by
      match a with
      | ⟨0, _⟩ => rfl
      | ⟨1, _⟩ => show q.val = if (64 : ℕ) = 1 then 0 else q.val; rw [if_neg (by decide)]
  have hk : broadcastInDim Cert.ReferenceIdeal.S100000x64 ![] Cert.ReferenceIdeal.Facts₀.bcast_S_S100000x64 (constant (F := Ideal) Cert.ReferenceIdeal.S_ .f32 0x00000000#32) (ix2 r q)
      = Ideal.ofBits .f32 0x00000000#32 :=
    (broadcastInDim_apply _ _ _ (ix2 r q) ix0 fun a => a.elim0).trans (constant_apply _ _)
  show max (A0 (ix2 r q) + broadcastInDim _ _ _ A2 (ix2 r q) * A1 (ix2 r q) + broadcastInDim _ _ _ A3 (ix2 r q)) (broadcastInDim _ _ _ _ (ix2 r q)) = _
  rw [hc, hr, hk]

/-- The printed index maps, decided once over the 20 grid points: windows 0, 1, 2 and 4 move with the point along
    the rows, the bias window stays at block (0, 0). -/
theorem idxf1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Window 0's block at point t, at (p, q), is the aggregate array at row 5000·t + p. -/
theorem blockrd1_0 (c : Dev nD) (t : Fin cfg1.N) (p : Fin 5000) (q : Fin 64) (i : S100000x64.Idx)
    (h0 : (i 0).val = 5000 * t.val + p.val) (h1 : (i 1).val = q.val) :
    (iblk1 V c 0 t : Vec Ideal S5000x64 .f32) (ix2 p q) = (V c (Pipeline.arrRef spec1 0) : S100000x64.Idx → Elt Ideal .f32) i := by
  obtain ⟨e0, e1, -⟩ := idxf1 t
  unfold iblk1
  rw [View.read_apply]
  refine congrArg (V c (Pipeline.arrRef spec1 0) : S100000x64.Idx → Elt Ideal .f32) (funext fun a => Fin.ext ?_)
  match a with
  | ⟨0, _⟩ => show win1_0.index t (0 : Fin 2) * 5000 + 1 * p.val = (i 0).val; omega
  | ⟨1, _⟩ => show win1_0.index t (1 : Fin 2) * 64 + 1 * q.val = (i 1).val; omega

/-- Window 1's block at point t, at (p, q), is the linear-image array at row 5000·t + p. -/
theorem blockrd1_1 (c : Dev nD) (t : Fin cfg1.N) (p : Fin 5000) (q : Fin 64) (i : S100000x64.Idx)
    (h0 : (i 0).val = 5000 * t.val + p.val) (h1 : (i 1).val = q.val) :
    (iblk1 V c 1 t : Vec Ideal S5000x64 .f32) (ix2 p q) = (V c (Pipeline.arrRef spec1 1) : S100000x64.Idx → Elt Ideal .f32) i := by
  obtain ⟨-, -, e0, e1, -⟩ := idxf1 t
  unfold iblk1
  rw [View.read_apply]
  refine congrArg (V c (Pipeline.arrRef spec1 1) : S100000x64.Idx → Elt Ideal .f32) (funext fun a => Fin.ext ?_)
  match a with
  | ⟨0, _⟩ => show win1_1.index t (0 : Fin 2) * 5000 + 1 * p.val = (i 0).val; omega
  | ⟨1, _⟩ => show win1_1.index t (1 : Fin 2) * 64 + 1 * q.val = (i 1).val; omega

/-- Window 2's block at point t, at (p, 0), is the self-normalisation column at row 5000·t + p. -/
theorem blockrd1_2 (c : Dev nD) (t : Fin cfg1.N) (p : Fin 5000) (i : S100000x1.Idx)
    (h0 : (i 0).val = 5000 * t.val + p.val) :
    (iblk1 V c 2 t : Vec Ideal S5000x1 .f32) (ix2 p (0 : Fin 1)) = (V c (Pipeline.arrRef spec1 2) : S100000x1.Idx → Elt Ideal .f32) i := by
  obtain ⟨-, -, -, -, e0, e1, -⟩ := idxf1 t
  have hi1 : (i 1).val < 1 := (i 1).isLt
  unfold iblk1
  rw [View.read_apply]
  refine congrArg (V c (Pipeline.arrRef spec1 2) : S100000x1.Idx → Elt Ideal .f32) (funext fun a => Fin.ext ?_)
  match a with
  | ⟨0, _⟩ => show win1_2.index t (0 : Fin 2) * 5000 + 1 * p.val = (i 0).val; omega
  | ⟨1, _⟩ => show win1_2.index t (1 : Fin 2) * 1 + 1 * (0 : Fin 1).val = (i 1).val; rw [e1]; show 0 * 1 + 1 * 0 = (i 1).val; omega

/-- Window 3's block at every point is the whole bias row. -/
theorem blockrd1_3 (c : Dev nD) (t : Fin cfg1.N) (q : Fin 64) :
    (iblk1 V c 3 t : Vec Ideal S1x64 .f32) (ix2 (0 : Fin 1) q) = (V c (Pipeline.arrRef spec1 3) : S1x64.Idx → Elt Ideal .f32) (ix2 (0 : Fin 1) q) := by
  obtain ⟨-, -, -, -, -, -, e0, e1, -⟩ := idxf1 t
  unfold iblk1
  rw [View.read_apply]
  refine congrArg (V c (Pipeline.arrRef spec1 3) : S1x64.Idx → Elt Ideal .f32) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 64 + 1 * q.val = q.val; omega

/-- The body's combine of four blocks agrees with the update of four arrays wherever the blocks' entries are the arrays'. -/
theorem pay1_eq_up (x2 : Vec Ideal S5000x1 .f32) (x0 x1 : Vec Ideal S5000x64 .f32) (x3 : Vec Ideal S1x64 .f32)
    (A0 A1 : FVec Ideal S100000x64 .f32) (A2 : FVec Ideal S100000x1 .f32) (A3 : FVec Ideal S1x64 .f32)
    (p : Fin 5000) (q : Fin 64) (r : Fin 100000)
    (h0 : x0 (ix2 p q) = A0 (ix2 r q)) (h1 : x1 (ix2 p q) = A1 (ix2 r q))
    (h2 : x2 (ix2 p (0 : Fin 1)) = A2 (ix2 r (0 : Fin 1))) (h3 : x3 (ix2 (0 : Fin 1) q) = A3 (ix2 (0 : Fin 1) q)) :
    k1_pay1 x2 x0 x1 x3 (ix2 p q) = up1 A0 A1 A2 A3 (ix2 r q) := by
  rw [pay1_apply, up1_apply, h0, h1, h2, h3]

/-- The output window is not cut: what a write-back moves of a block is the block. -/
theorem flushed1_cut {α : Type} (t : Fin cfg1.N) (X : S5000x64.Idx → α) : (cfg1.win 4).cut (grid1.coords t) X = X := rfl

/-- Entry j = (p, q) of what point t's body leaves is the update of the whole arrays at row 5000·t + p, the place of j
    in the result array: every input block but the bias's is read at that row, the bias's is the whole row. -/
theorem flushed1_pt (c : Dev nD) (t : Fin cfg1.N) (j : S5000x64.Idx) :
    k1_pay1 (iblk1 V c 2 t) (iblk1 V c 0 t) (iblk1 V c 1 t) (iblk1 V c 3 t) j
      = up1 (V c (Pipeline.arrRef spec1 0)) (V c (Pipeline.arrRef spec1 1)) (V c (Pipeline.arrRef spec1 2)) (V c (Pipeline.arrRef spec1 3))
          (((cfg1.win 4).blk t).view.emb j) := by
  have ht : t.val < 20 := t.isLt
  obtain ⟨-, -, -, -, -, -, -, -, e0, e1⟩ := idxf1 t
  obtain ⟨p, q, rfl⟩ : ∃ (p : Fin 5000) (q : Fin 64), j = ix2 p q := ⟨j 0, j 1, eq_ix2 j⟩
  have hemb : ((cfg1.win 4).blk t).view.emb (ix2 p q) = (ix2 (⟨5000 * t.val + p.val, by omega⟩ : Fin 100000) q : S100000x64.Idx) := by
    funext a; apply Fin.ext
    match a with
    | ⟨0, _⟩ => show win1_4.index t (0 : Fin 2) * 5000 + 1 * p.val = 5000 * t.val + p.val; omega
    | ⟨1, _⟩ => show win1_4.index t (1 : Fin 2) * 64 + 1 * q.val = q.val; omega
  rw [hemb]
  exact pay1_eq_up _ _ _ _ _ _ _ _ p q ⟨5000 * t.val + p.val, by omega⟩ (blockrd1_0 V c t p q _ rfl rfl) (blockrd1_1 V c t p q _ rfl rfl)
    (blockrd1_2 V c t p _ rfl) (blockrd1_3 V c t q)

/-- What point t writes back is block t of the update of the arrays the region is entered with. -/
theorem flushed1_4 (c : Dev nD) (t : Fin cfg1.N) :
    (dat1 V c).flushed 4 t = ((cfg1.win 4).blk t).view.read (Elt Ideal)
      (up1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4, flushed1_cut]
  unfold out1_4
  rw [View.canon_unit_zero hz1]
  simp only [View.ld_unit_zero (S := S5000x64) hz1, View.ld_unit_zero (S := S5000x1) hz1, View.ld_unit_zero (S := S1x64) hz1]
  refine funext fun (j : S5000x64.Idx) => ?_
  rw [View.read_apply]
  exact flushed1_pt V c t j

/-- An index of the result array is in point t's block iff each coordinate is in the block's range on its axis. -/
theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole (Pipeline.arrRef spec1 4)).slice (win1_4.rect t)).set ↔ _
  rw [View.set_slice_whole, Rect.mem_set_unit]
  exact Iff.rfl

/-- The twenty blocks tile the result array: row r lies in the block of point r / 5000. -/
theorem covered1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, -, -, -, -, -, e0, e1⟩ := idxf1 t
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The region's result array after the run is the layer's update of the arrays it entered with. -/
theorem arr1 (c : Dev nD) : (dat1 (F := Ideal) V c).arrAt 4 cfg1.N
    = maximumf (F := Ideal) (addf (addf (V c (Pipeline.arrRef spec1 0)) (mulf (broadcastInDim Cert.ReferenceIdeal.S100000x64 ![0, 1] Cert.ReferenceIdeal.Facts₀.bcast_S100000x1_S100000x64_0_1 (V c (Pipeline.arrRef spec1 2))) (V c (Pipeline.arrRef spec1 1))))
          (broadcastInDim Cert.ReferenceIdeal.S100000x64 ![0, 1] Cert.ReferenceIdeal.Facts₀.bcast_S1x64_S100000x64_0_1 (V c (Pipeline.arrRef spec1 3))))
        (broadcastInDim Cert.ReferenceIdeal.S100000x64 ![] Cert.ReferenceIdeal.Facts₀.bcast_S_S100000x64 (constant (F := Ideal) Cert.ReferenceIdeal.S_ .f32 0x00000000#32)) :=
  (dat1 V c).arrAt_eq_of_cover 4
    (up1 (V c (Pipeline.arrRef spec1 0)) (V c (Pipeline.arrRef spec1 1)) (V c (Pipeline.arrRef spec1 2)) (V c (Pipeline.arrRef spec1 3)))
    (fun t _ => flushed1_4 V c t) covered1_4

end Cert.KernelIdeal.Hand

end
-- ==== Proof.KI.Val5.lean ====
/-
  Region 5 of the idealized kernel program, read as a value over the extended reals: after the twenty points have run,
  the result array is ONE whole-array function of the arrays the region was entered with,
  agg + selfnorm · lin + bias (this region's combine has no clamp at zero), written with the reference's own operations
  (the column and the row spread by broadcast).  The steps: the combine of four blocks at an entry (p, q); the update of
  four arrays at an entry (r, q); the printed index maps over the grid; each input block as rows 5000·t … 5000·t + 4999
  of its array (the bias block is the whole row); hence what point t writes back is block t of the update; the twenty
  blocks tile the 100000 rows (row r is in the block of point r / 5000); so the array ends at the update.
-/
import proofs.«423338_j21947282882770_1_alg».proof.Proof.KI.Reg5
import proofs.«423338_j21947282882770_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

theorem hz5 : (![0, 0] : Fin 2 → Nat) = fun _ => 0 := funext fun a => by fin_cases a <;> rfl

/-- The column spread over the 64 lanes reads, at (p, q), the column at p. -/
theorem pay5_col (x : FVec Ideal S5000x1 .f32) (p : Fin 5000) (q : Fin 64) :
    broadcastTo S5000x64 x broadcasts_S5000x1_S5000x64 (ix2 p q) = x (ix2 p (0 : Fin 1)) := by
  refine broadcastTo_apply x _ (ix2 p q) (ix2 p (0 : Fin 1)) fun ax => ?_
  match ax with
  | ⟨0, _⟩ => show p.val = if (5000 : ℕ) = 1 then 0 else p.val; rw [if_neg (by decide)]
  | ⟨1, _⟩ => rfl

/-- The row spread over the 5000 rows reads, at (p, q), the row at q. -/
theorem pay5_row (x : FVec Ideal S1x64 .f32) (p : Fin 5000) (q : Fin 64) :
    broadcastTo S5000x64 x broadcasts_S1x64_S5000x64 (ix2 p q) = x (ix2 (0 : Fin 1) q) :=
  broadcastTo_1b_ab_apply x _ p q

/-- The combine at (p, q): agg + selfnorm · lin + bias of the four loads' entries (no clamp at zero in this region). -/
theorem pay5_apply (x2 : Vec Ideal S5000x1 .f32) (x0 x1 : Vec Ideal S5000x64 .f32) (x3 : Vec Ideal S1x64 .f32) (p : Fin 5000) (q : Fin 64) :
    k5_pay1 x2 x0 x1 x3 (ix2 p q)
      = x0 (ix2 p q) + x2 (ix2 p (0 : Fin 1)) * x1 (ix2 p q) + x3 (ix2 (0 : Fin 1) q) := by
  unfold k5_pay1
  simp only [shapeCast_self]
  rw [addf_apply, addf_apply, mulf_apply, pay5_col, pay5_row]

/-- The layer's update as ONE function of whole arrays: the reference's own operations. -/
abbrev up5 (A0 A1 : FVec Ideal S100000x64 .f32) (A2 : FVec Ideal S100000x1 .f32) (A3 : FVec Ideal S1x64 .f32) : FVec Ideal S100000x64 .f32 :=
  addf (F := Ideal) (addf A0 (mulf (broadcastInDim Cert.ReferenceIdeal.S100000x64 ![0, 1] Cert.ReferenceIdeal.Facts₀.bcast_S100000x1_S100000x64_0_1 A2) A1))
    (broadcastInDim Cert.ReferenceIdeal.S100000x64 ![0, 1] Cert.ReferenceIdeal.Facts₀.bcast_S1x64_S100000x64_0_1 A3)

/-- The update at (r, q). -/
theorem up5_apply (A0 A1 : FVec Ideal S100000x64 .f32) (A2 : FVec Ideal S100000x1 .f32) (A3 : FVec Ideal S1x64 .f32) (r : Fin 100000) (q : Fin 64) :
    up5 A0 A1 A2 A3 (ix2 r q)
      = A0 (ix2 r q) + A2 (ix2 r (0 : Fin 1)) * A1 (ix2 r q) + A3 (ix2 (0 : Fin 1) q) := by
  have hc : broadcastInDim Cert.ReferenceIdeal.S100000x64 ![0, 1] Cert.ReferenceIdeal.Facts₀.bcast_S100000x1_S100000x64_0_1 A2 (ix2 r q) = A2 (ix2 r (0 : Fin 1)) :=
    broadcastInDim_apply _ _ A2 (ix2 r q) (ix2 r (0 : Fin 1)) fun a => by
      match a with
      | ⟨0, _⟩ => show r.val = if (100000 : ℕ) = 1 then 0 else r.val; rw [if_neg (by decide)]
      | ⟨1, _⟩ => rfl
  have hr : broadcastInDim Cert.ReferenceIdeal.S100000x64 ![0, 1] Cert.ReferenceIdeal.Facts₀.bcast_S1x64_S100000x64_0_1 A3 (ix2 r q) = A3 (ix2 (0 : Fin 1) q) :=
    broadcastInDim_apply _ _ A3 (ix2 r q) (ix2 (0 : Fin 1) q) fun a => by
      match a with
      | ⟨0, _⟩ => rfl
      | ⟨1, _⟩ => show q.val = if (64 : ℕ) = 1 then 0 else q.val; rw [if_neg (by decide)]
  show A0 (ix2 r q) + broadcastInDim _ _ _ A2 (ix2 r q) * A1 (ix2 r q) + broadcastInDim _ _ _ A3 (ix2 r q) = _
  rw [hc, hr]

/-- The printed index maps, decided once over the 20 grid points: windows 0, 1, 2 and 4 move with the point along
    the rows, the bias window stays at block (0, 0). -/
theorem idxf5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

/-- Window 0's block at point t, at (p, q), is the aggregate array at row 5000·t + p. -/
theorem blockrd5_0 (c : Dev nD) (t : Fin cfg5.N) (p : Fin 5000) (q : Fin 64) (i : S100000x64.Idx)
    (h0 : (i 0).val = 5000 * t.val + p.val) (h1 : (i 1).val = q.val) :
    (iblk5 V c 0 t : Vec Ideal S5000x64 .f32) (ix2 p q) = (V c (Pipeline.arrRef spec5 0) : S100000x64.Idx → Elt Ideal .f32) i := by
  obtain ⟨e0, e1, -⟩ := idxf5 t
  unfold iblk5
  rw [View.read_apply]
  refine congrArg (V c (Pipeline.arrRef spec5 0) : S100000x64.Idx → Elt Ideal .f32) (funext fun a => Fin.ext ?_)
  match a with
  | ⟨0, _⟩ => show win5_0.index t (0 : Fin 2) * 5000 + 1 * p.val = (i 0).val; omega
  | ⟨1, _⟩ => show win5_0.index t (1 : Fin 2) * 64 + 1 * q.val = (i 1).val; omega

/-- Window 1's block at point t, at (p, q), is the linear-image array at row 5000·t + p. -/
theorem blockrd5_1 (c : Dev nD) (t : Fin cfg5.N) (p : Fin 5000) (q : Fin 64) (i : S100000x64.Idx)
    (h0 : (i 0).val = 5000 * t.val + p.val) (h1 : (i 1).val = q.val) :
    (iblk5 V c 1 t : Vec Ideal S5000x64 .f32) (ix2 p q) = (V c (Pipeline.arrRef spec5 1) : S100000x64.Idx → Elt Ideal .f32) i := by
  obtain ⟨-, -, e0, e1, -⟩ := idxf5 t
  unfold iblk5
  rw [View.read_apply]
  refine congrArg (V c (Pipeline.arrRef spec5 1) : S100000x64.Idx → Elt Ideal .f32) (funext fun a => Fin.ext ?_)
  match a with
  | ⟨0, _⟩ => show win5_1.index t (0 : Fin 2) * 5000 + 1 * p.val = (i 0).val; omega
  | ⟨1, _⟩ => show win5_1.index t (1 : Fin 2) * 64 + 1 * q.val = (i 1).val; omega

/-- Window 2's block at point t, at (p, 0), is the self-normalisation column at row 5000·t + p. -/
theorem blockrd5_2 (c : Dev nD) (t : Fin cfg5.N) (p : Fin 5000) (i : S100000x1.Idx)
    (h0 : (i 0).val = 5000 * t.val + p.val) :
    (iblk5 V c 2 t : Vec Ideal S5000x1 .f32) (ix2 p (0 : Fin 1)) = (V c (Pipeline.arrRef spec5 2) : S100000x1.Idx → Elt Ideal .f32) i := by
  obtain ⟨-, -, -, -, e0, e1, -⟩ := idxf5 t
  have hi1 : (i 1).val < 1 := (i 1).isLt
  unfold iblk5
  rw [View.read_apply]
  refine congrArg (V c (Pipeline.arrRef spec5 2) : S100000x1.Idx → Elt Ideal .f32) (funext fun a => Fin.ext ?_)
  match a with
  | ⟨0, _⟩ => show win5_2.index t (0 : Fin 2) * 5000 + 1 * p.val = (i 0).val; omega
  | ⟨1, _⟩ => show win5_2.index t (1 : Fin 2) * 1 + 1 * (0 : Fin 1).val = (i 1).val; rw [e1]; show 0 * 1 + 1 * 0 = (i 1).val; omega

/-- Window 3's block at every point is the whole bias row. -/
theorem blockrd5_3 (c : Dev nD) (t : Fin cfg5.N) (q : Fin 64) :
    (iblk5 V c 3 t : Vec Ideal S1x64 .f32) (ix2 (0 : Fin 1) q) = (V c (Pipeline.arrRef spec5 3) : S1x64.Idx → Elt Ideal .f32) (ix2 (0 : Fin 1) q) := by
  obtain ⟨-, -, -, -, -, -, e0, e1, -⟩ := idxf5 t
  unfold iblk5
  rw [View.read_apply]
  refine congrArg (V c (Pipeline.arrRef spec5 3) : S1x64.Idx → Elt Ideal .f32) (funext fun a => Fin.ext ?_)
  match a with
  | ⟨0, _⟩ => show win5_3.index t (0 : Fin 2) * 1 + 1 * (0 : Fin 1).val = (0 : Fin 1).val; rw [e0]; rfl
  | ⟨1, _⟩ => show win5_3.index t (1 : Fin 2) * 64 + 1 * q.val = q.val; omega

/-- The body's combine of four blocks agrees with the update of four arrays wherever the blocks' entries are the arrays'. -/
theorem pay5_eq_up (x2 : Vec Ideal S5000x1 .f32) (x0 x1 : Vec Ideal S5000x64 .f32) (x3 : Vec Ideal S1x64 .f32)
    (A0 A1 : FVec Ideal S100000x64 .f32) (A2 : FVec Ideal S100000x1 .f32) (A3 : FVec Ideal S1x64 .f32)
    (p : Fin 5000) (q : Fin 64) (r : Fin 100000)
    (h0 : x0 (ix2 p q) = A0 (ix2 r q)) (h1 : x1 (ix2 p q) = A1 (ix2 r q))
    (h2 : x2 (ix2 p (0 : Fin 1)) = A2 (ix2 r (0 : Fin 1))) (h3 : x3 (ix2 (0 : Fin 1) q) = A3 (ix2 (0 : Fin 1) q)) :
    k5_pay1 x2 x0 x1 x3 (ix2 p q) = up5 A0 A1 A2 A3 (ix2 r q) := by
  rw [pay5_apply, up5_apply, h0, h1, h2, h3]

/-- The output window is not cut: what a write-back moves of a block is the block. -/
theorem flushed5_cut {α : Type} (t : Fin cfg5.N) (X : S5000x64.Idx → α) : (cfg5.win 4).cut (grid5.coords t) X = X := rfl

/-- Entry j = (p, q) of what point t's body leaves is the update of the whole arrays at row 5000·t + p, the place of j
    in the result array: every input block but the bias's is read at that row, the bias's is the whole row. -/
theorem flushed5_pt (c : Dev nD) (t : Fin cfg5.N) (j : S5000x64.Idx) :
    k5_pay1 (iblk5 V c 2 t) (iblk5 V c 0 t) (iblk5 V c 1 t) (iblk5 V c 3 t) j
      = up5 (V c (Pipeline.arrRef spec5 0)) (V c (Pipeline.arrRef spec5 1)) (V c (Pipeline.arrRef spec5 2)) (V c (Pipeline.arrRef spec5 3))
          (((cfg5.win 4).blk t).view.emb j) := by
  have ht : t.val < 20 := t.isLt
  obtain ⟨-, -, -, -, -, -, -, -, e0, e1⟩ := idxf5 t
  obtain ⟨p, q, rfl⟩ : ∃ (p : Fin 5000) (q : Fin 64), j = ix2 p q := ⟨j 0, j 1, eq_ix2 j⟩
  have hemb : ((cfg5.win 4).blk t).view.emb (ix2 p q) = (ix2 (⟨5000 * t.val + p.val, by omega⟩ : Fin 100000) q : S100000x64.Idx) := by
    funext a; apply Fin.ext
    match a with
    | ⟨0, _⟩ => show win5_4.index t (0 : Fin 2) * 5000 + 1 * p.val = 5000 * t.val + p.val; omega
    | ⟨1, _⟩ => show win5_4.index t (1 : Fin 2) * 64 + 1 * q.val = q.val; omega
  rw [hemb]
  exact pay5_eq_up _ _ _ _ _ _ _ _ p q ⟨5000 * t.val + p.val, by omega⟩ (blockrd5_0 V c t p q _ rfl rfl) (blockrd5_1 V c t p q _ rfl rfl)
    (blockrd5_2 V c t p _ rfl) (blockrd5_3 V c t q)

/-- What point t writes back is block t of the update of the arrays the region is entered with. -/
theorem flushed5_4 (c : Dev nD) (t : Fin cfg5.N) :
    (dat5 V c).flushed 4 t = ((cfg5.win 4).blk t).view.read (Elt Ideal)
      (up5 (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4, flushed5_cut]
  unfold out5_4
  rw [View.canon_unit_zero hz5]
  simp only [View.ld_unit_zero (S := S5000x64) hz5, View.ld_unit_zero (S := S5000x1) hz5, View.ld_unit_zero (S := S1x64) hz5]
  refine funext fun (j : S5000x64.Idx) => ?_
  rw [View.read_apply]
  exact flushed5_pt V c t j

/-- An index of the result array is in point t's block iff each coordinate is in the block's range on its axis. -/
theorem mem_blk5_4 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole (Pipeline.arrRef spec5 4)).slice (win5_4.rect t)).set ↔ _
  rw [View.set_slice_whole, Rect.mem_set_unit]
  exact Iff.rfl

/-- The twenty blocks tile the result array: row r lies in the block of point r / 5000. -/
theorem covered5_4 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 5000 := ⟨⟨(i 0).val / 5000, by rw [show cfg5.N = 20 from N_5]; omega⟩, rfl⟩
  obtain ⟨-, -, -, -, -, -, -, -, e0, e1⟩ := idxf5 t
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The region's result array after the run is the layer's update of the arrays it entered with. -/
theorem arr5 (c : Dev nD) : (dat5 (F := Ideal) V c).arrAt 4 cfg5.N
    = (addf (F := Ideal) (addf (V c (Pipeline.arrRef spec5 0)) (mulf (broadcastInDim Cert.ReferenceIdeal.S100000x64 ![0, 1] Cert.ReferenceIdeal.Facts₀.bcast_S100000x1_S100000x64_0_1 (V c (Pipeline.arrRef spec5 2))) (V c (Pipeline.arrRef spec5 1))))
        (broadcastInDim Cert.ReferenceIdeal.S100000x64 ![0, 1] Cert.ReferenceIdeal.Facts₀.bcast_S1x64_S100000x64_0_1 (V c (Pipeline.arrRef spec5 3))) : FVec Ideal Cert.ReferenceIdeal.S100000x64 .f32) :=
  (dat5 V c).arrAt_eq_of_cover 4
    (up5 (V c (Pipeline.arrRef spec5 0)) (V c (Pipeline.arrRef spec5 1)) (V c (Pipeline.arrRef spec5 2)) (V c (Pipeline.arrRef spec5 3)))
    (fun t _ => flushed5_4 V c t) covered5_4

end Cert.KernelIdeal.Hand

end
-- ==== Proof.KI.Val6.lean ====
/-
  Region 6 of the idealized kernel program, its value: after the region the 100000 × 1 result array is the reference's
  read-out r = max(h · RW1 + Rb1, 0) · RW2 + Rb2 of the five arrays the region entered with, as one whole-array term.
  First the two contractions of the body and of the reference and the broadcasts, read at an index over the extended
  reals; then the body's arithmetic at a row of its block; then block by block: each input block read where the
  result block's rectangle says, what a point writes back, the cover of the nodes by the tiles, the array.
-/
import proofs.«423338_j21947282882770_1_alg».proof.Proof.KI.Reg6
import proofs.«423338_j21947282882770_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The two contractions of the body, read at an index -/

theorem lhsK6a_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhsK6a_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhsK6a_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhsK6a_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

theorem matmulK6a_apply (l : FVec Ideal S5000x64 .bf16) (r : FVec Ideal S64x32 .bf16) (p : Fin 5000) (k : Fin 32) :
    matmul dot_S5000x64_S64x32_S5000x32_1_0_0_1_n_n none l r (constant S5000x32 .f32 0x00000000#32) (ix2 p k) = ∑ j : Fin 64, l (ix2 p j) * r (ix2 j k) := by
  simp only [matmul]
  rw [Ideal.matmul_constant_zero_apply, ← Equiv.sum_comp (contrEquiv1 dot_S5000x64_S64x32_S5000x32_1_0_0_1_n_n 64 rfl rfl).symm]
  refine Finset.sum_congr rfl fun j _ => ?_
  have hk := contrEquiv1_symm_val dot_S5000x64_S64x32_S5000x32_1_0_0_1_n_n 64 rfl rfl j
  have el : dot_S5000x64_S64x32_S5000x32_1_0_0_1_n_n.lhsIdx (ix2 p k) ((contrEquiv1 dot_S5000x64_S64x32_S5000x32_1_0_0_1_n_n 64 rfl rfl).symm j) = ix2 p j := funext fun a => Fin.ext (by
    match a with
    | ⟨0, _⟩ => exact lhsK6a_0 _ _
    | ⟨1, _⟩ => exact (lhsK6a_1 _ _).trans hk)
  have er : dot_S5000x64_S64x32_S5000x32_1_0_0_1_n_n.rhsIdx (ix2 p k) ((contrEquiv1 dot_S5000x64_S64x32_S5000x32_1_0_0_1_n_n 64 rfl rfl).symm j) = ix2 j k := funext fun a => Fin.ext (by
    match a with
    | ⟨0, _⟩ => exact (rhsK6a_0 _ _).trans hk
    | ⟨1, _⟩ => exact rhsK6a_1 _ _)
  rw [el, er]

theorem lhsK6b_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhsK6b_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhsK6b_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhsK6b_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

theorem matmulK6b_apply (l : FVec Ideal S5000x32 .bf16) (r : FVec Ideal S32x1 .bf16) (p : Fin 5000) (k : Fin 1) :
    matmul dot_S5000x32_S32x1_S5000x1_1_0_0_1_n_n none l r (constant S5000x1 .f32 0x00000000#32) (ix2 p k) = ∑ j : Fin 32, l (ix2 p j) * r (ix2 j k) := by
  simp only [matmul]
  rw [Ideal.matmul_constant_zero_apply, ← Equiv.sum_comp (contrEquiv1 dot_S5000x32_S32x1_S5000x1_1_0_0_1_n_n 32 rfl rfl).symm]
  refine Finset.sum_congr rfl fun j _ => ?_
  have hk := contrEquiv1_symm_val dot_S5000x32_S32x1_S5000x1_1_0_0_1_n_n 32 rfl rfl j
  have el : dot_S5000x32_S32x1_S5000x1_1_0_0_1_n_n.lhsIdx (ix2 p k) ((contrEquiv1 dot_S5000x32_S32x1_S5000x1_1_0_0_1_n_n 32 rfl rfl).symm j) = ix2 p j := funext fun a => Fin.ext (by
    match a with
    | ⟨0, _⟩ => exact lhsK6b_0 _ _
    | ⟨1, _⟩ => exact (lhsK6b_1 _ _).trans hk)
  have er : dot_S5000x32_S32x1_S5000x1_1_0_0_1_n_n.rhsIdx (ix2 p k) ((contrEquiv1 dot_S5000x32_S32x1_S5000x1_1_0_0_1_n_n 32 rfl rfl).symm j) = ix2 j k := funext fun a => Fin.ext (by
    match a with
    | ⟨0, _⟩ => exact (rhsK6b_0 _ _).trans hk
    | ⟨1, _⟩ => exact rhsK6b_1 _ _)
  rw [el, er]

/-- The body's arithmetic at row `p` of its block: the read-out of that row of the features (a change of float
    format is the identity on the extended reals, a contraction into a zero accumulator the plain sum). -/
theorem pay6_apply (x0 : Vec Ideal S5000x64 .f32) (x1 : Vec Ideal S64x32 .f32) (x2 : Vec Ideal S1x32 .f32) (x3 : Vec Ideal S32x1 .f32)
    (x4 : Vec Ideal S1x1 .f32) (p : Fin 5000) (q : Fin 1) :
    k6_pay1 x0 x1 x2 x3 x4 (ix2 p q)
      = (∑ k : Fin 32, max ((∑ j : Fin 64, x0 (ix2 p j) * x1 (ix2 j k)) + x2 (ix2 (0 : Fin 1) k)) (Ideal.ofBits .f32 0x00000000#32) * x3 (ix2 k q))
        + x4 (ix2 (0 : Fin 1) q) := by
  unfold k6_pay1
  rw [addf_apply, matmulK6b_apply]
  simp only [truncf_apply, maximumf_apply, addf_apply, broadcast_apply, shapeCast_self, matmulK6a_apply, broadcastTo_1b_ab_apply]
  rfl

/-! ## The reference's two contractions and its broadcasts, read at an index -/

theorem lhsR6a_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
theorem lhsR6a_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
theorem rhsR6a_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
theorem rhsR6a_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl

theorem dotR6a_apply (l : FVec Ideal Cert.ReferenceIdeal.S100000x64 .f32) (r : FVec Ideal Cert.ReferenceIdeal.S64x32 .f32) (p : Fin 100000) (k : Fin 32) :
    Host.dotGeneral Cert.ReferenceIdeal.dot_S100000x64_S64x32_S100000x32_1_0_0_1_n_n none l r (ix2 p k) = ∑ j : Fin 64, l (ix2 p j) * r (ix2 j k) := by
  simp only [Host.dotGeneral]
  rw [Ideal.dotGeneral_apply, ← Equiv.sum_comp (contrEquiv1 Cert.ReferenceIdeal.dot_S100000x64_S64x32_S100000x32_1_0_0_1_n_n 64 rfl rfl).symm]
  refine Finset.sum_congr rfl fun j _ => ?_
  have hk := contrEquiv1_symm_val Cert.ReferenceIdeal.dot_S100000x64_S64x32_S100000x32_1_0_0_1_n_n 64 rfl rfl j
  have el : Cert.ReferenceIdeal.dot_S100000x64_S64x32_S100000x32_1_0_0_1_n_n.lhsIdx (ix2 p k) ((contrEquiv1 Cert.ReferenceIdeal.dot_S100000x64_S64x32_S100000x32_1_0_0_1_n_n 64 rfl rfl).symm j) = ix2 p j := funext fun a => Fin.ext (by
    match a with
    | ⟨0, _⟩ => exact lhsR6a_0 _ _
    | ⟨1, _⟩ => exact (lhsR6a_1 _ _).trans hk)
  have er : Cert.ReferenceIdeal.dot_S100000x64_S64x32_S100000x32_1_0_0_1_n_n.rhsIdx (ix2 p k) ((contrEquiv1 Cert.ReferenceIdeal.dot_S100000x64_S64x32_S100000x32_1_0_0_1_n_n 64 rfl rfl).symm j) = ix2 j k := funext fun a => Fin.ext (by
    match a with
    | ⟨0, _⟩ => exact (rhsR6a_0 _ _).trans hk
    | ⟨1, _⟩ => exact rhsR6a_1 _ _)
  rw [el, er]

theorem lhsR6b_0 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x1_S100000x1_1_0_0_1_n_n.lhsBatch by decide), dif_pos (show (0 : Fin Cert.ReferenceIdeal.S100000x32.rank) ∈ Cert.ReferenceIdeal.dot_S100000x32_S32x1_S100000x1_1_0_0_1_n_n.lhsNonContracting by decide)]
  rfl
theorem lhsR6b_1 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.lhsIdx i q 1).val = (q ⟨0, by decide⟩).val :=
  Cert.ReferenceIdeal.dot_S100000x32_S32x1_S100000x1_1_0_0_1_n_n.lhsIdx_val_of_single rfl i q
theorem rhsR6b_0 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.rhsIdx i q 0).val = (q ⟨0, by decide⟩).val :=
  Cert.ReferenceIdeal.dot_S100000x32_S32x1_S100000x1_1_0_0_1_n_n.rhsIdx_val_of_single rfl i q
theorem rhsR6b_1 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.rhsIdx i q 1).val = (i 1).val := by
  unfold DotDims.rhsIdx
  rw [dif_neg (show ¬(1 : Fin Cert.ReferenceIdeal.S32x1.rank) ∈ Cert.ReferenceIdeal.dot_S100000x32_S32x1_S100000x1_1_0_0_1_n_n.rhsBatch by decide), dif_pos (show (1 : Fin Cert.ReferenceIdeal.S32x1.rank) ∈ Cert.ReferenceIdeal.dot_S100000x32_S32x1_S100000x1_1_0_0_1_n_n.rhsNonContracting by decide)]
  rfl

theorem dotR6b_apply (l : FVec Ideal Cert.ReferenceIdeal.S100000x32 .f32) (r : FVec Ideal Cert.ReferenceIdeal.S32x1 .f32) (p : Fin 100000) (k : Fin 1) :
    Host.dotGeneral Cert.ReferenceIdeal.dot_S100000x32_S32x1_S100000x1_1_0_0_1_n_n none l r (ix2 p k) = ∑ j : Fin 32, l (ix2 p j) * r (ix2 j k) := by
  simp only [Host.dotGeneral]
  rw [Ideal.dotGeneral_apply, ← Equiv.sum_comp (contrEquiv1 Cert.ReferenceIdeal.dot_S100000x32_S32x1_S100000x1_1_0_0_1_n_n 32 rfl rfl).symm]
  refine Finset.sum_congr rfl fun j _ => ?_
  have hk := contrEquiv1_symm_val Cert.ReferenceIdeal.dot_S100000x32_S32x1_S100000x1_1_0_0_1_n_n 32 rfl rfl j
  have el : Cert.ReferenceIdeal.dot_S100000x32_S32x1_S100000x1_1_0_0_1_n_n.lhsIdx (ix2 p k) ((contrEquiv1 Cert.ReferenceIdeal.dot_S100000x32_S32x1_S100000x1_1_0_0_1_n_n 32 rfl rfl).symm j) = ix2 p j := funext fun a => Fin.ext (by
    match a with
    | ⟨0, _⟩ => exact lhsR6b_0 _ _
    | ⟨1, _⟩ => exact (lhsR6b_1 _ _).trans hk)
  have er : Cert.ReferenceIdeal.dot_S100000x32_S32x1_S100000x1_1_0_0_1_n_n.rhsIdx (ix2 p k) ((contrEquiv1 Cert.ReferenceIdeal.dot_S100000x32_S32x1_S100000x1_1_0_0_1_n_n 32 rfl rfl).symm j) = ix2 j k := funext fun a => Fin.ext (by
    match a with
    | ⟨0, _⟩ => exact (rhsR6b_0 _ _).trans hk
    | ⟨1, _⟩ => exact rhsR6b_1 _ _)
  rw [el, er]

/-- A `[1, b]` array broadcast along its own two axes to `[a, b]` reads, at `(p, c)`, its one row at `c`. -/
theorem bcastRow6_apply {α : Type} {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The zero constant broadcast over the hidden layer reads zero everywhere. -/
theorem bcastZero6_apply (j : Cert.ReferenceIdeal.S100000x32.Idx) :
    broadcastInDim Cert.ReferenceIdeal.S100000x32 ![] Cert.ReferenceIdeal.Facts₀.bcast_S_S100000x32 (constant (F := Ideal) Cert.ReferenceIdeal.S_ .f32 0x00000000#32) j
      = Ideal.ofBits .f32 0x00000000#32 :=
  broadcastInDim_apply _ _ _ j ix0 fun a => a.elim0

/-- The reference's read-out as ONE function of the five arrays: two contractions, the bias rows broadcast over the
    nodes, the rectifier between them. -/
abbrev G6 (a0 : Cert.ReferenceIdeal.S100000x64.Idx → Ideal .f32) (a1 : Cert.ReferenceIdeal.S64x32.Idx → Ideal .f32) (a2 : Cert.ReferenceIdeal.S1x32.Idx → Ideal .f32)
    (a3 : Cert.ReferenceIdeal.S32x1.Idx → Ideal .f32) (a4 : Cert.ReferenceIdeal.S1x1.Idx → Ideal .f32) : Cert.ReferenceIdeal.S100000x1.Idx → Ideal .f32 :=
  addf (F := Ideal) (Host.dotGeneral Cert.ReferenceIdeal.dot_S100000x32_S32x1_S100000x1_1_0_0_1_n_n none
      (maximumf (addf (Host.dotGeneral Cert.ReferenceIdeal.dot_S100000x64_S64x32_S100000x32_1_0_0_1_n_n none a0 a1)
          (broadcastInDim Cert.ReferenceIdeal.S100000x32 ![0, 1] Cert.ReferenceIdeal.Facts₀.bcast_S1x32_S100000x32_0_1 a2))
        (broadcastInDim Cert.ReferenceIdeal.S100000x32 ![] Cert.ReferenceIdeal.Facts₀.bcast_S_S100000x32 (constant (F := Ideal) Cert.ReferenceIdeal.S_ .f32 0x00000000#32)))
      a3)
    (broadcastInDim Cert.ReferenceIdeal.S100000x1 ![0, 1] Cert.ReferenceIdeal.Facts₀.bcast_S1x1_S100000x1_0_1 a4)

/-- The reference's read-out at node `r`. -/
theorem G6_apply (a0 : Cert.ReferenceIdeal.S100000x64.Idx → Ideal .f32) (a1 : Cert.ReferenceIdeal.S64x32.Idx → Ideal .f32) (a2 : Cert.ReferenceIdeal.S1x32.Idx → Ideal .f32)
    (a3 : Cert.ReferenceIdeal.S32x1.Idx → Ideal .f32) (a4 : Cert.ReferenceIdeal.S1x1.Idx → Ideal .f32) (r : Fin 100000) (q : Fin 1) :
    G6 a0 a1 a2 a3 a4 (ix2 r q)
      = (∑ k : Fin 32, max ((∑ j : Fin 64, a0 (ix2 r j) * a1 (ix2 j k)) + a2 (ix2 (0 : Fin 1) k)) (Ideal.ofBits .f32 0x00000000#32) * a3 (ix2 k q))
        + a4 (ix2 (0 : Fin 1) q) := by
  unfold G6
  rw [addf_apply, dotR6b_apply]
  simp only [maximumf_apply, addf_apply, dotR6a_apply, bcastRow6_apply]
  refine congrArg₂ _ (Finset.sum_congr rfl fun k _ => ?_) rfl
  rw [bcastZero6_apply]

/-! ## From blocks to the array -/

/-- Row `y 0` of the body's result, over a first block whose row `y 0` is row `i 0` of the features and over the four
    small arrays whole, is the reference's read-out at node `i 0`. -/
theorem block_eq6 (x0 : Vec Ideal S5000x64 .f32) (x1 : Vec Ideal S64x32 .f32) (x2 : Vec Ideal S1x32 .f32) (x3 : Vec Ideal S32x1 .f32)
    (x4 : Vec Ideal S1x1 .f32) (a0 : Cert.ReferenceIdeal.S100000x64.Idx → Ideal .f32) (a1 : Cert.ReferenceIdeal.S64x32.Idx → Ideal .f32) (a2 : Cert.ReferenceIdeal.S1x32.Idx → Ideal .f32)
    (a3 : Cert.ReferenceIdeal.S32x1.Idx → Ideal .f32) (a4 : Cert.ReferenceIdeal.S1x1.Idx → Ideal .f32) (y : S5000x1.Idx) (i : Cert.ReferenceIdeal.S100000x1.Idx)
    (h0 : ∀ j : Fin 64, x0 (ix2 (y 0) j) = a0 (ix2 (i 0) j)) (h1 : x1 = a1) (h2 : x2 = a2) (h3 : x3 = a3) (h4 : x4 = a4) :
    k6_pay1 x0 x1 x2 x3 x4 y = G6 a0 a1 a2 a3 a4 i := by
  subst h1 h2 h3 h4
  obtain ⟨p, q, rfl⟩ : ∃ (p : Fin 5000) (q : Fin 1), y = ix2 p q := ⟨y 0, y 1, eq_ix2 y⟩
  obtain ⟨r, q', rfl⟩ : ∃ (r : Fin 100000) (q' : Fin 1), i = ix2 r q' := ⟨i 0, i 1, eq_ix2 i⟩
  obtain rfl : q' = q := Subsingleton.elim _ _
  rw [pay6_apply, G6_apply]
  simp only [show ∀ j : Fin 64, x0 (ix2 p j) = a0 (ix2 r j) from h0]

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the feature block and the result block move with the point, the four small
    windows stay at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Window 1's block at every point is its whole array. -/
theorem iblk6_1_eq (c : Dev nD) (t : Fin cfg6.N) : iblk6 V c 1 t = V c (Pipeline.arrRef spec6 1) := by
  obtain ⟨-, -, e10, e11, e20, e21, e30, e31, e40, e41, -, -⟩ := idx_facts6 t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 64 + 1 * (y 0).val = (y 0).val; omega
  | ⟨1, _⟩ => show win6_1.index t (1 : Fin 2) * 32 + 1 * (y 1).val = (y 1).val; omega
/-- Window 2's block at every point is its whole array. -/
theorem iblk6_2_eq (c : Dev nD) (t : Fin cfg6.N) : iblk6 V c 2 t = V c (Pipeline.arrRef spec6 2) := by
  obtain ⟨-, -, e10, e11, e20, e21, e30, e31, e40, e41, -, -⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 32 + 1 * (y 1).val = (y 1).val; omega
/-- Window 3's block at every point is its whole array. -/
theorem iblk6_3_eq (c : Dev nD) (t : Fin cfg6.N) : iblk6 V c 3 t = V c (Pipeline.arrRef spec6 3) := by
  obtain ⟨-, -, e10, e11, e20, e21, e30, e31, e40, e41, -, -⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 32 + 1 * (y 0).val = (y 0).val; omega
  | ⟨1, _⟩ => show win6_3.index t (1 : Fin 2) * 1 + 1 * (y 1).val = (y 1).val; omega
/-- Window 4's block at every point is its whole array. -/
theorem iblk6_4_eq (c : Dev nD) (t : Fin cfg6.N) : iblk6 V c 4 t = V c (Pipeline.arrRef spec6 4) := by
  obtain ⟨-, -, e10, e11, e20, e21, e30, e31, e40, e41, -, -⟩ := idx_facts6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 1 + 1 * (y 1).val = (y 1).val; omega

set_option maxHeartbeats 1000000 in
/-- WHAT POINT `t` WRITES BACK is block `t` of the reference's read-out of the arrays as the region finds them. -/
theorem flushed6_eq (c : Dev nD) (t : Fin cfg6.N) :
    (dat6 (F := Ideal) V c).flushed 5 t = ((cfg6.win 5).blk t).view.read (Elt Ideal) (G6 (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero hz6]
  simp only [View.ld_unit_zero (S := S5000x64) hz6, View.ld_unit_zero (S := S64x32) hz6, View.ld_unit_zero (S := S1x32) hz6,
    View.ld_unit_zero (S := S32x1) hz6, View.ld_unit_zero (S := S1x1) hz6]
  obtain ⟨e00, e01, -, -, -, -, -, -, -, -, e50, e51⟩ := idx_facts6 t
  funext j
  show k6_pay1 (iblk6 V c 0 t) (iblk6 V c 1 t) (iblk6 V c 2 t) (iblk6 V c 3 t) (iblk6 V c 4 t) j
    = G6 (V c (Pipeline.arrRef spec6 0)) (V c (Pipeline.arrRef spec6 1)) (V c (Pipeline.arrRef spec6 2)) (V c (Pipeline.arrRef spec6 3)) (V c (Pipeline.arrRef spec6 4)) (((cfg6.win 5).blk t).view.emb j)
  have key := block_eq6 (iblk6 V c 0 t) (iblk6 V c 1 t) (iblk6 V c 2 t) (iblk6 V c 3 t) (iblk6 V c 4 t) (V c (Pipeline.arrRef spec6 0)) (V c (Pipeline.arrRef spec6 1)) (V c (Pipeline.arrRef spec6 2)) (V c (Pipeline.arrRef spec6 3)) (V c (Pipeline.arrRef spec6 4)) j (((cfg6.win 5).blk t).view.emb j)
  refine key (fun jj => ?_) (iblk6_1_eq V c t) (iblk6_2_eq V c t) (iblk6_3_eq V c t) (iblk6_4_eq V c t)
  show V c (Pipeline.arrRef spec6 0) (((cfg6.win 0).blk t).view.emb (ix2 (j 0) jj)) = V c (Pipeline.arrRef spec6 0) (ix2 ((((cfg6.win 5).blk t).view.emb j) 0) jj)
  refine congrArg _ (funext fun a => Fin.ext ?_)
  match a with
  | ⟨0, _⟩ => show win6_0.index t (0 : Fin 2) * 5000 + 1 * (j 0).val = win6_5.index t (0 : Fin 2) * 5000 + 1 * (j 0).val; omega
  | ⟨1, _⟩ => show win6_0.index t (1 : Fin 2) * 64 + 1 * jj.val = jj.val; omega

/-- A node is in point `t`'s block of the result iff each coordinate is in the block's range on its axis. -/
theorem mem_blk6 (t : Fin cfg6.N) (i : S100000x1.Idx) :
    i ∈ ((cfg6.win 5).blk t).view.set ↔ ∀ a : Fin 2, win6_5.index t a * S5000x1.size a ≤ (i a).val ∧ (i a).val < win6_5.index t a * S5000x1.size a + S5000x1.size a := by
  show i ∈ ((View.whole main_v82).slice (win6_5.rect t)).set ↔ _
  rw [View.set_slice_whole, Rect.mem_set_unit]
  exact Iff.rfl

/-- Every node is in the block of the point that is its row divided by the tile height. -/
theorem cover6 (i : S100000x1.Idx) : ∃ t : Fin cfg6.N, (cfg6.win 5).flush t = true ∧ i ∈ ((cfg6.win 5).blk t).view.set := by
  have hi0 : (i 0).val < 100000 := (i 0).isLt
  have hi1 : (i 1).val < 1 := (i 1).isLt
  have hN : cfg6.N = 20 := N_6
  refine ⟨⟨(i 0).val / 5000, by omega⟩, flush6_5 _, ?_⟩
  obtain ⟨-, -, -, -, -, -, -, -, -, -, e50, e51⟩ := idx_facts6 ⟨(i 0).val / 5000, by omega⟩
  rw [mem_blk6]
  intro a
  match a with
  | ⟨0, _⟩ => show win6_5.index _ (0 : Fin 2) * 5000 ≤ (i 0).val ∧ (i 0).val < win6_5.index _ (0 : Fin 2) * 5000 + 5000; rw [e50]; show (i 0).val / 5000 * 5000 ≤ (i 0).val ∧ (i 0).val < (i 0).val / 5000 * 5000 + 5000; omega
  | ⟨1, _⟩ => show win6_5.index _ (1 : Fin 2) * 1 ≤ (i 1).val ∧ (i 1).val < win6_5.index _ (1 : Fin 2) * 1 + 1; rw [e51]; omega

/-- THE RESULT ARRAY after the region: the reference's read-out of the five arrays the region entered with. -/
theorem arr6_G (c : Dev nD) : (dat6 (F := Ideal) V c).arrAt 5 cfg6.N = G6 (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 (G6 (V c (Pipeline.arrRef spec6 0)) (V c (Pipeline.arrRef spec6 1)) (V c (Pipeline.arrRef spec6 2)) (V c (Pipeline.arrRef spec6 3)) (V c (Pipeline.arrRef spec6 4))) (fun t _ => flushed6_eq V c t) cover6

/-- The same, with the read-out spelled as the reference's own operations. -/
theorem arr6 (c : Dev nD) : (dat6 (F := Ideal) V c).arrAt 5 cfg6.N
      = addf (F := Ideal) (Host.dotGeneral (φ₁ := .f32) (φ₂ := .f32) Cert.ReferenceIdeal.dot_S100000x32_S32x1_S100000x1_1_0_0_1_n_n none
            (maximumf (addf (Host.dotGeneral (φ₁ := .f32) (φ₂ := .f32) Cert.ReferenceIdeal.dot_S100000x64_S64x32_S100000x32_1_0_0_1_n_n none (V c (Pipeline.arrRef spec6 0)) (V c (Pipeline.arrRef spec6 1)))
                (broadcastInDim Cert.ReferenceIdeal.S100000x32 ![0, 1] Cert.ReferenceIdeal.Facts₀.bcast_S1x32_S100000x32_0_1 (V c (Pipeline.arrRef spec6 2))))
              (broadcastInDim Cert.ReferenceIdeal.S100000x32 ![] Cert.ReferenceIdeal.Facts₀.bcast_S_S100000x32 (constant (F := Ideal) Cert.ReferenceIdeal.S_ .f32 0x00000000#32)))
            (V c (Pipeline.arrRef spec6 3)))
          (broadcastInDim Cert.ReferenceIdeal.S100000x1 ![0, 1] Cert.ReferenceIdeal.Facts₀.bcast_S1x1_S100000x1_0_1 (V c (Pipeline.arrRef spec6 4))) :=
  arr6_G V c

end Cert.KernelIdeal.Hand

end
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.KI.PoolMath.lean ====
/-
  The graph-mean pooling, as mathematics over the extended reals.

  A column r of 100000 reals is pooled by a column b of 100000 graph ids (32-bit words) into 512 graphs. The kernel
  walks 20 tiles of 5000 rows; for each tile it forms the one-hot matrix onehot(n, g) = 1 when id n is the word of g and
  0 otherwise, and adds to sums[g] the product's entry ∑ n onehot(n, g) · r[n] and to counts[g] the entry
  ∑ n onehot(n, g) · 1; after the last tile it stores sums[g] / max(counts[g], 1). The reference adds every row into
  the entry its id, read signed, names (an id outside 0..511 names none), once for r and once for a column of ones, and
  takes the same quotient. Since 0 · x = 0 and 1 · x = x for every extended real x, a tile's product entry is the sum of
  the tile's rows whose id is g; twenty tiles of 5000 rows are the 100000 rows; so after the last tile the kernel's
  sums and counts are the reference's two scatters, and the two quotients are one.
-/
import proofs.«423338_j21947282882770_1_alg».proof.Proof.Gen.KernelIdeal.Skeleton
import proofs.«423338_j21947282882770_1_alg».proof.Proof.Gen.ReferenceIdeal
import proofs.«423338_j21947282882770_1_alg».proof.Proof.LibIndexRead
import Idealize.ShloMosaic.PureOps.Ideal.Laws
import Idealize.ShloMosaic.Lib.ValueIdx
import Idealize.ShloMosaic.Lib.Pipeline.Value
import Idealize.ShloMosaic.Lib.IdealHost

noncomputable section

namespace Cert.KernelIdeal.Hand

open Idealize.ShloMosaic Idealize.ShloMosaic.ValueIdx Cert.KernelIdeal Cert.KernelIdeal.Gen
open scoped BigOperators

/-- A 32-bit word is the word of a number below 512 exactly when its signed reading is that number. -/
theorem word_eq_iff_toInt (w : BitVec 32) (g : Nat) (hg : g < 512) :
    w = BitVec.ofNat 32 g ↔ w.toInt = (g : Int) := by
  have h1 : (BitVec.ofNat 32 g).toInt = (g : Int) := by
    rw [BitVec.toInt_eq_toNat_cond, BitVec.toNat_ofNat]
    have : g % 2 ^ 32 = g := Nat.mod_eq_of_lt (by omega)
    rw [this, if_pos (by omega)]
  rw [← BitVec.toInt_inj, h1]

/-- The one-hot entry: row n, column g of the comparison of the column numbers with the ids column, as a real, is 1 when
    id n is the word of g and 0 otherwise. -/
theorem poolpay3_apply (v4 : Vec Ideal S5000x1 .i32) (n : Fin 5000) (g : Fin 512) :
    k7_pay3 (F := Ideal) v4 (ix2 n g) = if v4 (ix2 n 0) = BitVec.ofNat 32 g.val then (1 : EReal) else 0 := by
  unfold k7_pay3
  simp only [shapeCast_self]
  rw [truncf_apply, sitofp_apply, extui_apply]
  show FloatOps.sitofp (F := Ideal) .f32 ((IntOp.cmpi .eq (iota Kind.tc S5000x512 32 [1] iota_S5000x512_d1_w32 (ix2 n g))
      (broadcastTo S5000x512 v4 broadcasts_S5000x1_S5000x512 (ix2 n g))).setWidth 32) = _
  rw [iota_single_apply, broadcastTo_apply v4 broadcasts_S5000x1_S5000x512 (ix2 n g) (ix2 n 0) (fun a => by
    match a with
    | ⟨0, _⟩ => rfl
    | ⟨1, _⟩ => rfl)]
  show ((((IntOp.cmpi .eq (BitVec.ofNat 32 g.val) (v4 (ix2 n 0))).setWidth 32).toInt : ℝ) : EReal) = _
  by_cases h : v4 (ix2 n 0) = BitVec.ofNat 32 g.val
  · rw [if_pos h, h]
    have h1 : IntOp.cmpi .eq (BitVec.ofNat 32 g.val) (BitVec.ofNat 32 g.val) = 1#1 := by simp [IntOp.cmpi]
    rw [h1]
    have h2 : ((1#1 : BitVec 1).setWidth 32).toInt = 1 := by decide
    rw [h2]
    norm_cast
  · rw [if_neg h]
    have h1 : IntOp.cmpi .eq (BitVec.ofNat 32 g.val) (v4 (ix2 n 0)) = 0#1 := by
      simp only [IntOp.cmpi]
      rw [show (BitVec.ofNat 32 g.val == v4 (ix2 n 0)) = false from beq_false_of_ne (fun e => h e.symm)]
      rfl
    rw [h1]
    have h2 : ((0#1 : BitVec 1).setWidth 32).toInt = 0 := by decide
    rw [h2]
    norm_cast

/-- The pooling product's dimension numbers: both operands are contracted along their rows. -/
abbrev poolDot : DotDims S5000x512 S5000x1 S512x1 := dot_S5000x512_S5000x1_S512x1_0_0_1_1_n_n

/-- The contraction index of the pooling product is a row number of the tile. -/
abbrev poolContr : poolDot.contr.Idx ≃ Fin 5000 := contrEquiv1 poolDot 5000 rfl rfl

/-- The left operand's column at output entry j is j's row … -/
theorem poolDot_lhs1 (j : S512x1.Idx) (q : poolDot.contr.Idx) : (poolDot.lhsIdx j q 1).val = (j 0).val := by
  unfold DotDims.lhsIdx
  rw [dif_neg (show ¬(1 : Fin S5000x512.rank) ∈ poolDot.lhsBatch by decide),
    dif_pos (show (1 : Fin S5000x512.rank) ∈ poolDot.lhsNonContracting by decide)]
  rfl

/-- … and the right operand's column is j's column. -/
theorem poolDot_rhs1 (j : S512x1.Idx) (q : poolDot.contr.Idx) : (poolDot.rhsIdx j q 1).val = (j 1).val := by
  unfold DotDims.rhsIdx
  rw [dif_neg (show ¬(1 : Fin S5000x1.rank) ∈ poolDot.rhsBatch by decide),
    dif_pos (show (1 : Fin S5000x1.rank) ∈ poolDot.rhsNonContracting by decide)]
  rfl

/-- At output entry (g, 0) and row n the left operand is read at (n, g) … -/
theorem poolDot_lhsIdx (g : Fin 512) (n : Fin 5000) :
    poolDot.lhsIdx (ix2 g 0) (poolContr.symm n) = ix2 n g := by
  have hk := contrEquiv1_symm_val poolDot 5000 rfl rfl n
  funext a
  apply Fin.ext
  match a with
  | ⟨0, _⟩ => exact (poolDot.lhsIdx_val_of_single rfl (ix2 g 0) (poolContr.symm n)).trans hk
  | ⟨1, _⟩ => exact poolDot_lhs1 _ _

/-- … and the right operand at (n, 0). -/
theorem poolDot_rhsIdx (g : Fin 512) (n : Fin 5000) :
    poolDot.rhsIdx (ix2 g 0) (poolContr.symm n) = ix2 n 0 := by
  have hk := contrEquiv1_symm_val poolDot 5000 rfl rfl n
  funext a
  apply Fin.ext
  match a with
  | ⟨0, _⟩ => exact (poolDot.rhsIdx_val_of_single rfl (ix2 g 0) (poolContr.symm n)).trans hk
  | ⟨1, _⟩ => exact poolDot_rhs1 _ _

/-- The pooling product into zero, read at (g, 0): the sum over the tile's rows of the one-hot entry times the right
    operand's entry. -/
theorem poolMatmul_apply (v4 : Vec Ideal S5000x1 .i32) (x : FVec Ideal S5000x1 .bf16) (g : Fin 512) :
    matmul poolDot none (k7_pay3 (F := Ideal) v4) x (constant S512x1 .f32 0x00000000#32) (ix2 g 0)
      = ∑ n : Fin 5000, (if (v4 (ix2 n 0)).toInt = (g.val : Int) then x (ix2 n 0) else 0) := by
  simp only [matmul]
  rw [Ideal.matmul_constant_zero_apply, ← Equiv.sum_comp poolContr.symm]
  refine Finset.sum_congr rfl fun n _ => ?_
  rw [poolDot_lhsIdx, poolDot_rhsIdx, poolpay3_apply]
  by_cases h : (v4 (ix2 n 0)).toInt = (g.val : Int)
  · rw [if_pos h, if_pos ((word_eq_iff_toInt _ _ g.isLt).mpr h), one_mul]
  · rw [if_neg h, if_neg (fun e => h ((word_eq_iff_toInt _ _ g.isLt).mp e)), zero_mul]

/-- One tile's step on the sums: entry g gains the tile's rows whose id is g. -/
theorem poolpay4_apply (v4 : Vec Ideal S5000x1 .i32) (v12 : Vec Ideal S5000x1 .f32) (v18 : Vec Ideal S512x1 .f32) (g : Fin 512) :
    k7_pay4 (F := Ideal) v4 v12 v18 (ix2 g 0)
      = v18 (ix2 g 0) + ∑ n : Fin 5000, (if (v4 (ix2 n 0)).toInt = (g.val : Int) then v12 (ix2 n 0) else 0) := by
  unfold k7_pay4
  simp only [shapeCast_self]
  rw [addf_apply]
  exact congrArg (v18 (ix2 g 0) + ·) (poolMatmul_apply v4 _ g)

/-- One tile's step on the counts: entry g gains the number of the tile's rows whose id is g. -/
theorem poolpay5_apply (v4 : Vec Ideal S5000x1 .i32) (v23 : Vec Ideal S512x1 .f32) (g : Fin 512) :
    k7_pay5 (F := Ideal) v4 v23 (ix2 g 0)
      = v23 (ix2 g 0) + ∑ n : Fin 5000, (if (v4 (ix2 n 0)).toInt = (g.val : Int) then (1 : EReal) else 0) := by
  unfold k7_pay5
  simp only [shapeCast_self]
  rw [addf_apply]
  refine congrArg (v23 (ix2 g 0) + ·) ((poolMatmul_apply v4 _ g).trans ?_)
  refine Finset.sum_congr rfl fun n _ => ?_
  rw [broadcast_apply]
  show (if _ then Ideal.ofBits .bf16 0x3F80#16 else 0) = _
  rw [Ideal.ofBits_one_bf16]

/-- The sums start at zero … -/
theorem poolpay1_apply (j : S512x1.Idx) : k7_pay1 (F := Ideal) j = 0 := by
  unfold k7_pay1
  simp only [shapeCast_self]
  rw [broadcast_apply]
  exact Ideal.ofBits_zero_f32

/-- … and so do the counts. -/
theorem poolpay2_apply (j : S512x1.Idx) : k7_pay2 (F := Ideal) j = 0 := by
  unfold k7_pay2
  simp only [shapeCast_self]
  rw [broadcast_apply]
  exact Ideal.ofBits_zero_f32

/-- The last step: the sum over the larger of the count and one. -/
theorem poolpay6_apply (s cnt : Vec Ideal S512x1 .f32) (j : S512x1.Idx) :
    k7_pay6 (F := Ideal) s cnt j = Ideal.div (s j) (max (cnt j) 1) := by
  unfold k7_pay6
  rw [divf_apply, maximumf_apply, broadcast_apply]
  show Ideal.div (s j) (max (cnt j) (Ideal.ofBits .f32 0x3F800000#32)) = _
  rw [Ideal.ofBits_one_f32]

/-! ## The rows of the whole column, tile by tile -/

/-- Twenty tiles of 5000 rows are the 100000 rows. -/
theorem sum_tiles {M : Type*} [AddCommMonoid M] (f : Fin 100000 → M) :
    ∑ t : Fin 20, ∑ n : Fin 5000, f ⟨5000 * t.val + n.val, by omega⟩ = ∑ e : Fin 100000, f e := by
  rw [← Fintype.sum_prod_type']
  refine Fintype.sum_equiv (finProdFinEquiv (m := 20) (n := 5000)) _ _ fun x => congrArg f (Fin.ext ?_)
  show 5000 * x.1.val + x.2.val = x.2.val + 5000 * x.1.val
  omega

/-- A sum of the terms that satisfy a condition, zero for the others, is the sum over those that satisfy it. -/
theorem sum_ite_zero {ι M : Type*} [AddCommMonoid M] [Fintype ι] (P : ι → Prop) [DecidablePred P] (f : ι → M) :
    ∑ e, (if P e then f e else 0) = ∑ e ∈ Finset.univ.filter P, f e :=
  (Finset.sum_filter P f).symm

/-! ## The reference's two accumulating scatters, read at a graph -/

/-- The reference's sums: the scatter of the column into zeros, read at graph g, is the sum of the rows whose id, read
    signed, is g. -/
theorem refSums_apply (r : Cert.ReferenceIdeal.S100000x1.Idx → EReal) (b : Cert.ReferenceIdeal.S100000x1.Idx → BitVec 32)
    (g : Fin 512) :
    Host.scatterAdd (F := Ideal) Cert.ReferenceIdeal.scatter_S512x1_S100000x1_S100000x1_1_0_0_1
        (broadcastInDim Cert.ReferenceIdeal.S512x1 ![] Cert.ReferenceIdeal.Facts₀.bcast_S_S512x1
          (constant Cert.ReferenceIdeal.S_ .f32 0x00000000#32)) b r (ix2 g 0)
      = ∑ e ∈ Finset.univ.filter (fun e : Fin 100000 => (b (ix2 e 0)).toInt = (g.val : Int)), r (ix2 e 0) := by
  simp only [Host.scatterAdd]
  rw [Ideal.hostScatterAdd_def,
    Cert.Sage.IndexRead.scatterAdd_rows Cert.ReferenceIdeal.scatter_S512x1_S100000x1_S100000x1_1_0_0_1 rfl rfl rfl rfl _ b r g 0,
    broadcastInDim_scalar_apply, constant_apply, Ideal.ofBits_zero_f32, zero_add]

/-- The reference's counts: the scatter of ones into zeros, read at graph g, is the number of rows whose id, read signed,
    is g. -/
theorem refCounts_apply (b : Cert.ReferenceIdeal.S100000x1.Idx → BitVec 32) (g : Fin 512) :
    Host.scatterAdd (F := Ideal) Cert.ReferenceIdeal.scatter_S512_S100000x1_S100000_n_0_0_1
        (broadcastInDim Cert.ReferenceIdeal.S512 ![] Cert.ReferenceIdeal.Facts₀.bcast_S_S512
          (constant Cert.ReferenceIdeal.S_ .f32 0x00000000#32)) b
        (broadcastInDim Cert.ReferenceIdeal.S100000 ![] Cert.ReferenceIdeal.Facts₀.bcast_S_S100000
          (constant Cert.ReferenceIdeal.S_ .f32 0x3F800000#32)) (ix1 g)
      = ∑ e ∈ Finset.univ.filter (fun e : Fin 100000 => (b (ix2 e 0)).toInt = (g.val : Int)), (1 : EReal) := by
  simp only [Host.scatterAdd]
  rw [Ideal.hostScatterAdd_def,
    Cert.Sage.IndexRead.scatterAdd_vec Cert.ReferenceIdeal.scatter_S512_S100000x1_S100000_n_0_0_1 rfl rfl rfl rfl _ b _ g,
    broadcastInDim_scalar_apply, constant_apply, Ideal.ofBits_zero_f32, zero_add]
  refine Finset.sum_congr rfl fun e _ => ?_
  rw [broadcastInDim_scalar_apply, constant_apply, Ideal.ofBits_one_f32]

/-! ## The twenty steps of the kernel against the reference -/

/-- Tile t of a column of 100000 rows: rows 5000·t to 5000·t + 4999. -/
def tile {α : Type} (x : Cert.ReferenceIdeal.S100000x1.Idx → α) (t : Fin 20) : S5000x1.Idx → α :=
  fun y => x (ix2 (⟨5000 * t.val + (y 0).val, by have := idx2_lt0 y; omega⟩ : Fin 100000) 0)

/-- A tile read at its row n is the column read at row 5000·t + n. -/
theorem tile_apply {α : Type} (x : Cert.ReferenceIdeal.S100000x1.Idx → α) (t : Fin 20) (n : Fin 5000) :
    tile x t (ix2 n 0) = x (ix2 (⟨5000 * t.val + n.val, by omega⟩ : Fin 100000) 0) := rfl

/-- The sums after tile t: from zero, one step per tile. -/
def accS (r : Cert.ReferenceIdeal.S100000x1.Idx → EReal) (b : Cert.ReferenceIdeal.S100000x1.Idx → BitVec 32) :
    (t : ℕ) → t < 20 → Vec Ideal S512x1 .f32
  | 0, h => k7_pay4 (F := Ideal) (tile b ⟨0, h⟩) (tile r ⟨0, h⟩) (k7_pay1 (F := Ideal))
  | t + 1, h => k7_pay4 (F := Ideal) (tile b ⟨t + 1, h⟩) (tile r ⟨t + 1, h⟩) (accS r b t (Nat.lt_of_succ_lt h))

/-- The counts after tile t: from zero, one step per tile. -/
def accC (b : Cert.ReferenceIdeal.S100000x1.Idx → BitVec 32) : (t : ℕ) → t < 20 → Vec Ideal S512x1 .f32
  | 0, h => k7_pay5 (F := Ideal) (tile b ⟨0, h⟩) (k7_pay2 (F := Ideal))
  | t + 1, h => k7_pay5 (F := Ideal) (tile b ⟨t + 1, h⟩) (accC b t (Nat.lt_of_succ_lt h))

/-- What tile s adds at graph g, for a column f of terms: the tile's rows whose id is g (nothing for s past the last
    tile). -/
def tileTerm (b : Cert.ReferenceIdeal.S100000x1.Idx → BitVec 32) (f : Fin 100000 → EReal) (g : Fin 512) (s : ℕ) : EReal :=
  if h : s < 20 then
    ∑ n : Fin 5000, (if (tile b ⟨s, h⟩ (ix2 n 0)).toInt = (g.val : Int) then f ⟨5000 * s + n.val, by omega⟩ else 0)
  else 0

/-- All twenty tiles' terms are the whole column's rows whose id is g. -/
theorem sum_tileTerm (b : Cert.ReferenceIdeal.S100000x1.Idx → BitVec 32) (f : Fin 100000 → EReal) (g : Fin 512) :
    ∑ s ∈ Finset.range 20, tileTerm b f g s
      = ∑ e ∈ Finset.univ.filter (fun e : Fin 100000 => (b (ix2 e 0)).toInt = (g.val : Int)), f e := by
  rw [← sum_ite_zero, ← sum_tiles, ← Fin.sum_univ_eq_sum_range (fun s => tileTerm b f g s) 20]
  refine Finset.sum_congr rfl fun t _ => ?_
  unfold tileTerm
  rw [dif_pos t.isLt]
  rfl

/-- The sums after tile t at graph g are the terms of tiles 0 to t. -/
theorem accS_apply (r : Cert.ReferenceIdeal.S100000x1.Idx → EReal) (b : Cert.ReferenceIdeal.S100000x1.Idx → BitVec 32)
    (g : Fin 512) : ∀ (t : ℕ) (h : t < 20),
    accS r b t h (ix2 g 0) = ∑ s ∈ Finset.range (t + 1), tileTerm b (fun e => r (ix2 e 0)) g s
  | 0, h => by
    rw [accS, poolpay4_apply, poolpay1_apply, zero_add, Finset.sum_range_one]
    unfold tileTerm
    rw [dif_pos h]
    rfl
  | t + 1, h => by
    rw [accS, poolpay4_apply, accS_apply r b g t (Nat.lt_of_succ_lt h), Finset.sum_range_succ _ (t + 1)]
    congr 1
    unfold tileTerm
    rw [dif_pos h]
    rfl

/-- The counts after tile t at graph g are the numbers of rows of tiles 0 to t whose id is g. -/
theorem accC_apply (b : Cert.ReferenceIdeal.S100000x1.Idx → BitVec 32) (g : Fin 512) : ∀ (t : ℕ) (h : t < 20),
    accC b t h (ix2 g 0) = ∑ s ∈ Finset.range (t + 1), tileTerm b (fun _ => 1) g s
  | 0, h => by
    rw [accC, poolpay5_apply, poolpay2_apply, zero_add, Finset.sum_range_one]
    unfold tileTerm
    rw [dif_pos h]
  | t + 1, h => by
    rw [accC, poolpay5_apply, accC_apply b g t (Nat.lt_of_succ_lt h), Finset.sum_range_succ _ (t + 1)]
    congr 1
    unfold tileTerm
    rw [dif_pos h]

/-- After the last tile the sums are the reference's scatter of the column into zeros. -/
theorem accS_last (r : Cert.ReferenceIdeal.S100000x1.Idx → EReal) (b : Cert.ReferenceIdeal.S100000x1.Idx → BitVec 32)
    (g : Fin 512) :
    accS r b 19 (by decide) (ix2 g 0)
      = Host.scatterAdd (F := Ideal) Cert.ReferenceIdeal.scatter_S512x1_S100000x1_S100000x1_1_0_0_1
        (broadcastInDim Cert.ReferenceIdeal.S512x1 ![] Cert.ReferenceIdeal.Facts₀.bcast_S_S512x1
          (constant Cert.ReferenceIdeal.S_ .f32 0x00000000#32)) b r (ix2 g 0) := by
  rw [accS_apply, refSums_apply]
  exact sum_tileTerm b (fun e => r (ix2 e 0)) g

/-- After the last tile the counts are the reference's scatter of ones into zeros. -/
theorem accC_last (b : Cert.ReferenceIdeal.S100000x1.Idx → BitVec 32) (g : Fin 512) :
    accC b 19 (by decide) (ix2 g 0)
      = Host.scatterAdd (F := Ideal) Cert.ReferenceIdeal.scatter_S512_S100000x1_S100000_n_0_0_1
        (broadcastInDim Cert.ReferenceIdeal.S512 ![] Cert.ReferenceIdeal.Facts₀.bcast_S_S512
          (constant Cert.ReferenceIdeal.S_ .f32 0x00000000#32)) b
        (broadcastInDim Cert.ReferenceIdeal.S100000 ![] Cert.ReferenceIdeal.Facts₀.bcast_S_S100000
          (constant Cert.ReferenceIdeal.S_ .f32 0x3F800000#32)) (ix1 g) := by
  rw [accC_apply, refCounts_apply]
  exact sum_tileTerm b (fun _ => 1) g

/-- The host's quotient at an index is the extended reals' quotient of the entries. -/
theorem hostDivf_apply {s : Shape} {φ : FTy} (a c : FVec Ideal s φ) (i : s.Idx) :
    Host.divf a c i = Ideal.div (a i) (c i) := rfl

/-- The pooled means: the kernel's last step on its twenty-tile sums and counts is the reference's quotient of its two
    scatters. -/
theorem pool_eq (r : Cert.ReferenceIdeal.S100000x1.Idx → EReal) (b : Cert.ReferenceIdeal.S100000x1.Idx → BitVec 32) :
    k7_pay6 (F := Ideal) (accS r b 19 (by decide)) (accC b 19 (by decide))
      = Host.divf (F := Ideal)
          (Host.scatterAdd Cert.ReferenceIdeal.scatter_S512x1_S100000x1_S100000x1_1_0_0_1
            (broadcastInDim Cert.ReferenceIdeal.S512x1 ![] Cert.ReferenceIdeal.Facts₀.bcast_S_S512x1
              (constant Cert.ReferenceIdeal.S_ .f32 0x00000000#32)) b r)
          (broadcastInDim Cert.ReferenceIdeal.S512x1 ![0] Cert.ReferenceIdeal.Facts₀.bcast_S512_S512x1_0
            (maximumf
              (Host.scatterAdd Cert.ReferenceIdeal.scatter_S512_S100000x1_S100000_n_0_0_1
                (broadcastInDim Cert.ReferenceIdeal.S512 ![] Cert.ReferenceIdeal.Facts₀.bcast_S_S512
                  (constant Cert.ReferenceIdeal.S_ .f32 0x00000000#32)) b
                (broadcastInDim Cert.ReferenceIdeal.S100000 ![] Cert.ReferenceIdeal.Facts₀.bcast_S_S100000
                  (constant Cert.ReferenceIdeal.S_ .f32 0x3F800000#32)))
              (broadcastInDim Cert.ReferenceIdeal.S512 ![] Cert.ReferenceIdeal.Facts₀.bcast_S_S512
                (constant Cert.ReferenceIdeal.S_ .f32 0x3F800000#32)))) := by
  funext j
  obtain ⟨g, q, rfl⟩ : ∃ (g : Fin 512) (q : Fin 1), j = ix2 g q := ⟨j 0, j 1, eq_ix2 j⟩
  obtain rfl : q = 0 := Subsingleton.elim _ _
  rw [poolpay6_apply, accS_last, accC_last, hostDivf_apply,
    broadcastInDim_apply ![0] Cert.ReferenceIdeal.Facts₀.bcast_S512_S512x1_0 _ (ix2 g 0) (ix1 g) (fun a => by
      match a with
      | ⟨0, _⟩ => rfl),
    maximumf_apply, broadcastInDim_scalar_apply, constant_apply, Ideal.ofBits_one_f32]

end Cert.KernelIdeal.Hand

end
-- ==== Proof.KI.Val7.lean ====
/-
  Region 7 of the kernel program, its value: after the region the 512 × 1 result array holds the graph means of the
  read-out column, the reference's quotient of its two accumulating scatters.  Each single whole-block store leaves its
  payload and each whole-block load reads the contents, so the accumulators after a point are one step of the sums and of
  the counts on the point's tiles of the two input arrays; by induction on the point they are the tile-by-tile
  accumulations of the whole columns; the last point stores their quotient, and it alone is written back, whole.
-/
import proofs.«423338_j21947282882770_1_alg».proof.Proof.KI.Reg7
import proofs.«423338_j21947282882770_1_alg».proof.Proof.KI.PoolMath
import proofs.«423338_j21947282882770_1_alg».proof.Proof.Gen.ReferenceIdeal
import Idealize.ShloMosaic.PureOps.Ideal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat)
open scoped BigOperators

/-! ## The single-piece contents are the payloads -/

theorem hz7 : (![0, 0] : Fin 2 → Nat) = fun _ => 0 := funext fun a => by fin_cases a <;> rfl

theorem zs7_eq : zs7 (F := Ideal) = k7_pay1 (F := Ideal) := by
  unfold zs7; exact View.canon_unit_zero hz7 _ _
theorem zc7_eq : zc7 (F := Ideal) = k7_pay2 (F := Ideal) := by
  unfold zc7; exact View.canon_unit_zero hz7 _ _
theorem sum7_eq (x0 : Vec Ideal S5000x1 .f32) (x1 : Vec Ideal S5000x1 .i32) (s : Vec Ideal S512x1 .f32) :
    sum7 x0 x1 s = k7_pay4 x1 x0 s := by
  unfold sum7
  rw [View.canon_unit_zero hz7]
  simp only [View.ld_unit_zero (S := S5000x1) hz7, View.ld_unit_zero (S := S512x1) hz7]
theorem cnt7_eq (x1 : Vec Ideal S5000x1 .i32) (n : Vec Ideal S512x1 .f32) : cnt7 x1 n = k7_pay5 x1 n := by
  unfold cnt7
  rw [View.canon_unit_zero hz7]
  simp only [View.ld_unit_zero (S := S5000x1) hz7, View.ld_unit_zero (S := S512x1) hz7]
theorem out7_eq (s n : Vec Ideal S512x1 .f32) : out7 s n = k7_pay6 s n := by
  unfold out7
  rw [View.canon_unit_zero hz7]
  simp only [View.ld_unit_zero (S := S512x1) hz7]

/-! ## The blocks of the input windows, read off their arrays -/

-- the TensorCore's buffer contents when the region is entered, at the extended reals
variable (V : (c : Dev nD) → (b : Ref sig .tc) → Buf (Elt Ideal) ((c : Thread nD τ).loc b))

/-- The printed index maps, decided once over the grid: at point `t` the two row-tiled windows sit at block row `t`,
    block column 0; the output's window at block (0, 0). -/
theorem idxf7 : ∀ t : Fin cfg7.N, (cfg7.win 0).index t (0 : Fin 2) = t.val ∧ (cfg7.win 0).index t (1 : Fin 2) = 0
    ∧ (cfg7.win 1).index t (0 : Fin 2) = t.val ∧ (cfg7.win 1).index t (1 : Fin 2) = 0
    ∧ (cfg7.win 2).index t (0 : Fin 2) = 0 ∧ (cfg7.win 2).index t (1 : Fin 2) = 0 :=
  (by decide +kernel : ∀ t : Fin grid7.N, _)

/-- The read-out column and the ids column the region is entered with. -/
abbrev rcol7 (c : Dev nD) : Cert.ReferenceIdeal.S100000x1.Idx → EReal := V c (Pipeline.arrRef spec7 0)
abbrev ids7 (c : Dev nD) : Cert.ReferenceIdeal.S100000x1.Idx → BitVec 32 := V c (Pipeline.arrRef spec7 1)

/-- Window 0's block at point `t` is tile `t` of the read-out column. -/
theorem blockrd7_0 (c : Dev nD) (t : Fin cfg7.N) (h : t.val < 20) :
    (iblk7 V c 0 t : Vec Ideal S5000x1 .f32) = tile (rcol7 V c) ⟨t.val, h⟩ := by
  obtain ⟨ea, eb, -⟩ := idxf7 t
  funext y
  show rcol7 V c (((cfg7.win 0).blk t).view.emb y) = rcol7 V c (ix2 (⟨5000 * t.val + (y 0).val, _⟩ : Fin 100000) 0)
  refine congrArg _ (funext fun a => Fin.ext ?_)
  have hy := idx2_lt1 y
  match a with
  | ⟨0, _⟩ => show (cfg7.win 0).index t (0 : Fin 2) * 5000 + 1 * (y 0).val = 5000 * t.val + (y 0).val; omega
  | ⟨1, _⟩ => show (cfg7.win 0).index t (1 : Fin 2) * 1 + 1 * (y 1).val = 0; omega

/-- Window 1's block at point `t` is tile `t` of the ids column. -/
theorem blockrd7_1 (c : Dev nD) (t : Fin cfg7.N) (h : t.val < 20) :
    (iblk7 V c 1 t : Vec Ideal S5000x1 .i32) = tile (ids7 V c) ⟨t.val, h⟩ := by
  obtain ⟨-, -, ea, eb, -⟩ := idxf7 t
  funext y
  show ids7 V c (((cfg7.win 1).blk t).view.emb y) = ids7 V c (ix2 (⟨5000 * t.val + (y 0).val, _⟩ : Fin 100000) 0)
  refine congrArg _ (funext fun a => Fin.ext ?_)
  have hy := idx2_lt1 y
  match a with
  | ⟨0, _⟩ => show (cfg7.win 1).index t (0 : Fin 2) * 5000 + 1 * (y 0).val = 5000 * t.val + (y 0).val; omega
  | ⟨1, _⟩ => show (cfg7.win 1).index t (1 : Fin 2) * 1 + 1 * (y 1).val = 0; omega

/-! ## The accumulators after each point -/

/-- After point `n` the running sums and counts are the tile-by-tile accumulations of the two columns through tile `n`. -/
theorem outsAt7_acc (c : Dev nD) : ∀ (n : ℕ) (hn : n < cfg7.N) (h : n < 20),
    (outsAt7 V c n hn).2.1 = accS (rcol7 V c) (ids7 V c) n h ∧ (outsAt7 V c n hn).2.2 = accC (ids7 V c) n h
  | 0, hn, h => by
    rw [outsAt7_zero]
    dsimp only
    rw [sum7_eq, cnt7_eq, zs7_eq, zc7_eq, blockrd7_0 V c ⟨0, hn⟩ h, blockrd7_1 V c ⟨0, hn⟩ h, accS, accC]
    exact ⟨rfl, rfl⟩
  | n + 1, hn, h => by
    obtain ⟨e1, e2⟩ := outsAt7_acc c n (Nat.lt_of_succ_lt hn) (Nat.lt_of_succ_lt h)
    rw [outsAt7_succ]
    dsimp only
    rw [sum7_eq, cnt7_eq, e1, e2, blockrd7_0 V c ⟨n + 1, hn⟩ h, blockrd7_1 V c ⟨n + 1, hn⟩ h, accS, accC]
    exact ⟨rfl, rfl⟩

/-- The output component is the quotient of the two accumulators as they stand. -/
theorem outsAt7_out (c : Dev nD) (n : ℕ) (hn : n < cfg7.N) :
    (outsAt7 V c n hn).1 = out7 (outsAt7 V c n hn).2.1 (outsAt7 V c n hn).2.2 := by
  cases n with
  | zero => simp only [outsAt7_zero]
  | succ n => simp only [outsAt7_succ]

/-! ## What the last point writes back, and the array -/

/-- The reference's graph means of a read-out column `r` pooled by an ids column `b`: the scatter of the column into
    zeros over the larger of the scatter of ones into zeros and one. -/
abbrev G7 (r : Cert.ReferenceIdeal.S100000x1.Idx → EReal) (b : Cert.ReferenceIdeal.S100000x1.Idx → BitVec 32) :
    Cert.ReferenceIdeal.S512x1.Idx → EReal :=
  Host.divf (F := Ideal)
    (Host.scatterAdd Cert.ReferenceIdeal.scatter_S512x1_S100000x1_S100000x1_1_0_0_1
      (broadcastInDim Cert.ReferenceIdeal.S512x1 ![] Cert.ReferenceIdeal.Facts₀.bcast_S_S512x1
        (constant Cert.ReferenceIdeal.S_ .f32 0x00000000#32)) b r)
    (broadcastInDim Cert.ReferenceIdeal.S512x1 ![0] Cert.ReferenceIdeal.Facts₀.bcast_S512_S512x1_0
      (maximumf
        (Host.scatterAdd Cert.ReferenceIdeal.scatter_S512_S100000x1_S100000_n_0_0_1
          (broadcastInDim Cert.ReferenceIdeal.S512 ![] Cert.ReferenceIdeal.Facts₀.bcast_S_S512
            (constant Cert.ReferenceIdeal.S_ .f32 0x00000000#32)) b
          (broadcastInDim Cert.ReferenceIdeal.S100000 ![] Cert.ReferenceIdeal.Facts₀.bcast_S_S100000
            (constant Cert.ReferenceIdeal.S_ .f32 0x3F800000#32)))
        (broadcastInDim Cert.ReferenceIdeal.S512 ![] Cert.ReferenceIdeal.Facts₀.bcast_S_S512
          (constant Cert.ReferenceIdeal.S_ .f32 0x3F800000#32))))

/-- The output window's one block is the whole of its array: contents cut to the block's moved part are the array's
    contents read through the block. -/
theorem cut_whole7 (t : Fin cfg7.N) (X : S512x1.Idx → EReal) :
    (cfg7.win 2).cut (grid7.coords t) X = ((cfg7.win 2).blk t).view.read (Elt Ideal) X := by
  obtain ⟨-, -, -, -, ea, eb⟩ := idxf7 t
  funext j
  show X j = X (((cfg7.win 2).blk t).view.emb j)
  refine congrArg X (funext fun a => Fin.ext ?_)
  match a with
  | ⟨0, _⟩ => show (j 0).val = (cfg7.win 2).index t (0 : Fin 2) * 512 + 1 * (j 0).val; omega
  | ⟨1, _⟩ => show (j 1).val = (cfg7.win 2).index t (1 : Fin 2) * 1 + 1 * (j 1).val; omega

/-- What the one flushing point — the last — writes back is the reference's graph means, whole. -/
theorem flushed7_eq (c : Dev nD) (t : Fin cfg7.N) (hf : (cfg7.win 2).flush t = true) :
    (dat7 (F := Ideal) V c).flushed 2 t = ((cfg7.win 2).blk t).view.read (Elt Ideal) (G7 (rcol7 V c) (ids7 V c)) := by
  have hN : t.val < 20 := lt_of_lt_of_eq t.isLt (show cfg7.N = 20 from N_7)
  have ht : t.val = 19 := by have := (flush7_2 t).mp hf; omega
  show (cfg7.win 2).cut (grid7.coords t) ((dat7 V c).after 2 t) = _
  rw [after7_2, outsAt7_out]
  obtain ⟨e1, e2⟩ := outsAt7_acc V c t.val t.isLt hN
  rw [e1, e2, out7_eq]
  have e : k7_pay6 (F := Ideal) (accS (rcol7 V c) (ids7 V c) t.val hN) (accC (ids7 V c) t.val hN) = G7 (rcol7 V c) (ids7 V c) := by
    obtain ⟨n, hn⟩ := t
    dsimp only at ht hN ⊢
    subst ht
    exact pool_eq (rcol7 V c) (ids7 V c)
  rw [e]
  exact cut_whole7 t _

/-- An index of the array is in point `t`'s block iff each coordinate is in the block's range on its axis. -/
theorem mem_blk7 (t : Fin cfg7.N) (i : S512x1.Idx) :
    i ∈ ((cfg7.win 2).blk t).view.set ↔ ∀ a : Fin 2, (cfg7.win 2).index t a * S512x1.size a ≤ (i a).val ∧ (i a).val < (cfg7.win 2).index t a * S512x1.size a + S512x1.size a := by
  show i ∈ ((View.whole (Pipeline.arrRef spec7 2)).slice ((cfg7.win 2).rect t)).set ↔ _
  rw [View.set_slice_whole, Rect.mem_set_unit]
  exact Iff.rfl

/-- The last point's block covers the array. -/
theorem covered7 (i : S512x1.Idx) : ∃ t : Fin cfg7.N, (cfg7.win 2).flush t = true ∧ i ∈ ((cfg7.win 2).blk t).view.set := by
  have hi : (i 0).val < 512 := idx2_lt0 i
  have hj : (i 1).val < 1 := idx2_lt1 i
  have hN : cfg7.N = 20 := N_7
  let t : Fin cfg7.N := ⟨19, by rw [hN]; omega⟩
  obtain ⟨-, -, -, -, ea, eb⟩ := idxf7 t
  refine ⟨t, (flush7_2 t).mpr rfl, ?_⟩
  rw [mem_blk7]
  intro a
  match a with
  | ⟨0, _⟩ => show (cfg7.win 2).index t (0 : Fin 2) * 512 ≤ (i 0).val ∧ (i 0).val < (cfg7.win 2).index t (0 : Fin 2) * 512 + 512; omega
  | ⟨1, _⟩ => show (cfg7.win 2).index t (1 : Fin 2) * 1 ≤ (i 1).val ∧ (i 1).val < (cfg7.win 2).index t (1 : Fin 2) * 1 + 1; omega

/-- THE ARRAY after the run: the reference's graph means of the two columns the region entered with. -/
theorem arr7_G (c : Dev nD) : (dat7 (F := Ideal) V c).arrAt 2 cfg7.N = G7 (V c (Pipeline.arrRef spec7 0)) (V c (Pipeline.arrRef spec7 1)) :=
  (dat7 (F := Ideal) V c).arrAt_eq_of_cover 2 (G7 (rcol7 V c) (ids7 V c)) (fun t hf => flushed7_eq V c t hf) covered7

end Cert.KernelIdeal.Hand

end
-- ==== Proof.KI.Layout.lean ====
/-
  Re-layouts that only add a unit axis.  A vector of a entries reshaped to an [a, 1] column or to a [1, a] row holds
  the same entries as its broadcast along the new unit axis: both read entry i at (i, 0), respectively (0, i).
-/
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The [a, 1] column made by a reshape is the one made by broadcasting along the new unit axis. -/
theorem cast_col_eq_bcast {a : ℕ} (x : (⟨1, ![a]⟩ : Shape).Idx → α) (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, q, rfl⟩ : ∃ (p : Fin a) (q : Fin 1), j = ix2 p q := ⟨j 0, j 1, eq_ix2 j⟩
  rw [shapeCast_a_a1_apply]
  refine (broadcastInDim_apply _ hb x _ (ix1 p) (fun k => ?_)).symm
  match k with
  | ⟨0, _⟩ =>
    show p.val = if a = 1 then 0 else p.val
    by_cases ha : a = 1
    · rw [if_pos ha]; have := p.isLt; omega
    · rw [if_neg ha]

/-- The [1, a] row made by a reshape is the one made by broadcasting along the new unit axis. -/
theorem cast_row_eq_bcast {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, q, rfl⟩ : ∃ (u : Fin 1) (q : Fin a), j = ix2 u q := ⟨j 0, j 1, eq_ix2 j⟩
  rw [shapeCast_a_1a_apply]
  refine (broadcastInDim_apply _ hb x _ (ix1 q) (fun k => ?_)).symm
  match k with
  | ⟨0, _⟩ =>
    show q.val = if a = 1 then 0 else q.val
    by_cases ha : a = 1
    · rw [if_pos ha]; have := q.isLt; omega
    · rw [if_neg ha]

end Cert.KernelIdeal.Hand

end
-- ==== Proof.KI.Bridge.lean ====
/-
  The idealized kernel program's buffers, boundary by boundary, are the reference's stage values of the arguments.
  At every boundary between two items of @main the contents of the buffers that later items read are identified
  with the reference's own operations applied to the argument arrays: the host stretches are the same operations
  in both programs (the edge coefficients, the gathers and the accumulating scatters of each graph-convolution
  layer), a reshape that adds a unit axis is the reference's broadcast along that axis, and each kernel region's
  output array is the reference's operations on the region's input arrays (the regions' value modules).  The last
  boundary gives the program's result as the reference's result term of the arguments.
-/
import proofs.«423338_j21947282882770_1_alg».proof.Proof.KI.Chain
import proofs.«423338_j21947282882770_1_alg».proof.Proof.KI.Val0
import proofs.«423338_j21947282882770_1_alg».proof.Proof.KI.Val1
import proofs.«423338_j21947282882770_1_alg».proof.Proof.KI.Val2
import proofs.«423338_j21947282882770_1_alg».proof.Proof.KI.Val3
import proofs.«423338_j21947282882770_1_alg».proof.Proof.KI.Val4
import proofs.«423338_j21947282882770_1_alg».proof.Proof.KI.Val5
import proofs.«423338_j21947282882770_1_alg».proof.Proof.KI.Val6
import proofs.«423338_j21947282882770_1_alg».proof.Proof.KI.Val7
import proofs.«423338_j21947282882770_1_alg».proof.Proof.KI.Layout
import Idealize.ShloMosaic.Lib.Pipeline.Value
import proofs.«423338_j21947282882770_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The kernel program's arguments on core c. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)
abbrev a11 (c : Dev nD) := m ((c.tc : Thread nD τ).loc main_arg11)
abbrev a12 (c : Dev nD) := m ((c.tc : Thread nD τ).loc main_arg12)
abbrev a13 (c : Dev nD) := m ((c.tc : Thread nD τ).loc main_arg13)

/-- Boundary contents carried across an item that does not write the buffer. -/
theorem X1_of (c : Dev nD) (r : Ref sig .tc) (h : r ∉ hostOps0_W) : X1 m c r = X0 m c r := by
  rw [← V1_eq]; exact V1_of m c r h
theorem X2_of (c : Dev nD) (r : Ref sig .tc) (h : r ∉ ([main_v29] : List (Ref sig .tc))) : X2 m c r = X1 m c r := by
  rw [← V2_eq, ← V1_eq]; exact V2_of m (outs m) c r h
theorem X3_of (c : Dev nD) (r : Ref sig .tc) (h : r ∉ hostOps1_W) : X3 m c r = X2 m c r := by
  rw [← V3_eq, ← V2_eq]; exact V3_of m (outs m) c r h
theorem X4_of (c : Dev nD) (r : Ref sig .tc) (h : r ∉ ([main_v45] : List (Ref sig .tc))) : X4 m c r = X3 m c r := by
  rw [← V4_eq, ← V3_eq]; exact V4_of m (outs m) c r h
theorem X5_of (c : Dev nD) (r : Ref sig .tc) (h : r ∉ ([main_v46] : List (Ref sig .tc))) : X5 m c r = X4 m c r := by
  rw [← V5_eq, ← V4_eq]; exact V5_of m (outs m) c r h
theorem X6_of (c : Dev nD) (r : Ref sig .tc) (h : r ∉ hostOps3_W) : X6 m c r = X5 m c r := by
  rw [← V6_eq, ← V5_eq]; exact V6_of m (outs m) c r h
theorem X7_of (c : Dev nD) (r : Ref sig .tc) (h : r ∉ ([main_v62] : List (Ref sig .tc))) : X7 m c r = X6 m c r := by
  rw [← V7_eq, ← V6_eq]; exact V7_of m (outs m) c r h
theorem X8_of (c : Dev nD) (r : Ref sig .tc) (h : r ∉ ([main_v63] : List (Ref sig .tc))) : X8 m c r = X7 m c r := by
  rw [← V8_eq, ← V7_eq]; exact V8_of m (outs m) c r h
theorem X9_of (c : Dev nD) (r : Ref sig .tc) (h : r ∉ hostOps5_W) : X9 m c r = X8 m c r := by
  rw [← V9_eq, ← V8_eq]; exact V9_of m (outs m) c r h
theorem X10_of (c : Dev nD) (r : Ref sig .tc) (h : r ∉ ([main_v79] : List (Ref sig .tc))) : X10 m c r = X9 m c r := by
  rw [← V10_eq, ← V9_eq]; exact V10_of m (outs m) c r h
theorem X11_of (c : Dev nD) (r : Ref sig .tc) (h : r ∉ hostOps6_W) : X11 m c r = X10 m c r := by
  rw [← V11_eq, ← V10_eq]; exact V11_of m (outs m) c r h
theorem X12_of (c : Dev nD) (r : Ref sig .tc) (h : r ∉ ([main_v82] : List (Ref sig .tc))) : X12 m c r = X11 m c r := by
  rw [← V12_eq, ← V11_eq]; exact V12_of m (outs m) c r h
theorem X13_of (c : Dev nD) (r : Ref sig .tc) (h : r ∉ hostOps7_W) : X13 m c r = X12 m c r := by
  rw [← V13_eq, ← V12_eq]; exact V13_of m (outs m) c r h
theorem X14_of (c : Dev nD) (r : Ref sig .tc) (h : r ∉ ([main_v84] : List (Ref sig .tc))) : X14 m c r = X13 m c r := by
  rw [← V14_eq, ← V13_eq]; exact V14_of m (outs m) c r h

/-- The same, in the form a simplifier pass can use at a literal reference. -/
theorem X1_of' (c : Dev nD) (r : Ref sig .tc) (h : r ∉ hostOps0_W) : X1 m c (no_index (Proc.devRef .tc r)) = X0 m c (Proc.devRef .tc r) := X1_of m c r h
theorem X2_of' (c : Dev nD) (r : Ref sig .tc) (h : r ∉ ([main_v29] : List (Ref sig .tc))) : X2 m c (no_index (Proc.devRef .tc r)) = X1 m c (Proc.devRef .tc r) := X2_of m c r h
theorem X3_of' (c : Dev nD) (r : Ref sig .tc) (h : r ∉ hostOps1_W) : X3 m c (no_index (Proc.devRef .tc r)) = X2 m c (Proc.devRef .tc r) := X3_of m c r h
theorem X4_of' (c : Dev nD) (r : Ref sig .tc) (h : r ∉ ([main_v45] : List (Ref sig .tc))) : X4 m c (no_index (Proc.devRef .tc r)) = X3 m c (Proc.devRef .tc r) := X4_of m c r h
theorem X5_of' (c : Dev nD) (r : Ref sig .tc) (h : r ∉ ([main_v46] : List (Ref sig .tc))) : X5 m c (no_index (Proc.devRef .tc r)) = X4 m c (Proc.devRef .tc r) := X5_of m c r h
theorem X6_of' (c : Dev nD) (r : Ref sig .tc) (h : r ∉ hostOps3_W) : X6 m c (no_index (Proc.devRef .tc r)) = X5 m c (Proc.devRef .tc r) := X6_of m c r h
theorem X7_of' (c : Dev nD) (r : Ref sig .tc) (h : r ∉ ([main_v62] : List (Ref sig .tc))) : X7 m c (no_index (Proc.devRef .tc r)) = X6 m c (Proc.devRef .tc r) := X7_of m c r h
theorem X8_of' (c : Dev nD) (r : Ref sig .tc) (h : r ∉ ([main_v63] : List (Ref sig .tc))) : X8 m c (no_index (Proc.devRef .tc r)) = X7 m c (Proc.devRef .tc r) := X8_of m c r h
theorem X9_of' (c : Dev nD) (r : Ref sig .tc) (h : r ∉ hostOps5_W) : X9 m c (no_index (Proc.devRef .tc r)) = X8 m c (Proc.devRef .tc r) := X9_of m c r h
theorem X10_of' (c : Dev nD) (r : Ref sig .tc) (h : r ∉ ([main_v79] : List (Ref sig .tc))) : X10 m c (no_index (Proc.devRef .tc r)) = X9 m c (Proc.devRef .tc r) := X10_of m c r h
theorem X11_of' (c : Dev nD) (r : Ref sig .tc) (h : r ∉ hostOps6_W) : X11 m c (no_index (Proc.devRef .tc r)) = X10 m c (Proc.devRef .tc r) := X11_of m c r h
theorem X12_of' (c : Dev nD) (r : Ref sig .tc) (h : r ∉ ([main_v82] : List (Ref sig .tc))) : X12 m c (no_index (Proc.devRef .tc r)) = X11 m c (Proc.devRef .tc r) := X12_of m c r h
theorem X13_of' (c : Dev nD) (r : Ref sig .tc) (h : r ∉ hostOps7_W) : X13 m c (no_index (Proc.devRef .tc r)) = X12 m c (Proc.devRef .tc r) := X13_of m c r h
theorem X14_of' (c : Dev nD) (r : Ref sig .tc) (h : r ∉ ([main_v84] : List (Ref sig .tc))) : X14 m c (no_index (Proc.devRef .tc r)) = X13 m c (Proc.devRef .tc r) := X14_of m c r h

/-! ## After the first host stretch: edge endpoints, edge coefficients, self-loop coefficients -/

set_option maxHeartbeats 20000000 in
theorem x1_v1 (c : Dev nD) : X1 m c main_v1 = Cert.ReferenceIdeal.Read.val_main_v1 (F := Ideal) (a1 m c) := by
  unfold X1; after_results_simp; rfl
set_option maxHeartbeats 20000000 in
theorem x1_v3 (c : Dev nD) : X1 m c main_v3 = Cert.ReferenceIdeal.Read.val_main_v3 (F := Ideal) (a1 m c) := by
  unfold X1; after_results_simp; rfl
set_option maxHeartbeats 20000000 in
theorem x1_v27 (c : Dev nD) : X1 m c main_v27 = Cert.ReferenceIdeal.Read.val_main_v27 (F := Ideal) (a1 m c) (a2 m c) := by
  unfold X1; after_results_simp; rfl
set_option maxHeartbeats 20000000 in
theorem x1_v28 (c : Dev nD) : X1 m c main_v28 = Cert.ReferenceIdeal.Read.val_main_v28 (F := Ideal) (a1 m c) (a2 m c) := by
  unfold X1; after_results_simp; rfl

/-- An argument array is the launch memory's at every boundary up to the first region. -/
theorem x1_arg (c : Dev nD) (r : Ref sig .tc) (h : r ∉ hostOps0_W) : X1 m c r = m (c, r) := X1_of m c r h

/-! ## Layer 1 -/

theorem x2_v29 (c : Dev nD) : X2 m c main_v29 = Cert.ReferenceIdeal.Read.val_main_v29 (F := Ideal) (a0 m c) (a4 m c) := by
  unfold X2; rw [Function.update_self, arr0]
  show Host.dotGeneral (F := Ideal) (φ₁ := .f32) (φ₂ := .f32) _ none (X1 m c main_arg0) (X1 m c main_arg4) = _
  rw [X1_of m c main_arg0 (by decide), X1_of m c main_arg4 (by decide)]
  rfl

/-! ## Layer 1 -/

set_option maxHeartbeats 20000000 in
theorem x3_v42 (c : Dev nD) : X3 m c main_v42 = Cert.ReferenceIdeal.Read.val_main_v42 (F := Ideal) (a0 m c) (a1 m c) (a2 m c) (a4 m c) := by
  unfold X3; after_results_simp
  simp (disch := decide) only [X2_of']
  rw [x1_v27, x1_v1, x1_v3, x2_v29]; rfl
set_option maxHeartbeats 20000000 in
theorem x3_v43 (c : Dev nD) : X3 m c main_v43 = Cert.ReferenceIdeal.Read.val_main_v43 (F := Ideal) (a1 m c) (a2 m c) := by
  unfold X3; after_results_simp
  simp (disch := decide) only [X2_of']
  rw [x1_v28]
  exact cast_col_eq_bcast _ _ _
set_option maxHeartbeats 20000000 in
theorem x3_v44 (c : Dev nD) : X3 m c main_v44 = Cert.ReferenceIdeal.Read.val_main_v47 (F := Ideal) (a5 m c) := by
  unfold X3; after_results_simp
  simp (disch := decide) only [X2_of', X1_of']
  exact cast_row_eq_bcast _ _ _
theorem x4_v45 (c : Dev nD) : X4 m c main_v45 = Cert.ReferenceIdeal.Read.val_main_v50 (F := Ideal) (a0 m c) (a1 m c) (a2 m c) (a4 m c) (a5 m c) := by
  unfold X4; rw [Function.update_self, arr1]
  show maximumf (F := Ideal) (φ := .f32) (addf (F := Ideal) (φ := .f32) (addf (X3 m c main_v42) (mulf (broadcastInDim _ _ _ (X3 m c main_v43)) (X3 m c main_v29))) (broadcastInDim _ _ _ (X3 m c main_v44))) _ = _
  rw [x3_v42, x3_v43, x3_v44]
  simp (disch := decide) only [X3_of']
  rw [x2_v29]; rfl
theorem x5_v46 (c : Dev nD) : X5 m c main_v46 = Cert.ReferenceIdeal.Read.val_main_v51 (F := Ideal) (a0 m c) (a1 m c) (a2 m c) (a4 m c) (a5 m c) (a6 m c) := by
  unfold X5; rw [Function.update_self, arr2]
  show Host.dotGeneral (F := Ideal) (φ₁ := .f32) (φ₂ := .f32) _ none (X4 m c main_v45) (X4 m c main_arg6) = _
  simp (disch := decide) only [X4_of', X3_of', X2_of', X1_of']
  rw [x4_v45]; rfl

/-! ## Layer 2 -/

set_option maxHeartbeats 20000000 in
theorem x6_v59 (c : Dev nD) : X6 m c main_v59 = Cert.ReferenceIdeal.Read.val_main_v64 (F := Ideal) (a0 m c) (a1 m c) (a2 m c) (a4 m c) (a5 m c) (a6 m c) := by
  unfold X6; after_results_simp
  simp (disch := decide) only [X5_of', X4_of', X3_of', X2_of']
  rw [x1_v27, x1_v1, x1_v3, x5_v46]; rfl
set_option maxHeartbeats 20000000 in
theorem x6_v60 (c : Dev nD) : X6 m c main_v60 = Cert.ReferenceIdeal.Read.val_main_v65 (F := Ideal) (a1 m c) (a2 m c) := by
  unfold X6; after_results_simp
  simp (disch := decide) only [X5_of', X4_of', X3_of', X2_of']
  rw [x1_v28]
  exact cast_col_eq_bcast _ _ _
set_option maxHeartbeats 20000000 in
theorem x6_v61 (c : Dev nD) : X6 m c main_v61 = Cert.ReferenceIdeal.Read.val_main_v69 (F := Ideal) (a7 m c) := by
  unfold X6; after_results_simp
  simp (disch := decide) only [X5_of', X4_of', X3_of', X2_of', X1_of']
  exact cast_row_eq_bcast _ _ _
theorem x7_v62 (c : Dev nD) : X7 m c main_v62 = Cert.ReferenceIdeal.Read.val_main_v72 (F := Ideal) (a0 m c) (a1 m c) (a2 m c) (a4 m c) (a5 m c) (a6 m c) (a7 m c) := by
  unfold X7; rw [Function.update_self, arr3]
  show maximumf (F := Ideal) (φ := .f32) (addf (F := Ideal) (φ := .f32) (addf (X6 m c main_v59) (mulf (broadcastInDim _ _ _ (X6 m c main_v60)) (X6 m c main_v46))) (broadcastInDim _ _ _ (X6 m c main_v61))) _ = _
  rw [x6_v59, x6_v60, x6_v61]
  simp (disch := decide) only [X6_of']
  rw [x5_v46]; rfl
theorem x8_v63 (c : Dev nD) : X8 m c main_v63 = Cert.ReferenceIdeal.Read.val_main_v73 (F := Ideal) (a0 m c) (a1 m c) (a2 m c) (a4 m c) (a5 m c) (a6 m c) (a7 m c) (a8 m c) := by
  unfold X8; rw [Function.update_self, arr4]
  show Host.dotGeneral (F := Ideal) (φ₁ := .f32) (φ₂ := .f32) _ none (X7 m c main_v62) (X7 m c main_arg8) = _
  simp (disch := decide) only [X7_of', X6_of', X5_of', X4_of', X3_of', X2_of', X1_of']
  rw [x7_v62]; rfl

/-! ## Layer 3 -/

set_option maxHeartbeats 20000000 in
theorem x9_v76 (c : Dev nD) : X9 m c main_v76 = Cert.ReferenceIdeal.Read.val_main_v86 (F := Ideal) (a0 m c) (a1 m c) (a2 m c) (a4 m c) (a5 m c) (a6 m c) (a7 m c) (a8 m c) := by
  unfold X9; after_results_simp
  simp (disch := decide) only [X8_of', X7_of', X6_of', X5_of', X4_of', X3_of', X2_of']
  rw [x1_v27, x1_v1, x1_v3, x8_v63]; rfl
set_option maxHeartbeats 20000000 in
theorem x9_v77 (c : Dev nD) : X9 m c main_v77 = Cert.ReferenceIdeal.Read.val_main_v87 (F := Ideal) (a1 m c) (a2 m c) := by
  unfold X9; after_results_simp
  simp (disch := decide) only [X8_of', X7_of', X6_of', X5_of', X4_of', X3_of', X2_of']
  rw [x1_v28]
  exact cast_col_eq_bcast _ _ _
set_option maxHeartbeats 20000000 in
theorem x9_v78 (c : Dev nD) : X9 m c main_v78 = Cert.ReferenceIdeal.Read.val_main_v91 (F := Ideal) (a9 m c) := by
  unfold X9; after_results_simp
  simp (disch := decide) only [X8_of', X7_of', X6_of', X5_of', X4_of', X3_of', X2_of', X1_of']
  exact cast_row_eq_bcast _ _ _
theorem x10_v79 (c : Dev nD) : X10 m c main_v79 = Cert.ReferenceIdeal.Read.val_main_v93 (F := Ideal) (a0 m c) (a1 m c) (a2 m c) (a4 m c) (a5 m c) (a6 m c) (a7 m c) (a8 m c) (a9 m c) := by
  unfold X10; rw [Function.update_self, arr5]
  show (addf (F := Ideal) (φ := .f32) (addf (X9 m c main_v76) (mulf (broadcastInDim _ _ _ (X9 m c main_v77)) (X9 m c main_v63))) (broadcastInDim _ _ _ (X9 m c main_v78))) = _
  rw [x9_v76, x9_v77, x9_v78]
  simp (disch := decide) only [X9_of']
  rw [x8_v63]; rfl

/-! ## The read-out and the pooling -/

set_option maxHeartbeats 20000000 in
theorem x11_v80 (c : Dev nD) : X11 m c main_v80 = Cert.ReferenceIdeal.Read.val_main_v95 (F := Ideal) (a11 m c) := by
  unfold X11; after_results_simp
  simp (disch := decide) only [X10_of', X9_of', X8_of', X7_of', X6_of', X5_of', X4_of', X3_of', X2_of', X1_of']
  exact cast_row_eq_bcast _ _ _
set_option maxHeartbeats 20000000 in
theorem x11_v81 (c : Dev nD) : X11 m c main_v81 = Cert.ReferenceIdeal.Read.val_main_v100 (F := Ideal) (a13 m c) := by
  unfold X11; after_results_simp
  simp (disch := decide) only [X10_of', X9_of', X8_of', X7_of', X6_of', X5_of', X4_of', X3_of', X2_of', X1_of']
  exact cast_row_eq_bcast _ _ _
set_option maxHeartbeats 20000000 in
theorem x13_v83 (c : Dev nD) : X13 m c main_v83 = Cert.ReferenceIdeal.Read.val_main_v104 (F := Ideal) (a3 m c) := by
  unfold X13; after_results_simp
  simp (disch := decide) only [X12_of', X11_of', X10_of', X9_of', X8_of', X7_of', X6_of', X5_of', X4_of', X3_of', X2_of', X1_of']
  exact cast_col_eq_bcast _ _ _

theorem x12_v82 (c : Dev nD) : X12 m c main_v82 = Cert.ReferenceIdeal.Read.val_main_v102 (F := Ideal) (a0 m c) (a1 m c) (a2 m c) (a4 m c) (a5 m c) (a6 m c) (a7 m c) (a8 m c) (a9 m c) (a10 m c) (a11 m c) (a12 m c) (a13 m c) := by
  unfold X12; rw [Function.update_self, arr6]
  show addf (F := Ideal) (φ := .f32) (Host.dotGeneral (φ₁ := .f32) (φ₂ := .f32) _ none
      (maximumf (addf (Host.dotGeneral (φ₁ := .f32) (φ₂ := .f32) _ none (X11 m c main_v79) (X11 m c main_arg10)) (broadcastInDim _ _ _ (X11 m c main_v80))) _)
      (X11 m c main_arg12)) (broadcastInDim _ _ _ (X11 m c main_v81)) = _
  rw [x11_v80, x11_v81]
  simp (disch := decide) only [X11_of', X10_of', X9_of', X8_of', X7_of', X6_of', X5_of', X4_of', X3_of', X2_of', X1_of']
  rw [x10_v79]; rfl

theorem x14_v84 (c : Dev nD) : X14 m c main_v84 = Cert.ReferenceIdeal.Read.val_main_v113 (F := Ideal) (a0 m c) (a1 m c) (a2 m c) (a3 m c) (a4 m c) (a5 m c) (a6 m c) (a7 m c) (a8 m c) (a9 m c) (a10 m c) (a11 m c) (a12 m c) (a13 m c) := by
  unfold X14; rw [Function.update_self, arr7_G]
  show G7 (X13 m c main_v82) (X13 m c main_v83) = _
  rw [x13_v83]
  simp (disch := decide) only [X13_of']
  rw [x12_v82]; rfl

/-- The kernel program's result is the reference's result term of the arguments. -/
theorem result_eq (c : Dev nD) : result m c = Cert.ReferenceIdeal.Read.val_main_v113 (F := Ideal) (a0 m c) (a1 m c) (a2 m c) (a3 m c) (a4 m c) (a5 m c) (a6 m c) (a7 m c) (a8 m c) (a9 m c) (a10 m c) (a11 m c) (a12 m c) (a13 m c) := x14_v84 m c

end Cert.KernelIdeal.Hand
end
-- ==== Proof.lean ====
/-
  The certificate of the graph-convolution kernel program against its jnp reference.

  The kernel program is eight tiled kernel regions among stretches of host operations: per layer a node-tiled
  product h · W and a node-tiled combine  agg + self_norm · lin + bias  (followed by max(·, 0) in the first two layers),
  then the two-layer read-out on node tiles and the graph-mean pooling, which accumulates one-hot products of
  5000-row tiles in two carried accumulators and divides at the last tile.  The edge gathers and the accumulating
  scatters are host operations, the same in both programs.

  Frames.  Each region's body is run once at a generic grid point (the pooling region once per control case), the
  regions are chained through the contents of the unscoped buffers at the boundaries between @main's items, and the
  argument arrays are read back unchanged at the end; the same text serves the word-level program and the
  idealized one.  The reference has no kernel: its frame is its run with the result dropped.

  Equivalence over the extended reals.  At the ideal instance a change of float format is the identity, a tile
  product into a zero accumulator and the host's dot_general are the same sum over the contracted axis, and the
  tiles of an output array are the restrictions of one whole-array function; so every region's output array is
  the reference's own operations applied to the region's input arrays.  For the pooling, 0 · x = 0 and 1 · x = x on
  the extended reals and sums are commutative and associative, so the twenty one-hot tile products add up to the
  accumulating scatter over all nodes, and a graph id outside 0 … 511 contributes to neither side.  The two programs'
  results are then the same term of the arguments; no finiteness of the inputs is used.
-/
import proofs.«423338_j21947282882770_1_alg».proof.Defs
import proofs.«423338_j21947282882770_1_alg».proof.Proof.Gen.Kernel
import proofs.«423338_j21947282882770_1_alg».proof.Proof.Gen.KernelIdeal
import proofs.«423338_j21947282882770_1_alg».proof.Proof.Gen.ReferenceIdeal
import proofs.«423338_j21947282882770_1_alg».proof.Proof.Gen.Pre_finite_inputs
import proofs.«423338_j21947282882770_1_alg».proof.Proof.Gen.ReferenceIdeal.Run
import proofs.«423338_j21947282882770_1_alg».proof.Proof.Gen.ReferenceIdeal.Read
import proofs.«423338_j21947282882770_1_alg».proof.Proof.K.Run
import proofs.«423338_j21947282882770_1_alg».proof.Proof.KI.Run
import proofs.«423338_j21947282882770_1_alg».proof.Proof.KI.Bridge
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ =>
  (θ_run Cert.Kernel.defs _ _).mono (fun _ h c => (h c).2) (Cert.Kernel.Hand.run_main (F := Bits) m ρ)

/-- So does the idealized program. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel program's is the
    reference's result term of its own arguments, and the arguments agree. -/
theorem algebraic : Cert.algebraic_KernelIdeal_ReferenceIdeal := by
  intro m ρ m' ρ' _ hagree
  refine ⟨fun c => Cert.KernelIdeal.Hand.result m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.result m c
  rw [Cert.ReferenceIdeal.Read.val_main_v113_eq, Cert.KernelIdeal.Hand.result_eq]
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
